-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1470 : Shape := ⟨2, ![16384, 1470]⟩
abbrev S16384x8x5 : Shape := ⟨3, ![16384, 8, 5]⟩
abbrev S16384x8x4 : Shape := ⟨3, ![16384, 8, 4]⟩
abbrev S16384x8x2 : Shape := ⟨3, ![16384, 8, 2]⟩
abbrev S_ : Shape := ⟨0, ![]⟩
abbrev S16384x8x1 : Shape := ⟨3, ![16384, 8, 1]⟩
abbrev S16384x8 : Shape := ⟨2, ![16384, 8]⟩

class Facts : Prop where
  slices_S16384x8x5_S16384x8x4_0_0_0 : S16384x8x5.Slices ![0, 0, 0] S16384x8x4
  slices_S16384x8x4_S16384x8x2_0_0_2 : S16384x8x4.Slices ![0, 0, 2] S16384x8x2
  slices_S16384x8x4_S16384x8x2_0_0_0 : S16384x8x4.Slices ![0, 0, 0] S16384x8x2
  bcast_S_S16384x8x2 : S_.BroadcastsInDim S16384x8x2 (![] : Fin 0 → Fin S16384x8x2.rank)
  slices_S16384x8x2_S16384x8x1_0_0_1 : S16384x8x2.Slices ![0, 0, 1] S16384x8x1
  shapeCasts_S16384x8x1_S16384x8 : S16384x8x1.ShapeCasts S16384x8
  bcast_S_S16384x1470 : S_.BroadcastsInDim S16384x1470 (![] : Fin 0 → Fin S16384x1470.rank)
  reducesTo_S16384x1470_S_d0_1 : S16384x1470.ReducesTo [0, 1] S_
  h_S_ : 0 < S_.numel
  bcast_S_S16384x8x5 : S_.BroadcastsInDim S16384x8x5 (![] : Fin 0 → Fin S16384x8x5.rank)
  reducesTo_S16384x8x5_S_d0_1_2 : S16384x8x5.ReducesTo [0, 1, 2] S_
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_v8 : IVec S16384x8 32) (main_v17 : IVec S_ 1) (main_c_3 : IVec S_ 32) : IVec S_ 1 :=
  let main_v18 : IVec S16384x8 32 := broadcastInDim S16384x8 ![] bcast_S_S16384x8 main_c_3
  let main_v19 : IVec S16384x8 1 := cmpi .slt main_v8 main_v18
  let main_c_4 : IVec S_ 1 := constantI S_ 1 1#1
  let main_v20 : IVec S_ 1 := (fun x v => Host.reduce IntOp.andi x v reducesTo_S16384x8_S_d0_1 h_S_) main_v19 main_c_4
  let main_v21 : IVec S_ 1 := andi main_v17 main_v20
  let main_c_5 : IVec S_ 32 := constantI S_ 32 0#32
  let main_v22 : IVec S16384x8 32 := broadcastInDim S16384x8 ![] bcast_S_S16384x8 main_c_5
  let main_v23 : IVec S16384x8 1 := cmpi .sge main_v8 main_v22
  let main_c_6 : IVec S_ 1 := constantI S_ 1 1#1
  let main_v24 : IVec S_ 1 := (fun x v => Host.reduce IntOp.andi x v reducesTo_S16384x8_S_d0_1 h_S_) main_v23 main_c_6
  let main_v25 : IVec S_ 1 := andi main_v21 main_v24
  main_v25

def fn {F : FTy → Type} [FloatOps F] (main_arg0 : FVec F S16384x1470 .f32) (main_arg1 : FVec F S16384x8x5 .f32) : IVec S_ 1 :=
  let main_v0 : FVec F S16384x8x4 .f32 := (extractStridedSlice S16384x8x4 ![0, 0, 0] · slices_S16384x8x5_S16384x8x4_0_0_0) main_arg1
  let main_v1 : FVec F S16384x8x2 .f32 := (extractStridedSlice S16384x8x2 ![0, 0, 2] · slices_S16384x8x4_S16384x8x2_0_0_2) main_v0
  let main_v2 : FVec F S16384x8x2 .f32 := (extractStridedSlice S16384x8x2 ![0, 0, 0] · slices_S16384x8x4_S16384x8x2_0_0_0) main_v0
  let main_v3 : FVec F S16384x8x2 .f32 := subf main_v1 main_v2
  let main_cst : FVec F S_ .f32 := constant S_ .f32 0x40E00000#32
  let main_v4 : FVec F S16384x8x2 .f32 := broadcastInDim S16384x8x2 ![] bcast_S_S16384x8x2 main_cst
  let main_v5 : FVec F S16384x8x2 .f32 := mulf main_v3 main_v4
  let main_v6 : FVec F S16384x8x1 .f32 := (extractStridedSlice S16384x8x1 ![0, 0, 1] · slices_S16384x8x2_S16384x8x1_0_0_1) main_v5
  let main_v7 : FVec F S16384x8 .f32 := shapeCast S16384x8 main_v6 shapeCasts_S16384x8x1_S16384x8
  let main_v8 : IVec S16384x8 32 := fptosi 32 main_v7
  let main_v9 : FVec F S16384x1470 .f32 := Host.absf main_arg0
  let main_cst_0 : FVec F S_ .f32 := constant S_ .f32 0x7F800000#32
  let main_v10 : FVec F S16384x1470 .f32 := broadcastInDim S16384x1470 ![] bcast_S_S16384x1470 main_cst_0
  let main_v11 : IVec S16384x1470 1 := cmpf .olt main_v9 main_v10
  let main_c : IVec S_ 1 := constantI S_ 1 1#1
  let main_v12 : IVec S_ 1 := (fun x v => Host.reduce IntOp.andi x v reducesTo_S16384x1470_S_d0_1 h_S_) main_v11 main_c
  let main_v13 : FVec F S16384x8x5 .f32 := Host.absf main_arg1
  let main_cst_1 : FVec F S_ .f32 := constant S_ .f32 0x7F800000#32
  let main_v14 : FVec F S16384x8x5 .f32 := broadcastInDim S16384x8x5 ![] bcast_S_S16384x8x5 main_cst_1
  let main_v15 : IVec S16384x8x5 1 := cmpf .olt main_v13 main_v14
  let main_c_2 : IVec S_ 1 := constantI S_ 1 1#1
  let main_v16 : IVec S_ 1 := (fun x v => Host.reduce IntOp.andi x v reducesTo_S16384x8x5_S_d0_1_2 h_S_) main_v15 main_c_2
  let main_v17 : IVec S_ 1 := andi main_v12 main_v16
  let main_c_3 : IVec S_ 32 := constantI S_ 32 20#32
  fn_part1 (F := F) main_v8 main_v17 main_c_3
-- ==== Kernel.lean ====
abbrev S16384x1470 : Shape := ⟨2, ![16384, 1470]⟩
abbrev S16384x8x5 : Shape := ⟨3, ![16384, 8, 5]⟩
abbrev S2 : Shape := ⟨1, ![2]⟩
abbrev S16384x8x4 : Shape := ⟨3, ![16384, 8, 4]⟩
abbrev S16384x8x2 : Shape := ⟨3, ![16384, 8, 2]⟩
abbrev S_ : Shape := ⟨0, ![]⟩
abbrev S16384x8x1 : Shape := ⟨3, ![16384, 8, 1]⟩
abbrev S16384x8 : Shape := ⟨2, ![16384, 8]⟩
abbrev S16384x8x30 : Shape := ⟨3, ![16384, 8, 30]⟩
abbrev S2x1 : Shape := ⟨2, ![2, 1]⟩
abbrev S1 : Shape := ⟨1, ![1]⟩
abbrev S16384 : Shape := ⟨1, ![16384]⟩
abbrev S16384x1 : Shape := ⟨2, ![16384, 1]⟩
abbrev S16384x7x7x30 : Shape := ⟨4, ![16384, 7, 7, 30]⟩
abbrev S16384x8x3 : Shape := ⟨3, ![16384, 8, 3]⟩
abbrev S16384x49x30 : Shape := ⟨3, ![16384, 49, 30]⟩
abbrev S802816x30 : Shape := ⟨2, ![802816, 30]⟩
abbrev S1x1 : Shape := ⟨2, ![1, 1]⟩
abbrev S12544x30 : Shape := ⟨2, ![12544, 30]⟩
abbrev S12544x20 : Shape := ⟨2, ![12544, 20]⟩
abbrev S12544x1 : Shape := ⟨2, ![12544, 1]⟩
abbrev S12544 : Shape := ⟨1, ![12544]⟩
abbrev S12544x2 : Shape := ⟨2, ![12544, 2]⟩

abbrev nBuf : Space → Nat
  | .hbm => 109
  | .vmem => 8
  | .smem => 0
  | _ => 0

abbrev bufTy : (tb : Table) → Fin (tcTables nBuf tb) → BufTy
  | .hbm, ⟨0, _⟩ => ⟨S16384x1470, .f32⟩
  | .hbm, ⟨1, _⟩ => ⟨S16384x8x5, .f32⟩
  | .hbm, ⟨2, _⟩ => ⟨S2, .i32⟩
  | .hbm, ⟨3, _⟩ => ⟨S16384x8x4, .f32⟩
  | .hbm, ⟨4, _⟩ => ⟨S16384x8x2, .f32⟩
  | .hbm, ⟨5, _⟩ => ⟨S16384x8x2, .f32⟩
  | .hbm, ⟨6, _⟩ => ⟨S16384x8x2, .f32⟩
  | .hbm, ⟨7, _⟩ => ⟨S16384x8x2, .f32⟩
  | .hbm, ⟨8, _⟩ => ⟨S16384x8x2, .f32⟩
  | .hbm, ⟨9, _⟩ => ⟨S16384x8x2, .f32⟩
  | .hbm, ⟨10, _⟩ => ⟨S_, .f32⟩
  | .hbm, ⟨11, _⟩ => ⟨S16384x8x2, .f32⟩
  | .hbm, ⟨12, _⟩ => ⟨S16384x8x2, .f32⟩
  | .hbm, ⟨13, _⟩ => ⟨S_, .f32⟩
  | .hbm, ⟨14, _⟩ => ⟨S16384x8x2, .f32⟩
  | .hbm, ⟨15, _⟩ => ⟨S16384x8x2, .f32⟩
  | .hbm, ⟨16, _⟩ => ⟨S16384x8x2, .f32⟩
  | .hbm, ⟨17, _⟩ => ⟨S_, .f32⟩
  | .hbm, ⟨18, _⟩ => ⟨S16384x8x2, .f32⟩
  | .hbm, ⟨19, _⟩ => ⟨S16384x8x2, .f32⟩
  | .hbm, ⟨20, _⟩ => ⟨S_, .f32⟩
  | .hbm, ⟨21, _⟩ => ⟨S16384x8x2, .f32⟩
  | .hbm, ⟨22, _⟩ => ⟨S16384x8x2, .f32⟩
  | .hbm, ⟨23, _⟩ => ⟨S16384x8x2, .f32⟩
  | .hbm, ⟨24, _⟩ => ⟨S16384x8x1, .f32⟩
  | .hbm, ⟨25, _⟩ => ⟨S16384x8, .f32⟩
  | .hbm, ⟨26, _⟩ => ⟨S16384x8, .i32⟩
  | .hbm, ⟨27, _⟩ => ⟨S16384x8x1, .f32⟩
  | .hbm, ⟨28, _⟩ => ⟨S16384x8, .f32⟩
  | .hbm, ⟨29, _⟩ => ⟨S16384x8, .i32⟩
  | .hbm, ⟨30, _⟩ => ⟨S_, .f32⟩
  | .hbm, ⟨31, _⟩ => ⟨S16384x8x30, .f32⟩
  | .hbm, ⟨32, _⟩ => ⟨S_, .i32⟩
  | .hbm, ⟨33, _⟩ => ⟨S2, .i32⟩
  | .hbm, ⟨34, _⟩ => ⟨S2, .i1⟩
  | .hbm, ⟨35, _⟩ => ⟨S_, .i32⟩
  | .hbm, ⟨36, _⟩ => ⟨S2, .i32⟩
  | .hbm, ⟨37, _⟩ => ⟨S2, .i32⟩
  | .hbm, ⟨38, _⟩ => ⟨S2, .i32⟩
  | .hbm, ⟨39, _⟩ => ⟨S2x1, .i32⟩
  | .hbm, ⟨40, _⟩ => ⟨S_, .f32⟩
  | .hbm, ⟨41, _⟩ => ⟨S16384x8x2, .f32⟩
  | .hbm, ⟨42, _⟩ => ⟨S16384x8x30, .f32⟩
  | .hbm, ⟨43, _⟩ => ⟨S16384x8x1, .f32⟩
  | .hbm, ⟨44, _⟩ => ⟨S16384x8, .f32⟩
  | .hbm, ⟨45, _⟩ => ⟨S_, .f32⟩
  | .hbm, ⟨46, _⟩ => ⟨S16384x8, .f32⟩
  | .hbm, ⟨47, _⟩ => ⟨S16384x8, .i1⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S_, .i32⟩
  | .hbm, ⟨52, _⟩ => ⟨S1, .i32⟩
  | .hbm, ⟨53, _⟩ => ⟨S16384x8x30, .f32⟩
  | .hbm, ⟨54, _⟩ => ⟨S_, .f32⟩
  | .hbm, ⟨55, _⟩ => ⟨S16384x8x2, .f32⟩
  | .hbm, ⟨56, _⟩ => ⟨S16384x8x2, .f32⟩
  | .hbm, ⟨57, _⟩ => ⟨S_, .i32⟩
  | .hbm, ⟨58, _⟩ => ⟨S1, .i32⟩
  | .hbm, ⟨59, _⟩ => ⟨S16384x8x30, .f32⟩
  | .hbm, ⟨60, _⟩ => ⟨S_, .i32⟩
  | .hbm, ⟨61, _⟩ => ⟨S1, .i32⟩
  | .hbm, ⟨62, _⟩ => ⟨S16384x8x30, .f32⟩
  | .hbm, ⟨63, _⟩ => ⟨S_, .f32⟩
  | .hbm, ⟨64, _⟩ => ⟨S16384x8x2, .f32⟩
  | .hbm, ⟨65, _⟩ => ⟨S16384x8x2, .f32⟩
  | .hbm, ⟨66, _⟩ => ⟨S_, .i32⟩
  | .hbm, ⟨67, _⟩ => ⟨S1, .i32⟩
  | .hbm, ⟨68, _⟩ => ⟨S16384x8x30, .f32⟩
  | .hbm, ⟨69, _⟩ => ⟨S_, .i32⟩
  | .hbm, ⟨70, _⟩ => ⟨S1, .i32⟩
  | .hbm, ⟨71, _⟩ => ⟨S16384x8x30, .f32⟩
  | .hbm, ⟨72, _⟩ => ⟨S16384, .i32⟩
  | .hbm, ⟨73, _⟩ => ⟨S16384x1, .i32⟩
  | .hbm, ⟨74, _⟩ => ⟨S_, .f32⟩
  | .hbm, ⟨75, _⟩ => ⟨S16384x7x7x30, .f32⟩
  | .hbm, ⟨76, _⟩ => ⟨S_, .i32⟩
  | .hbm, ⟨77, _⟩ => ⟨S16384x1, .i32⟩
  | .hbm, ⟨78, _⟩ => ⟨S16384x1, .i1⟩
  | .hbm, ⟨79, _⟩ => ⟨S_, .i32⟩
  | .hbm, ⟨80, _⟩ => ⟨S16384x1, .i32⟩
  | .hbm, ⟨81, _⟩ => ⟨S16384x1, .i32⟩
  | .hbm, ⟨82, _⟩ => ⟨S16384x1, .i32⟩
  | .hbm, ⟨83, _⟩ => ⟨S_, .i32⟩
  | .hbm, ⟨84, _⟩ => ⟨S16384x8, .i32⟩
  | .hbm, ⟨85, _⟩ => ⟨S16384x8, .i1⟩
  | .hbm, ⟨86, _⟩ => ⟨S_, .i32⟩
  | .hbm, ⟨87, _⟩ => ⟨S16384x8, .i32⟩
  | .hbm, ⟨88, _⟩ => ⟨S16384x8, .i32⟩
  | .hbm, ⟨89, _⟩ => ⟨S16384x8, .i32⟩
  | .hbm, ⟨90, _⟩ => ⟨S_, .i32⟩
  | .hbm, ⟨91, _⟩ => ⟨S16384x8, .i32⟩
  | .hbm, ⟨92, _⟩ => ⟨S16384x8, .i1⟩
  | .hbm, ⟨93, _⟩ => ⟨S_, .i32⟩
  | .hbm, ⟨94, _⟩ => ⟨S16384x8, .i32⟩
  | .hbm, ⟨95, _⟩ => ⟨S16384x8, .i32⟩
  | .hbm, ⟨96, _⟩ => ⟨S16384x8, .i32⟩
  | .hbm, ⟨97, _⟩ => ⟨S16384x8, .i32⟩
  | .hbm, ⟨98, _⟩ => ⟨S16384x8x1, .i32⟩
  | .hbm, ⟨99, _⟩ => ⟨S16384x8x1, .i32⟩
  | .hbm, ⟨100, _⟩ => ⟨S16384x8x1, .i32⟩
  | .hbm, ⟨101, _⟩ => ⟨S16384x8x3, .i32⟩
  | .hbm, ⟨102, _⟩ => ⟨S16384x7x7x30, .f32⟩
  | .hbm, ⟨103, _⟩ => ⟨S16384x49x30, .f32⟩
  | .hbm, ⟨104, _⟩ => ⟨S16384x49x30, .f32⟩
  | .hbm, ⟨105, _⟩ => ⟨S802816x30, .f32⟩
  | .hbm, ⟨106, _⟩ => ⟨S802816x30, .f32⟩
  | .hbm, ⟨107, _⟩ => ⟨S1x1, .f32⟩
  | .hbm, ⟨108, _⟩ => ⟨S_, .f32⟩
  | .local _ .vmem, ⟨0, _⟩ => ⟨S12544x30, .f32⟩
  | .local _ .vmem, ⟨1, _⟩ => ⟨S12544x30, .f32⟩
  | .local _ .vmem, ⟨2, _⟩ => ⟨S12544x30, .f32⟩
  | .local _ .vmem, ⟨3, _⟩ => ⟨S12544x30, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16384x1470, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_c_15 : Ref sig .tc := ⟨.hbm, 76, rfl⟩
abbrev main_v52 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_17 : Ref sig .tc := ⟨.hbm, 83, rfl⟩
abbrev main_v57 : Ref sig .tc := ⟨.hbm, 84, rfl⟩
abbrev main_v58 : Ref sig .tc := ⟨.hbm, 85, rfl⟩
abbrev main_c_18 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_19 : Ref sig .tc := ⟨.hbm, 90, rfl⟩
abbrev main_v62 : Ref sig .tc := ⟨.hbm, 91, rfl⟩
abbrev main_v63 : Ref sig .tc := ⟨.hbm, 92, rfl⟩
abbrev main_c_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v82 : BitVec 1 := Scalar.cmpi .eq arg0 c63_i32
  let v83 : BitVec 32 := Scalar.extui v82
  let c0_i32_28 : BitVec 32 := 0#32
  let v84 : BitVec 1 := Scalar.cmpi .ne v83 c0_i32_28
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12544x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12544x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S16384x8x5_S16384x8x4_0_0_0 : S16384x8x5.Slices ![0, 0, 0] S16384x8x4
  slices_S16384x8x4_S16384x8x2_0_0_2 : S16384x8x4.Slices ![0, 0, 2] S16384x8x2
  slices_S16384x8x4_S16384x8x2_0_0_0 : S16384x8x4.Slices ![0, 0, 0] S16384x8x2
  bcast_S_S16384x8x2 : S_.BroadcastsInDim S16384x8x2 (![] : Fin 0 → Fin S16384x8x2.rank)
  slices_S16384x8x2_S16384x8x1_0_0_0 : S16384x8x2.Slices ![0, 0, 0] S16384x8x1
  shapeCasts_S16384x8x1_S16384x8 : S16384x8x1.ShapeCasts S16384x8
  slices_S16384x8x2_S16384x8x1_0_0_1 : S16384x8x2.Slices ![0, 0, 1] S16384x8x1
  bcast_S_S16384x8x30 : S_.BroadcastsInDim S16384x8x30 (![] : Fin 0 → Fin S16384x8x30.rank)
  bcast_S_S2 : S_.BroadcastsInDim S2 (![] : Fin 0 → Fin S2.rank)
  bcast_S2_S2x1_0 : S2.BroadcastsInDim S2x1 (![0] : Fin 1 → Fin S2x1.rank)
  slices_S16384x8x5_S16384x8x1_0_0_4 : S16384x8x5.Slices ![0, 0, 4] S16384x8x1
  bcast_S_S16384x8 : S_.BroadcastsInDim S16384x8 (![] : Fin 0 → Fin S16384x8.rank)
  bcast_S_S1 : S_.BroadcastsInDim S1 (![] : Fin 0 → Fin S1.rank)
  bcast_S16384_S16384x1_0 : S16384.BroadcastsInDim S16384x1 (![0] : Fin 1 → Fin S16384x1.rank)
  bcast_S_S16384x7x7x30 : S_.BroadcastsInDim S16384x7x7x30 (![] : Fin 0 → Fin S16384x7x7x30.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  concatenates_S16384x8x1_S16384x8x1_S16384x8x1_S16384x8x3_d2 : Shape.Concatenates [S16384x8x1, S16384x8x1, S16384x8x1] S16384x8x3 2
  shapeCasts_S16384x7x7x30_S16384x49x30 : S16384x7x7x30.ShapeCasts S16384x49x30
  shapeCasts_S16384x1470_S16384x49x30 : S16384x1470.ShapeCasts S16384x49x30
  shapeCasts_S16384x49x30_S802816x30 : S16384x49x30.ShapeCasts S802816x30
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S12544x30_S12544x30_0_0 : ∀ a, (![0, 0] : Fin 2 → Nat) a + S12544x30.size a ≤ S12544x30.size a
  h_S12544x30 : 0 < S12544x30.numel
  shapeCasts_S12544x30_S12544x30 : S12544x30.ShapeCasts S12544x30
  slices_S12544x30_o0_10_S12544x20 : S12544x30.Slices ![0, 10] S12544x20
  slices_S12544x30_o0_10_S12544x1 : S12544x30.Slices ![0, 10] S12544x1
  reduces_S12544x20_S12544 : S12544x20.Reduces [1] S12544
  shapeCasts_S12544_S12544x1 : S12544.ShapeCasts S12544x1
  broadcasts_S12544x1_S12544x20 : S12544x1.Broadcasts S12544x20
  iota_S12544x20_d1_w32 : S12544x20.Iotas .tc 32 [1]
  reduces_S12544x1_S1 : S12544x1.Reduces [0] S1
  shapeCasts_S1_S1x1 : S1.ShapeCasts S1x1
  natLt_1_32 : 1 < 32
  slices_S12544x30_o0_0_S12544x2 : S12544x30.Slices ![0, 0] S12544x2
  slices_S12544x30_o0_2_S12544x2 : S12544x30.Slices ![0, 2] S12544x2
  slices_S12544x30_o0_5_S12544x2 : S12544x30.Slices ![0, 5] S12544x2
  slices_S12544x30_o0_7_S12544x2 : S12544x30.Slices ![0, 7] S12544x2
  reduces_S12544x2_S12544 : S12544x2.Reduces [1] S12544
  shapeCasts_S1x1_S_ : S1x1.ShapeCasts S_
  scatter_S16384x8x30_S2x1_S16384x8x2_01_2_2_1_wf : ScatterDims.WF S16384x8x30 S2x1 S16384x8x2 [0, 1] [2] [2] 1
  scatter_S16384x8x30_S1_S16384x8_01_2_2_0_wf : ScatterDims.WF S16384x8x30 S1 S16384x8 [0, 1] [2] [2] 0
  scatter_S16384x8x30_S1_S16384x8x2_012_n_2_0_wf : ScatterDims.WF S16384x8x30 S1 S16384x8x2 [0, 1, 2] [] [2] 0
  scatter_S16384x7x7x30_S16384x8x3_S16384x8x30_2_012_012_2_wf : ScatterDims.WF S16384x7x7x30 S16384x8x3 S16384x8x30 [2] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12544x30.size a ≤ S802816x30.size a
  hwx0_0 : ∀ i : grid0.Coords, EltTy.bits .f32 = 32 ∨ (Rect.block (s := S802816x30) S12544x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12544x30.size a ≤ S802816x30.size a
  hwx0_1 : ∀ i : grid0.Coords, EltTy.bits .f32 = 32 ∨ (Rect.block (s := S802816x30) S12544x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def scatter_S16384x8x30_S2x1_S16384x8x2_01_2_2_1 : ScatterDims S16384x8x30 S2x1 S16384x8x2 where
  updateWindowDims := [0, 1]
  insertedWindowDims := [2]
  scatterDimsToOperandDims := [2]
  indexVectorDim := 1
  wf := scatter_S16384x8x30_S2x1_S16384x8x2_01_2_2_1_wf
def scatter_S16384x8x30_S1_S16384x8_01_2_2_0 : ScatterDims S16384x8x30 S1 S16384x8 where
  updateWindowDims := [0, 1]
  insertedWindowDims := [2]
  scatterDimsToOperandDims := [2]
  indexVectorDim := 0
  wf := scatter_S16384x8x30_S1_S16384x8_01_2_2_0_wf
def scatter_S16384x8x30_S1_S16384x8x2_012_n_2_0 : ScatterDims S16384x8x30 S1 S16384x8x2 where
  updateWindowDims := [0, 1, 2]
  insertedWindowDims := []
  scatterDimsToOperandDims := [2]
  indexVectorDim := 0
  wf := scatter_S16384x8x30_S1_S16384x8x2_012_n_2_0_wf
def scatter_S16384x7x7x30_S16384x8x3_S16384x8x30_2_012_012_2 : ScatterDims S16384x7x7x30 S16384x8x3 S16384x8x30 where
  updateWindowDims := [2]
  insertedWindowDims := [0, 1, 2]
  scatterDimsToOperandDims := [0, 1, 2]
  indexVectorDim := 2
  wf := scatter_S16384x7x7x30_S16384x8x3_S16384x8x30_2_012_012_2_wf

abbrev win0_0 : Pipeline.Window sig grid0 :=
  Pipeline.Window.ofSpec (Memref.whole main_v76) S12544x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S12544x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1470 : Shape := ⟨2, ![16384, 1470]⟩
abbrev S16384x8x5 : Shape := ⟨3, ![16384, 8, 5]⟩
abbrev S2 : Shape := ⟨1, ![2]⟩
abbrev S16384x8x4 : Shape := ⟨3, ![16384, 8, 4]⟩
abbrev S16384x8x2 : Shape := ⟨3, ![16384, 8, 2]⟩
abbrev S_ : Shape := ⟨0, ![]⟩
abbrev S16384x8x1 : Shape := ⟨3, ![16384, 8, 1]⟩
abbrev S16384x8 : Shape := ⟨2, ![16384, 8]⟩
abbrev S16384x8x30 : Shape := ⟨3, ![16384, 8, 30]⟩
abbrev S2x1 : Shape := ⟨2, ![2, 1]⟩
abbrev S1 : Shape := ⟨1, ![1]⟩
abbrev S16384 : Shape := ⟨1, ![16384]⟩
abbrev S16384x1 : Shape := ⟨2, ![16384, 1]⟩
abbrev S16384x7x7x30 : Shape := ⟨4, ![16384, 7, 7, 30]⟩
abbrev S16384x8x3 : Shape := ⟨3, ![16384, 8, 3]⟩
abbrev S16384x49x30 : Shape := ⟨3, ![16384, 49, 30]⟩
abbrev S802816x30 : Shape := ⟨2, ![802816, 30]⟩
abbrev S802816x20 : Shape := ⟨2, ![802816, 20]⟩
abbrev S802816x1 : Shape := ⟨2, ![802816, 1]⟩
abbrev S802816 : Shape := ⟨1, ![802816]⟩
abbrev S802816x1x1 : Shape := ⟨3, ![802816, 1, 1]⟩
abbrev S1x1x1 : Shape := ⟨3, ![1, 1, 1]⟩
abbrev S802816x10 : Shape := ⟨2, ![802816, 10]⟩
abbrev S802816x2x5 : Shape := ⟨3, ![802816, 2, 5]⟩
abbrev S802816x2x2 : Shape := ⟨3, ![802816, 2, 2]⟩

abbrev nBuf : Space → Nat
  | .hbm => 191
  | .vmem => 0
  | .smem => 0
  | _ => 0

abbrev hbmTy0_0 (i : Nat) : BufTy := match i % 128 with
  | 0 => ⟨S16384x1470, .f32⟩
  | 1 => ⟨S16384x8x5, .f32⟩
  | 2 => ⟨S2, .i32⟩
  | 3 => ⟨S16384x8x4, .f32⟩
  | 4 => ⟨S16384x8x2, .f32⟩
  | 5 => ⟨S16384x8x2, .f32⟩
  | 6 => ⟨S16384x8x2, .f32⟩
  | 7 => ⟨S16384x8x2, .f32⟩
  | 8 => ⟨S16384x8x2, .f32⟩
  | 9 => ⟨S16384x8x2, .f32⟩
  | 10 => ⟨S_, .f32⟩
  | 11 => ⟨S16384x8x2, .f32⟩
  | 12 => ⟨S16384x8x2, .f32⟩
  | 13 => ⟨S_, .f32⟩
  | 14 => ⟨S16384x8x2, .f32⟩
  | 15 => ⟨S16384x8x2, .f32⟩
  | 16 => ⟨S16384x8x2, .f32⟩
  | 17 => ⟨S_, .f32⟩
  | 18 => ⟨S16384x8x2, .f32⟩
  | 19 => ⟨S16384x8x2, .f32⟩
  | 20 => ⟨S_, .f32⟩
  | 21 => ⟨S16384x8x2, .f32⟩
  | 22 => ⟨S16384x8x2, .f32⟩
  | 23 => ⟨S16384x8x2, .f32⟩
  | 24 => ⟨S16384x8x1, .f32⟩
  | 25 => ⟨S16384x8, .f32⟩
  | 26 => ⟨S16384x8, .i32⟩
  | 27 => ⟨S16384x8x1, .f32⟩
  | 28 => ⟨S16384x8, .f32⟩
  | 29 => ⟨S16384x8, .i32⟩
  | 30 => ⟨S_, .f32⟩
  | 31 => ⟨S16384x8x30, .f32⟩
  | 32 => ⟨S_, .i32⟩
  | 33 => ⟨S2, .i32⟩
  | 34 => ⟨S2, .i1⟩
  | 35 => ⟨S_, .i32⟩
  | 36 => ⟨S2, .i32⟩
  | 37 => ⟨S2, .i32⟩
  | 38 => ⟨S2, .i32⟩
  | 39 => ⟨S2x1, .i32⟩
  | 40 => ⟨S_, .f32⟩
  | 41 => ⟨S16384x8x2, .f32⟩
  | 42 => ⟨S16384x8x30, .f32⟩
  | 43 => ⟨S16384x8x1, .f32⟩
  | 44 => ⟨S16384x8, .f32⟩
  | 45 => ⟨S_, .f32⟩
  | 46 => ⟨S16384x8, .f32⟩
  | 47 => ⟨S16384x8, .i1⟩
  | 48 => ⟨S16384x8, .f32⟩
  | 49 => ⟨S16384x8, .f32⟩
  | 50 => ⟨S16384x8, .f32⟩
  | 51 => ⟨S_, .i32⟩
  | 52 => ⟨S1, .i32⟩
  | 53 => ⟨S16384x8x30, .f32⟩
  | 54 => ⟨S_, .f32⟩
  | 55 => ⟨S16384x8x2, .f32⟩
  | 56 => ⟨S16384x8x2, .f32⟩
  | 57 => ⟨S_, .i32⟩
  | 58 => ⟨S1, .i32⟩
  | 59 => ⟨S16384x8x30, .f32⟩
  | 60 => ⟨S_, .i32⟩
  | 61 => ⟨S1, .i32⟩
  | 62 => ⟨S16384x8x30, .f32⟩
  | 63 => ⟨S_, .f32⟩
  | 64 => ⟨S16384x8x2, .f32⟩
  | 65 => ⟨S16384x8x2, .f32⟩
  | 66 => ⟨S_, .i32⟩
  | 67 => ⟨S1, .i32⟩
  | 68 => ⟨S16384x8x30, .f32⟩
  | 69 => ⟨S_, .i32⟩
  | 70 => ⟨S1, .i32⟩
  | 71 => ⟨S16384x8x30, .f32⟩
  | 72 => ⟨S16384, .i32⟩
  | 73 => ⟨S16384x1, .i32⟩
  | 74 => ⟨S_, .f32⟩
  | 75 => ⟨S16384x7x7x30, .f32⟩
  | 76 => ⟨S_, .i32⟩
  | 77 => ⟨S16384x1, .i32⟩
  | 78 => ⟨S16384x1, .i1⟩
  | 79 => ⟨S_, .i32⟩
  | 80 => ⟨S16384x1, .i32⟩
  | 81 => ⟨S16384x1, .i32⟩
  | 82 => ⟨S16384x1, .i32⟩
  | 83 => ⟨S_, .i32⟩
  | 84 => ⟨S16384x8, .i32⟩
  | 85 => ⟨S16384x8, .i1⟩
  | 86 => ⟨S_, .i32⟩
  | 87 => ⟨S16384x8, .i32⟩
  | 88 => ⟨S16384x8, .i32⟩
  | 89 => ⟨S16384x8, .i32⟩
  | 90 => ⟨S_, .i32⟩
  | 91 => ⟨S16384x8, .i32⟩
  | 92 => ⟨S16384x8, .i1⟩
  | 93 => ⟨S_, .i32⟩
  | 94 => ⟨S16384x8, .i32⟩
  | 95 => ⟨S16384x8, .i32⟩
  | 96 => ⟨S16384x8, .i32⟩
  | 97 => ⟨S16384x8, .i32⟩
  | 98 => ⟨S16384x8x1, .i32⟩
  | 99 => ⟨S16384x8x1, .i32⟩
  | 100 => ⟨S16384x8x1, .i32⟩
  | 101 => ⟨S16384x8x3, .i32⟩
  | 102 => ⟨S16384x7x7x30, .f32⟩
  | 103 => ⟨S16384x49x30, .f32⟩
  | 104 => ⟨S16384x49x30, .f32⟩
  | 105 => ⟨S802816x30, .f32⟩
  | 106 => ⟨S802816x30, .f32⟩
  | 107 => ⟨S802816x20, .f32⟩
  | 108 => ⟨S802816x1, .f32⟩
  | 109 => ⟨S802816, .f32⟩
  | 110 => ⟨S802816, .i32⟩
  | 111 => ⟨S_, .f32⟩
  | 112 => ⟨S802816, .f32⟩
  | 113 => ⟨S_, .f32⟩
  | 114 => ⟨S802816, .f32⟩
  | 115 => ⟨S802816, .f32⟩
  | 116 => ⟨S802816x1, .f32⟩
  | 117 => ⟨S802816x20, .f32⟩
  | 118 => ⟨S802816x20, .f32⟩
  | 119 => ⟨S802816x20, .f32⟩
  | 120 => ⟨S_, .f32⟩
  | 121 => ⟨S802816, .f32⟩
  | 122 => ⟨S802816x1, .f32⟩
  | 123 => ⟨S802816x1, .f32⟩
  | 124 => ⟨S802816x20, .f32⟩
  | 125 => ⟨S802816x20, .f32⟩
  | 126 => ⟨S802816x1, .i32⟩
  | 127 => ⟨S_, .i32⟩
  | _ => ⟨S16384x1470, .f32⟩

abbrev hbmTy0_1 (i : Nat) : BufTy := match i % 128 with
  | 0 => ⟨S802816x1, .i32⟩
  | 1 => ⟨S802816x1, .i1⟩
  | 2 => ⟨S_, .i32⟩
  | 3 => ⟨S802816x1, .i32⟩
  | 4 => ⟨S802816x1, .i32⟩
  | 5 => ⟨S802816x1, .i32⟩
  | 6 => ⟨S802816x1x1, .i32⟩
  | 7 => ⟨S1, .i32⟩
  | 8 => ⟨S_, .i32⟩
  | 9 => ⟨S802816x1x1, .i32⟩
  | 10 => ⟨S802816x1x1, .i1⟩
  | 11 => ⟨S1x1x1, .i32⟩
  | 12 => ⟨S802816x1x1, .i32⟩
  | 13 => ⟨S802816x1x1, .i1⟩
  | 14 => ⟨S802816x1x1, .i1⟩
  | 15 => ⟨S_, .i1⟩
  | 16 => ⟨S802816x1, .i1⟩
  | 17 => ⟨S802816x1, .f32⟩
  | 18 => ⟨S_, .f32⟩
  | 19 => ⟨S802816x1, .f32⟩
  | 20 => ⟨S802816x1, .f32⟩
  | 21 => ⟨S_, .f32⟩
  | 22 => ⟨S_, .f32⟩
  | 23 => ⟨S_, .f32⟩
  | 24 => ⟨S_, .f32⟩
  | 25 => ⟨S_, .f32⟩
  | 26 => ⟨S802816x1, .f32⟩
  | 27 => ⟨S802816, .f32⟩
  | 28 => ⟨S_, .f32⟩
  | 29 => ⟨S802816, .f32⟩
  | 30 => ⟨S802816, .i1⟩
  | 31 => ⟨S802816, .f32⟩
  | 32 => ⟨S802816x10, .f32⟩
  | 33 => ⟨S802816x2x5, .f32⟩
  | 34 => ⟨S802816x10, .f32⟩
  | 35 => ⟨S802816x2x5, .f32⟩
  | 36 => ⟨S802816x2x2, .f32⟩
  | 37 => ⟨S802816x2x2, .f32⟩
  | 38 => ⟨S802816x2x2, .f32⟩
  | 39 => ⟨S802816x2x2, .f32⟩
  | 40 => ⟨S_, .f32⟩
  | 41 => ⟨S802816, .f32⟩
  | 42 => ⟨S802816x2x2, .f32⟩
  | 43 => ⟨S802816x2x2, .f32⟩
  | 44 => ⟨S802816x2x2, .f32⟩
  | 45 => ⟨S802816x2x2, .f32⟩
  | 46 => ⟨S_, .f32⟩
  | 47 => ⟨S802816, .f32⟩
  | 48 => ⟨S_, .f32⟩
  | 49 => ⟨S_, .f32⟩
  | 50 => ⟨S_, .f32⟩
  | 51 => ⟨S_, .f32⟩
  | 52 => ⟨S802816, .f32⟩
  | 53 => ⟨S_, .f32⟩
  | 54 => ⟨S_, .f32⟩
  | 55 => ⟨S802816, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S16384x1470, .f32⟩

abbrev hbmTy (i : Nat) : BufTy := match i / 128 with
  | 0 => hbmTy0_0 i
  | 1 => hbmTy0_1 i
  | _ => ⟨S16384x1470, .f32⟩

abbrev bufTy : (tb : Table) → Fin (tcTables nBuf tb) → BufTy
  | .hbm, ⟨i, _⟩ => hbmTy i
  | _, _ => ⟨S16384x1470, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_c_15 : Ref sig .tc := ⟨.hbm, 76, rfl⟩
abbrev main_v52 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_17 : Ref sig .tc := ⟨.hbm, 83, rfl⟩
abbrev main_v57 : Ref sig .tc := ⟨.hbm, 84, rfl⟩
abbrev main_v58 : Ref sig .tc := ⟨.hbm, 85, rfl⟩
abbrev main_c_18 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_19 : Ref sig .tc := ⟨.hbm, 90, rfl⟩
abbrev main_v62 : Ref sig .tc := ⟨.hbm, 91, rfl⟩
abbrev main_v63 : Ref sig .tc := ⟨.hbm, 92, rfl⟩
abbrev main_c_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call1_cst : Ref sig .tc := ⟨.hbm, 111, rfl⟩
abbrev main_call1_v0 : Ref sig .tc := ⟨.hbm, 112, rfl⟩
abbrev main_call1_cst_0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_cst_1 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_v81 : Ref sig .tc := ⟨.hbm, 125, rfl⟩
abbrev main_v82 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_c_1 : Ref sig .tc := ⟨.hbm, 135, rfl⟩
abbrev main_call2_c_2 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_3 : Ref sig .tc := ⟨.hbm, 143, rfl⟩
abbrev main_call2_v12 : Ref sig .tc := ⟨.hbm, 144, rfl⟩
abbrev main_call2_v13 : Ref sig .tc := ⟨.hbm, 145, rfl⟩
abbrev main_call2_cst : Ref sig .tc := ⟨.hbm, 146, rfl⟩
abbrev main_call2_v14 : Ref sig .tc := ⟨.hbm, 147, rfl⟩
abbrev main_v83 : Ref sig .tc := ⟨.hbm, 148, rfl⟩
abbrev main_cst_21 : Ref sig .tc := ⟨.hbm, 149, rfl⟩
abbrev main_v84 : Ref sig .tc := ⟨.hbm, 150, rfl⟩
abbrev main_cst_22 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_23 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_24 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_25 : Ref sig .tc := ⟨.hbm, 174, rfl⟩
abbrev main_v105 : Ref sig .tc := ⟨.hbm, 175, rfl⟩
abbrev main_cst_26 : Ref sig .tc := ⟨.hbm, 176, rfl⟩
abbrev main_v106 : Ref sig .tc := ⟨.hbm, 177, rfl⟩
abbrev main_cst_27 : Ref sig .tc := ⟨.hbm, 178, rfl⟩
abbrev main_v107 : Ref sig .tc := ⟨.hbm, 179, rfl⟩
abbrev main_v108 : Ref sig .tc := ⟨.hbm, 180, rfl⟩
abbrev main_cst_28 : Ref sig .tc := ⟨.hbm, 181, rfl⟩
abbrev main_v109 : Ref sig .tc := ⟨.hbm, 182, rfl⟩
abbrev main_v110 : Ref sig .tc := ⟨.hbm, 183, rfl⟩
abbrev main_cst_29 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_30 : Ref sig .tc := ⟨.hbm, 188, rfl⟩
abbrev main_v114 : Ref sig .tc := ⟨.hbm, 189, rfl⟩
abbrev main_v115 : Ref sig .tc := ⟨.hbm, 190, rfl⟩

abbrev nD : Nat := 1
abbrev τ : Topo := Topo.v7x

variable {F : FTy → Type} [FloatOps F]

class Facts₀ : Prop where
  slices_S16384x8x5_S16384x8x4_0_0_0 : S16384x8x5.Slices ![0, 0, 0] S16384x8x4
  slices_S16384x8x4_S16384x8x2_0_0_2 : S16384x8x4.Slices ![0, 0, 2] S16384x8x2
  slices_S16384x8x4_S16384x8x2_0_0_0 : S16384x8x4.Slices ![0, 0, 0] S16384x8x2
  bcast_S_S16384x8x2 : S_.BroadcastsInDim S16384x8x2 (![] : Fin 0 → Fin S16384x8x2.rank)
  slices_S16384x8x2_S16384x8x1_0_0_0 : S16384x8x2.Slices ![0, 0, 0] S16384x8x1
  shapeCasts_S16384x8x1_S16384x8 : S16384x8x1.ShapeCasts S16384x8
  slices_S16384x8x2_S16384x8x1_0_0_1 : S16384x8x2.Slices ![0, 0, 1] S16384x8x1
  bcast_S_S16384x8x30 : S_.BroadcastsInDim S16384x8x30 (![] : Fin 0 → Fin S16384x8x30.rank)
  bcast_S_S2 : S_.BroadcastsInDim S2 (![] : Fin 0 → Fin S2.rank)
  bcast_S2_S2x1_0 : S2.BroadcastsInDim S2x1 (![0] : Fin 1 → Fin S2x1.rank)
  slices_S16384x8x5_S16384x8x1_0_0_4 : S16384x8x5.Slices ![0, 0, 4] S16384x8x1
  bcast_S_S16384x8 : S_.BroadcastsInDim S16384x8 (![] : Fin 0 → Fin S16384x8.rank)
  bcast_S_S1 : S_.BroadcastsInDim S1 (![] : Fin 0 → Fin S1.rank)
  bcast_S16384_S16384x1_0 : S16384.BroadcastsInDim S16384x1 (![0] : Fin 1 → Fin S16384x1.rank)
  bcast_S_S16384x7x7x30 : S_.BroadcastsInDim S16384x7x7x30 (![] : Fin 0 → Fin S16384x7x7x30.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  concatenates_S16384x8x1_S16384x8x1_S16384x8x1_S16384x8x3_d2 : Shape.Concatenates [S16384x8x1, S16384x8x1, S16384x8x1] S16384x8x3 2
  shapeCasts_S16384x7x7x30_S16384x49x30 : S16384x7x7x30.ShapeCasts S16384x49x30
  shapeCasts_S16384x1470_S16384x49x30 : S16384x1470.ShapeCasts S16384x49x30
  shapeCasts_S16384x49x30_S802816x30 : S16384x49x30.ShapeCasts S802816x30
  slices_S802816x30_S802816x20_0_10 : S802816x30.Slices ![0, 10] S802816x20
  slices_S802816x30_S802816x1_0_10 : S802816x30.Slices ![0, 10] S802816x1
  shapeCasts_S802816x1_S802816 : S802816x1.ShapeCasts S802816
  reducesTo_S802816x20_S802816_d1 : S802816x20.ReducesTo [1] S802816
  h_S_ : 0 < S_.numel
  bcast_S_S802816 : S_.BroadcastsInDim S802816 (![] : Fin 0 → Fin S802816.rank)
  bcast_S802816_S802816x1_0 : S802816.BroadcastsInDim S802816x1 (![0] : Fin 1 → Fin S802816x1.rank)
  bcast_S802816x1_S802816x20_0_1 : S802816x1.BroadcastsInDim S802816x20 (![0, 1] : Fin 2 → Fin S802816x20.rank)
  bcast_S_S802816x1 : S_.BroadcastsInDim S802816x1 (![] : Fin 0 → Fin S802816x1.rank)
  shapeCasts_S802816x1_S802816x1x1 : S802816x1.ShapeCasts S802816x1x1
  bcast_S_S802816x1x1 : S_.BroadcastsInDim S802816x1x1 (![] : Fin 0 → Fin S802816x1x1.rank)
  bcast_S1_S1x1x1_2 : S1.BroadcastsInDim S1x1x1 (![2] : Fin 1 → Fin S1x1x1.rank)
  bcast_S1x1x1_S802816x1x1_0_1_2 : S1x1x1.BroadcastsInDim S802816x1x1 (![0, 1, 2] : Fin 3 → Fin S802816x1x1.rank)
  reducesTo_S802816x1x1_S802816x1_d2 : S802816x1x1.ReducesTo [2] S802816x1
  reducesTo_S802816x1_S_d0_1 : S802816x1.ReducesTo [0, 1] S_
  slices_S802816x30_S802816x10_0_0 : S802816x30.Slices ![0, 0] S802816x10
  shapeCasts_S802816x10_S802816x2x5 : S802816x10.ShapeCasts S802816x2x5
  slices_S802816x2x5_S802816x2x2_0_0_0 : S802816x2x5.Slices ![0, 0, 0] S802816x2x2
  reducesTo_S802816x2x2_S802816_d1_2 : S802816x2x2.ReducesTo [1, 2] S802816
  slices_S802816x2x5_S802816x2x2_0_0_2 : S802816x2x5.Slices ![0, 0, 2] S802816x2x2
  reducesTo_S802816_S_d0 : S802816.ReducesTo [0] S_
  scatter_S16384x8x30_S2x1_S16384x8x2_01_2_2_1_wf : ScatterDims.WF S16384x8x30 S2x1 S16384x8x2 [0, 1] [2] [2] 1
  scatter_S16384x8x30_S1_S16384x8_01_2_2_0_wf : ScatterDims.WF S16384x8x30 S1 S16384x8 [0, 1] [2] [2] 0
  scatter_S16384x8x30_S1_S16384x8x2_012_n_2_0_wf : ScatterDims.WF S16384x8x30 S1 S16384x8x2 [0, 1, 2] [] [2] 0
  scatter_S16384x7x7x30_S16384x8x3_S16384x8x30_2_012_012_2_wf : ScatterDims.WF S16384x7x7x30 S16384x8x3 S16384x8x30 [2] [0, 1, 2] [0, 1, 2] 2
  gather_S802816x20_S802816x1x1_S802816x1_n_1_0_0_1_2_11_wf : GatherDims.WF S802816x20 S802816x1x1 S802816x1 [] [1] [0] [1] [0] 2 ![1, 1]

variable [Facts₀]

def scatter_S16384x8x30_S2x1_S16384x8x2_01_2_2_1 : ScatterDims S16384x8x30 S2x1 S16384x8x2 where
  updateWindowDims := [0, 1]
  insertedWindowDims := [2]
  scatterDimsToOperandDims := [2]
  indexVectorDim := 1
  wf := scatter_S16384x8x30_S2x1_S16384x8x2_01_2_2_1_wf
def scatter_S16384x8x30_S1_S16384x8_01_2_2_0 : ScatterDims S16384x8x30 S1 S16384x8 where
  updateWindowDims := [0, 1]
  insertedWindowDims := [2]
  scatterDimsToOperandDims := [2]
  indexVectorDim := 0
  wf := scatter_S16384x8x30_S1_S16384x8_01_2_2_0_wf
def scatter_S16384x8x30_S1_S16384x8x2_012_n_2_0 : ScatterDims S16384x8x30 S1 S16384x8x2 where
  updateWindowDims := [0, 1, 2]
  insertedWindowDims := []
  scatterDimsToOperandDims := [2]
  indexVectorDim := 0
  wf := scatter_S16384x8x30_S1_S16384x8x2_012_n_2_0_wf
def scatter_S16384x7x7x30_S16384x8x3_S16384x8x30_2_012_012_2 : ScatterDims S16384x7x7x30 S16384x8x3 S16384x8x30 where
  updateWindowDims := [2]
  insertedWindowDims := [0, 1, 2]
  scatterDimsToOperandDims := [0, 1, 2]
  indexVectorDim := 2
  wf := scatter_S16384x7x7x30_S16384x8x3_S16384x8x30_2_012_012_2_wf
def gather_S802816x20_S802816x1x1_S802816x1_n_1_0_0_1_2_11 : GatherDims S802816x20 S802816x1x1 S802816x1 where
  offsetDims := []
  collapsedSliceDims := [1]
  operandBatchingDims := [0]
  startIndicesBatchingDims := [0]
  startIndexMap := [1]
  indexVectorDim := 2
  sliceSizes := ![1, 1]
  wf := gather_S802816x20_S802816x1x1_S802816x1_n_1_0_0_1_2_11_wf

class Facts : Prop extends Facts₀ where

variable [Facts]
-- ==== Proof.KFrameKit.lean ====
/- The frame kit of the kernel program: @main around its one region (three stretches of host
   operations before it, one after), the contents the region finds (`V`), the two argument arrays kept, the windows'
   blocks, the body's two branch conditions in closed form over the 64 grid points, where the output window is idle,
   the staging and scratch memrefs, and the region invariant with its three scratch accumulators named. -/
import proofs.«115196_j11467562680721_1_alg».proof.Proof.Gen.Kernel.Launch
import proofs.«115196_j11467562680721_1_alg».proof.Proof.Gen.Kernel.Skeleton
import proofs.«115196_j11467562680721_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions of the body, over the grid -/

/-- The first conditional (zero the three accumulators): the point's coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional (combine the accumulators into the output): the point's coordinate is 63. -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

/-- The two input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle, and not written back, at the first point (accumulators zeroed, nothing combined) ... -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- ... and at every middle point (accumulation only); -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- it is live at the last point, where the sum is stored into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1x1 .f32 := (Memref.whole cc0_stg2_0 : Memref sig .tc .vmem S1x1 .f32).view
/-- Each window's current staging memref at point `t`, as the pipeline passes it to the body, with its wholeness. -/
abbrev ms0_0 (t : Fin cfg0.N) : Memref sig .tc .vmem S12544x30 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12544x30 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The three accumulators: whole scoped buffers of the kernel's own. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x1 .f32 := Memref.whole cc0_scratch2
/-- The same as views: what each accumulator holds is stated through its view. -/
abbrev VS0_0 : View sig .tc .vmem S1x1 .f32 := scM0_0.view
abbrev VS0_1 : View sig .tc .vmem S1x1 .f32 := scM0_1.view
abbrev VS0_2 : View sig .tc .vmem S1x1 .f32 := scM0_2.view

/-- The region invariant of the frame class with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## @main around the region -/

/-- Core `c`'s TensorCore buffer contents when the region is entered: the launch memory after the three stretches of
    host operations before the region (the label encoding and the two flattenings). -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches, the region, the last reshape: it reduces to the region continued by that reshape,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The reshape after the region touches unscoped TensorCore references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- and writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  rw [StableHlo.reshape_writes, Finset.mem_singleton]
  fin_cases w <;> exact StableHlo.devRef_ne_of_ne (by decide)

/-! ## The two argument arrays are kept -/

/-- No host operation before the region writes the prediction array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.nullary, StableHlo.TRef.unary, StableHlo.TRef.binary, StableHlo.TRef.ternary, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Nor the label array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.nullary, StableHlo.TRef.unary, StableHlo.TRef.binary, StableHlo.TRef.ternary, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- After the reshape that follows the region an unscoped buffer that is no window's array and not the reshape's
    result holds what the region found in it. -/
theorem W_of (dats : (p : Fin 1) → (c : Dev nD) → Dat τ (Elt F) Unit ℕ (UR sig nD τ) ℕ (cfgs p) c) (c : Dev nD)
    (b : Ref sig .tc) (hw : ∀ w, Pipeline.arrRef spec0 w ≠ b) (hb : main_v78 ≠ b) :
    Pipeline.afterTail₀ cfgs dats 0 (V0 m) [hostOps1] c b = V m c b := by
  unfold Pipeline.afterTail₀
  rw [StableHlo.after_of_forall_not_mem (b := Proc.devRef .tc b) _ _ (fun op hop => by
      obtain rfl := List.mem_singleton.mp hop
      rw [StableHlo.reshape_writes, Finset.mem_singleton]
      exact (StableHlo.devRef_ne_of_ne hb).symm),
    Pipeline.withArrays_of_ne _ c (V0 m c) _ b hw]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The prediction window's current staging buffer holds its block at every point, for any proof data whose array is
    `V`'s and whose body leaves the block in place: an input window, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the target window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Both argument arrays are unscoped buffers no window stages and no host operation writes, so a run to the library's
    frame post has each at its launch contents: the post's second clause, the reshape after the region, then `V`. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((W_of m dats c main_arg0 (by decide) (by decide)).trans (V_main_arg0 m c)),
     ((h c).2 main_arg1 (Pipeline.mem_restRefs_of main_arg1 (by decide) (by decide))).trans
        ((W_of m dats c main_arg1 (by decide) (by decide)).trans (V_main_arg1 m c))⟩) h

end Cert.Kernel.Hand

end
-- ==== Proof.KRunA.lean ====
/- The whole-body run of the loss kernel at the FIRST grid point: the three accumulators are zeroed, the point's
   partial sums are added, the result window is not stored into. The pieces each accumulator ends with are the
   witness the run finds. -/
import proofs.«115196_j11467562680721_1_alg».proof.Proof.KFrameKit

-- membership in a rectangle of production extents: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large: checking the definition needs more than the default budget
set_option maxHeartbeats 1000000 in
/-- What the body's stores leave in each accumulator, as pieces (last first), at the first grid point (the zeroing
    conditional taken, the combining one not), with the proof that on whole memrefs — the two input blocks at their
    contents, the result window at contents `xi2` handed back untouched, the three accumulators at anything — the body
    runs to the continuation holding the inputs as they were and each accumulator with its pieces written. The
    conditionals are decided by `hc0`, `hc1`; the pieces are the witness the run finds. -/
noncomputable def kernelRun0_A (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 x1 : Vec F S12544x30 .f32) :
    Σ' (LS0 : List (View.Piece (Elt F) S1x1 .f32)) (LS1 : List (View.Piece (Elt F) S1x1 .f32)), { LS2 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, ?_, fun xi2 E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.Kernel.Hand

end
-- ==== Proof.KRunB.lean ====
/- The whole-body run of the loss kernel at a MIDDLE grid point: the accumulators are carried in at the contents the
   point before left, the point's partial sums are added, the result window is not stored into. -/
import proofs.«115196_j11467562680721_1_alg».proof.Proof.KRunA

-- membership in a rectangle of production extents: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large: checking the definition needs more than the default budget
set_option maxHeartbeats 1000000 in
/-- The same at a middle grid point (neither conditional taken): the accumulators come in at the contents `xs·` the
    point before left, and go out with this point's pieces written. -/
noncomputable def kernelRun0_B (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 x1 : Vec F S12544x30 .f32) (xs0 xs1 xs2 : Vec F S1x1 .f32) :
    Σ' (LS0 : List (View.Piece (Elt F) S1x1 .f32)) (LS1 : List (View.Piece (Elt F) S1x1 .f32)), { LS2 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, ?_, fun xi2 E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg4.eq_unread hfs0; obtain rfl := harg5.eq_unread hfs1; obtain rfl := harg6.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.Kernel.Hand

end
-- ==== Proof.KRunC.lean ====
/- The whole-body run of the loss kernel at the LAST grid point: the accumulators are carried in, the point's partial
   sums are added, and the three totals are combined into the result window. -/
import proofs.«115196_j11467562680721_1_alg».proof.Proof.KRunB

-- membership in a rectangle of production extents: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large: checking the definition needs more than the default budget
set_option maxHeartbeats 1000000 in
/-- The same at the last grid point (the zeroing conditional not taken, the combining one taken): the accumulators
    come in at `xs·`, the result window at anything, and the result window goes out with the combined total written. -/
noncomputable def kernelRun0_C (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 x1 : Vec F S12544x30 .f32) (xs0 xs1 xs2 : Vec F S1x1 .f32) :
    Σ' (L2 : List (View.Piece (Elt F) S1x1 .f32)) (LS0 : List (View.Piece (Elt F) S1x1 .f32)) (LS1 : List (View.Piece (Elt F) S1x1 .f32)), { LS2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, ?_, ?_, fun E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1
    obtain rfl := harg4.eq_unread hfs0; obtain rfl := harg5.eq_unread hfs1; obtain rfl := harg6.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.Kernel.Hand

end
-- ==== Proof.KFrame.lean ====
/- The frame certificate of the kernel program: what the output's staging buffer and the three scratch accumulators
   hold after each of the 64 grid points (`outsAt0`), the pipeline's proof data (`dats`), the body obligation by the
   three whole-body runs (first point, middle points, last point), the run of @main to the library's frame post
   (`run_main`) and the frame claim at any `F` (`frame`): both argument arrays end as launched. -/
import proofs.«115196_j11467562680721_1_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point, on the pipeline's own memrefs -/

/-- The first point's run: the point's staging memrefs and the three accumulators, the conditions from `t = 0`. -/
abbrev ptA (c : Dev nD) (t : Fin cfg0.N) (h0 : t.val = 0) (h1 : ¬t.val = 63) (x0 x1 : Vec F S12544x30 .f32) :=
  kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((hcond0_0 t).mpr h0) (fun h => h1 ((hcond0_1 t).mp h)) x0 x1
/-- A middle point's run, the accumulators at `xs·`. -/
abbrev ptB (c : Dev nD) (t : Fin cfg0.N) (h0 : ¬t.val = 0) (h1 : ¬t.val = 63) (x0 x1 : Vec F S12544x30 .f32) (xs0 xs1 xs2 : Vec F S1x1 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) (fun h => h1 ((hcond0_1 t).mp h)) x0 x1 xs0 xs1 xs2
/-- The last point's run, the accumulators at `xs·`. -/
abbrev ptC (c : Dev nD) (t : Fin cfg0.N) (h0 : ¬t.val = 0) (h1 : t.val = 63) (x0 x1 : Vec F S12544x30 .f32) (xs0 xs1 xs2 : Vec F S1x1 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) ((hcond0_1 t).mpr h1) x0 x1 xs0 xs1 xs2

/-! ## Pieces read back -/

/-- A list of pieces of a one-word block written over junk through view `v` and read back: what a buffer the pieces
    cover holds, whatever it held before and through whichever view of the shape it is stated. -/
abbrev readBack (v : View sig .tc .vmem S1x1 .f32) (L : List (View.Piece (Elt F) S1x1 .f32)) : Vec F S1x1 .f32 :=
  v.read (Elt F) (v.writes (Elt F) v.junk L)

/-- A memref whose view was written with pieces that cover the block is owned at those pieces read back. -/
theorem owns_of_writes (c : Dev nD) (a : Memref sig .tc .vmem S1x1 .f32) (v : View sig .tc .vmem S1x1 .f32)
    (L : List (View.Piece (Elt F) S1x1 .f32)) (hL : ∀ y : S1x1.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (readBack v L) := by
  iintro ⟨%f, H⟩
  unfold owns; iexists _; isplitr
  swap; · iexact H
  ipureintro; exact View.read_writes_of_cover _ _ _ _ _ hL

/-! ## The pieces of every run cover the one-word block -/

section Covers
variable (c : Dev nD) (t : Fin cfg0.N) (x0 x1 : Vec F S12544x30 .f32) (xs0 xs1 xs2 : Vec F S1x1 .f32)

theorem coverA_0 (h0 : t.val = 0) (h1 : ¬t.val = 63) (y : S1x1.Idx) : ∃ pc ∈ (ptA c t h0 h1 x0 x1).1, y ∈ pc.1.set :=
  View.cover_of_tiledL (ptA c t h0 h1 x0 x1).1 S1x1.size (by sl_kernel_rfl) y
theorem coverA_1 (h0 : t.val = 0) (h1 : ¬t.val = 63) (y : S1x1.Idx) : ∃ pc ∈ (ptA c t h0 h1 x0 x1).2.1, y ∈ pc.1.set :=
  View.cover_of_tiledL (ptA c t h0 h1 x0 x1).2.1 S1x1.size (by sl_kernel_rfl) y
theorem coverA_2 (h0 : t.val = 0) (h1 : ¬t.val = 63) (y : S1x1.Idx) : ∃ pc ∈ (ptA c t h0 h1 x0 x1).2.2.1, y ∈ pc.1.set :=
  View.cover_of_tiledL (ptA c t h0 h1 x0 x1).2.2.1 S1x1.size (by sl_kernel_rfl) y
theorem coverB_0 (h0 : ¬t.val = 0) (h1 : ¬t.val = 63) (y : S1x1.Idx) : ∃ pc ∈ (ptB c t h0 h1 x0 x1 xs0 xs1 xs2).1, y ∈ pc.1.set :=
  View.cover_of_tiledL (ptB c t h0 h1 x0 x1 xs0 xs1 xs2).1 S1x1.size (by sl_kernel_rfl) y
theorem coverB_1 (h0 : ¬t.val = 0) (h1 : ¬t.val = 63) (y : S1x1.Idx) : ∃ pc ∈ (ptB c t h0 h1 x0 x1 xs0 xs1 xs2).2.1, y ∈ pc.1.set :=
  View.cover_of_tiledL (ptB c t h0 h1 x0 x1 xs0 xs1 xs2).2.1 S1x1.size (by sl_kernel_rfl) y
theorem coverB_2 (h0 : ¬t.val = 0) (h1 : ¬t.val = 63) (y : S1x1.Idx) : ∃ pc ∈ (ptB c t h0 h1 x0 x1 xs0 xs1 xs2).2.2.1, y ∈ pc.1.set :=
  View.cover_of_tiledL (ptB c t h0 h1 x0 x1 xs0 xs1 xs2).2.2.1 S1x1.size (by sl_kernel_rfl) y
theorem coverC_out (h0 : ¬t.val = 0) (h1 : t.val = 63) (y : S1x1.Idx) : ∃ pc ∈ (ptC c t h0 h1 x0 x1 xs0 xs1 xs2).1, y ∈ pc.1.set :=
  View.cover_of_tiledL (ptC c t h0 h1 x0 x1 xs0 xs1 xs2).1 S1x1.size (by sl_kernel_rfl) y
theorem coverC_0 (h0 : ¬t.val = 0) (h1 : t.val = 63) (y : S1x1.Idx) : ∃ pc ∈ (ptC c t h0 h1 x0 x1 xs0 xs1 xs2).2.1, y ∈ pc.1.set :=
  View.cover_of_tiledL (ptC c t h0 h1 x0 x1 xs0 xs1 xs2).2.1 S1x1.size (by sl_kernel_rfl) y
theorem coverC_1 (h0 : ¬t.val = 0) (h1 : t.val = 63) (y : S1x1.Idx) : ∃ pc ∈ (ptC c t h0 h1 x0 x1 xs0 xs1 xs2).2.2.1, y ∈ pc.1.set :=
  View.cover_of_tiledL (ptC c t h0 h1 x0 x1 xs0 xs1 xs2).2.2.1 S1x1.size (by sl_kernel_rfl) y
theorem coverC_2 (h0 : ¬t.val = 0) (h1 : t.val = 63) (y : S1x1.Idx) : ∃ pc ∈ (ptC c t h0 h1 x0 x1 xs0 xs1 xs2).2.2.2.1, y ∈ pc.1.set :=
  View.cover_of_tiledL (ptC c t h0 h1 x0 x1 xs0 xs1 xs2).2.2.2.1 S1x1.size (by sl_kernel_rfl) y
end Covers

/-! ## What the output's buffer and the three accumulators hold after each point -/

/-- The output's staging buffer, then accumulators 0, 1, 2. -/
abbrev Acc (F : FTy → Type) [FloatOps F] : Type := Vec F S1x1 .f32 × Vec F S1x1 .f32 × Vec F S1x1 .f32 × Vec F S1x1 .f32

/-- Where the body stores nothing into the output's buffer (every point but the last) its component is a placeholder
    nothing consults: the window is idle there and not written back. -/
abbrev idleOut : Vec F S1x1 .f32 := VO0_2.read (Elt F) VO0_2.junk

/-- After the first point: the accumulators at that run's pieces (zeroed, then the point's partial sums added). -/
def accA (c : Dev nD) (t : Fin cfg0.N) (h0 : t.val = 0) (h1 : ¬t.val = 63) : Acc F :=
  (idleOut,
   readBack VS0_0 (ptA c t h0 h1 (iblk m c 0 t) (iblk m c 1 t)).1,
   readBack VS0_1 (ptA c t h0 h1 (iblk m c 0 t) (iblk m c 1 t)).2.1,
   readBack VS0_2 (ptA c t h0 h1 (iblk m c 0 t) (iblk m c 1 t)).2.2.1)
/-- After a middle point, from what the point before left (`p`): the accumulators at that run's pieces. -/
def accB (c : Dev nD) (t : Fin cfg0.N) (h0 : ¬t.val = 0) (h1 : ¬t.val = 63) (p : Acc F) : Acc F :=
  (idleOut,
   readBack VS0_0 (ptB c t h0 h1 (iblk m c 0 t) (iblk m c 1 t) p.2.1 p.2.2.1 p.2.2.2).1,
   readBack VS0_1 (ptB c t h0 h1 (iblk m c 0 t) (iblk m c 1 t) p.2.1 p.2.2.1 p.2.2.2).2.1,
   readBack VS0_2 (ptB c t h0 h1 (iblk m c 0 t) (iblk m c 1 t) p.2.1 p.2.2.1 p.2.2.2).2.2.1)
/-- After the last point, from what the point before left: the output's buffer at the combined sum's pieces too. -/
def accC (c : Dev nD) (t : Fin cfg0.N) (h0 : ¬t.val = 0) (h1 : t.val = 63) (p : Acc F) : Acc F :=
  (readBack VO0_2 (ptC c t h0 h1 (iblk m c 0 t) (iblk m c 1 t) p.2.1 p.2.2.1 p.2.2.2).1,
   readBack VS0_0 (ptC c t h0 h1 (iblk m c 0 t) (iblk m c 1 t) p.2.1 p.2.2.1 p.2.2.2).2.1,
   readBack VS0_1 (ptC c t h0 h1 (iblk m c 0 t) (iblk m c 1 t) p.2.1 p.2.2.1 p.2.2.2).2.2.1,
   readBack VS0_2 (ptC c t h0 h1 (iblk m c 0 t) (iblk m c 1 t) p.2.1 p.2.2.1 p.2.2.2).2.2.2.1)

/-- THE ACCUMULATION: what the output's buffer and the accumulators hold after the body at position `n`: the first
    point's run at 0; afterwards the middle run, or at 63 the last run, over what position `n - 1` left. -/
def outsAt0 (c : Dev nD) : (n : ℕ) → n < cfg0.N → Acc F
  | 0, hn => accA m c ⟨0, hn⟩ rfl (Nat.zero_ne_add_one 62)
  | n + 1, hn =>
    if h1 : n + 1 = 63 then accC m c ⟨n + 1, hn⟩ (Nat.succ_ne_zero n) h1 (outsAt0 c n (Nat.lt_of_succ_lt hn))
    else accB m c ⟨n + 1, hn⟩ (Nat.succ_ne_zero n) h1 (outsAt0 c n (Nat.lt_of_succ_lt hn))

theorem outsAt0_A (c : Dev nD) (t : Fin cfg0.N) (h0 : t.val = 0) (h1 : ¬t.val = 63) :
    outsAt0 m c t.val t.isLt = accA m c t h0 h1 := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 63) :
    outsAt0 m c t.val t.isLt = accB m c t h0 h1 (outsAt0 m c (t.val - 1) (Nat.lt_of_le_of_lt (Nat.sub_le _ _) t.isLt)) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 63) :
    outsAt0 m c t.val t.isLt = accC m c t h0 h1 (outsAt0 m c (t.val - 1) (Nat.lt_of_le_of_lt (Nat.sub_le _ _) t.isLt)) := by
  obtain ⟨n, hn⟩ := t
  cases n with
  | zero => exact absurd rfl h0
  | succ n => exact (dif_pos h1).trans rfl

/-! ## The region invariant with the accumulators named -/

/-- Before position `n`: at the start the frame class's invariant (every scratch at anything); afterwards the three
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1
      ∗ owns (c : Thread nD τ) scM0_1 fullShare (outsAt0 m c n hn).2.2.1
      ∗ owns (c : Thread nD τ) scM0_2 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1
      ∗ owns (c : Thread nD τ) scM0_1 fullShare (outsAt0 m c n hn).2.2.1
      ∗ owns (c : Thread nD τ) scM0_2 fullShare (outsAt0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1
      ∗ owns (c : Thread nD τ) scM0_1 fullShare (outsAt0 m c (n - 1) (by omega)).2.2.1
      ∗ owns (c : Thread nD τ) scM0_2 fullShare (outsAt0 m c (n - 1) (by omega)).2.2.2) ∗ (∃ r, prngReg c r)) := by
  cases n with
  | zero => exact absurd rfl hz
  | succ n => rfl

/-! ## The pipeline's proof data -/

/-- The arrays as the region finds them; after the body at point `t` each input's buffer at its block, the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The two input windows are live everywhere: each buffer is left at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]

set_option maxHeartbeats 4000000 in
/-- The body at any point. The inputs' buffers hold their blocks; the point is the first, a middle or the last one; the
    invariant hands the run the accumulators (at anything at the first point, else at what the point before left) and
    takes them back at this point's pieces read back, which cover the one-word block; the output's buffer is handed back
    as found except at the last point, where the run's pieces cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, leaves0_0, leaves0_1, PhiS_castSucc m c t]
  have hN : t.val < 64 := lt_of_lt_of_eq t.isLt (show cfg0.N = 64 from N_0)
  by_cases h0 : t.val = 0
  · have h1 : ¬t.val = 63 := by omega
    rw [Dat.leavesExact_idle (dats m 0 c) 2 t (idleAt0_2_A t ((hcond0_0 t).mpr h0) (fun h => h1 ((hcond0_1 t).mp h)))
        (noFlush0_2_A t ((hcond0_0 t).mpr h0) (fun h => h1 ((hcond0_1 t).mp h))),
      outsAt0_A m c t h0 h1, PhiS_zero m c _ _ h0, PhiA0_eq]
    unfold accA; (try dsimp only)
    iintro ⟨⟨⟨HS0, HS1, HS2⟩, Hg⟩, Ho, ⟨%d0, H0⟩, ⟨%d1, H1⟩, ⟨%d2, H2⟩⟩
    iapply ((ptA c t h0 h1 (iblk m c 0 t) (iblk m c 1 t)).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitr [Hg]
      · isplitl [HS0]; · iapply (owns_of_writes c _ VS0_0 _ (coverA_0 c t _ _ h0 h1)) $$ HS0
        isplitl [HS1]; · iapply (owns_of_writes c _ VS0_1 _ (coverA_1 c t _ _ h0 h1)) $$ HS1
        iapply (owns_of_writes c _ VS0_2 _ (coverA_2 c t _ _ h0 h1)) $$ HS2
      iexact Hg
    isplitl [Ho]; · iexact Ho
    isplitl [H0]; · iexact H0
    isplitl [H1]; · iexact H1
    iexists _; iexact H2
  · have hz : t.val ≠ 0 := h0
    rw [PhiS_pos m c _ _ hz]
    by_cases h1 : t.val = 63
    · rw [show (dats m 0 c).leavesExact 2 t = owns (c : Thread nD τ) (ms0_2 t) fullShare ((dats m 0 c).after 2 t) from by
          unfold Dat.leavesExact; rw [liveAt0_2_C t (fun h => h0 ((hcond0_0 t).mp h)) ((hcond0_1 t).mpr h1)],
        after0_2, outsAt0_C m c t h0 h1]
      unfold accC; (try dsimp only)
      iintro ⟨⟨⟨HS0, HS1, HS2⟩, Hg⟩, Ho, ⟨%d0, H0⟩, ⟨%d1, H1⟩, ⟨%d2, H2⟩⟩
      iapply ((ptC c t h0 h1 (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · isplitl [HS0]; · iapply (owns_of_writes c _ VS0_0 _ (coverC_0 c t _ _ _ _ _ h0 h1)) $$ HS0
          isplitl [HS1]; · iapply (owns_of_writes c _ VS0_1 _ (coverC_1 c t _ _ _ _ _ h0 h1)) $$ HS1
          iapply (owns_of_writes c _ VS0_2 _ (coverC_2 c t _ _ _ _ _ h0 h1)) $$ HS2
        iexact Hg
      isplitl [Ho]; · iexact Ho
      isplitl [H0]; · iexact H0
      isplitl [H1]; · iexact H1
      iapply (owns_of_writes c _ VO0_2 _ (coverC_out c t _ _ _ _ _ h0 h1)) $$ H2
    · rw [Dat.leavesExact_idle (dats m 0 c) 2 t (idleAt0_2_B t (fun h => h0 ((hcond0_0 t).mp h)) (fun h => h1 ((hcond0_1 t).mp h)))
          (noFlush0_2_B t (fun h => h0 ((hcond0_0 t).mp h)) (fun h => h1 ((hcond0_1 t).mp h))),
        outsAt0_B m c t h0 h1]
      unfold accB; (try dsimp only)
      iintro ⟨⟨⟨HS0, HS1, HS2⟩, Hg⟩, Ho, ⟨%d0, H0⟩, ⟨%d1, H1⟩, ⟨%d2, H2⟩⟩
      iapply ((ptB c t h0 h1 (iblk m c 0 t) (iblk m c 1 t) _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · isplitl [HS0]; · iapply (owns_of_writes c _ VS0_0 _ (coverB_0 c t _ _ _ _ _ h0 h1)) $$ HS0
          isplitl [HS1]; · iapply (owns_of_writes c _ VS0_1 _ (coverB_1 c t _ _ _ _ _ h0 h1)) $$ HS1
          iapply (owns_of_writes c _ VS0_2 _ (coverB_2 c t _ _ _ _ _ h0 h1)) $$ HS2
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulators' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1, HS2⟩, Hg⟩
  isplitr [Hg]
  · isplitl [HS0]; · iexists _; iexact HS0
    isplitl [HS1]; · iexists _; iexact HS1
    iexists _; iexact HS2
  iexact Hg

/-! ## The run and the frame -/

set_option backward.isDefEq.respectTransparency.types false in
/-- Every weakly fair execution of @main on the TensorCores terminates, and every final state has every array of the
    pipeline at what the library computes from the proof data and every other unscoped buffer as the reshape after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME of the kernel program, at any `F`: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) :=
  frame_of m ρ (dats m) (run_main m ρ)

end Cert.Kernel.Hand

end
-- ==== Proof.FrameKit.lean ====
/- The frame kit of the kernel program: @main around its one region (three stretches of host
   operations before it, one after), the contents the region finds (`V`), the two argument arrays kept, the windows'
   blocks, the body's two branch conditions in closed form over the 64 grid points, where the output window is idle,
   the staging and scratch memrefs, and the region invariant with its three scratch accumulators named. -/
import proofs.«115196_j11467562680721_1_alg».proof.Proof.Gen.KernelIdeal.Launch
import proofs.«115196_j11467562680721_1_alg».proof.Proof.Gen.KernelIdeal.Skeleton
import proofs.«115196_j11467562680721_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions of the body, over the grid -/

/-- The first conditional (zero the three accumulators): the point's coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional (combine the accumulators into the output): the point's coordinate is 63. -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

/-- The two input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle, and not written back, at the first point (accumulators zeroed, nothing combined) ... -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- ... and at every middle point (accumulation only); -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- it is live at the last point, where the sum is stored into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1x1 .f32 := (Memref.whole cc0_stg2_0 : Memref sig .tc .vmem S1x1 .f32).view
/-- Each window's current staging memref at point `t`, as the pipeline passes it to the body, with its wholeness. -/
abbrev ms0_0 (t : Fin cfg0.N) : Memref sig .tc .vmem S12544x30 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12544x30 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The three accumulators: whole scoped buffers of the kernel's own. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x1 .f32 := Memref.whole cc0_scratch2
/-- The same as views: what each accumulator holds is stated through its view. -/
abbrev VS0_0 : View sig .tc .vmem S1x1 .f32 := scM0_0.view
abbrev VS0_1 : View sig .tc .vmem S1x1 .f32 := scM0_1.view
abbrev VS0_2 : View sig .tc .vmem S1x1 .f32 := scM0_2.view

/-- The region invariant of the frame class with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## @main around the region -/

/-- Core `c`'s TensorCore buffer contents when the region is entered: the launch memory after the three stretches of
    host operations before the region (the label encoding and the two flattenings). -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches, the region, the last reshape: it reduces to the region continued by that reshape,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The reshape after the region touches unscoped TensorCore references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- and writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  rw [StableHlo.reshape_writes, Finset.mem_singleton]
  fin_cases w <;> exact StableHlo.devRef_ne_of_ne (by decide)

/-! ## The two argument arrays are kept -/

/-- No host operation before the region writes the prediction array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.nullary, StableHlo.TRef.unary, StableHlo.TRef.binary, StableHlo.TRef.ternary, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Nor the label array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.nullary, StableHlo.TRef.unary, StableHlo.TRef.binary, StableHlo.TRef.ternary, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- After the reshape that follows the region an unscoped buffer that is no window's array and not the reshape's
    result holds what the region found in it. -/
theorem W_of (dats : (p : Fin 1) → (c : Dev nD) → Dat τ (Elt F) Unit ℕ (UR sig nD τ) ℕ (cfgs p) c) (c : Dev nD)
    (b : Ref sig .tc) (hw : ∀ w, Pipeline.arrRef spec0 w ≠ b) (hb : main_v78 ≠ b) :
    Pipeline.afterTail₀ cfgs dats 0 (V0 m) [hostOps1] c b = V m c b := by
  unfold Pipeline.afterTail₀
  rw [StableHlo.after_of_forall_not_mem (b := Proc.devRef .tc b) _ _ (fun op hop => by
      obtain rfl := List.mem_singleton.mp hop
      rw [StableHlo.reshape_writes, Finset.mem_singleton]
      exact (StableHlo.devRef_ne_of_ne hb).symm),
    Pipeline.withArrays_of_ne _ c (V0 m c) _ b hw]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The prediction window's current staging buffer holds its block at every point, for any proof data whose array is
    `V`'s and whose body leaves the block in place: an input window, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the target window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Both argument arrays are unscoped buffers no window stages and no host operation writes, so a run to the library's
    frame post has each at its launch contents: the post's second clause, the reshape after the region, then `V`. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((W_of m dats c main_arg0 (by decide) (by decide)).trans (V_main_arg0 m c)),
     ((h c).2 main_arg1 (Pipeline.mem_restRefs_of main_arg1 (by decide) (by decide))).trans
        ((W_of m dats c main_arg1 (by decide) (by decide)).trans (V_main_arg1 m c))⟩) h

end Cert.KernelIdeal.Hand

end
-- ==== Proof.RunA.lean ====
/- The whole-body run of the loss kernel at the FIRST grid point: the three accumulators are zeroed, the point's
   partial sums are added, the result window is not stored into. The pieces each accumulator ends with are the
   witness the run finds. -/
import proofs.«115196_j11467562680721_1_alg».proof.Proof.FrameKit

-- membership in a rectangle of production extents: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large: checking the definition needs more than the default budget
set_option maxHeartbeats 1000000 in
/-- What the body's stores leave in each accumulator, as pieces (last first), at the first grid point (the zeroing
    conditional taken, the combining one not), with the proof that on whole memrefs — the two input blocks at their
    contents, the result window at contents `xi2` handed back untouched, the three accumulators at anything — the body
    runs to the continuation holding the inputs as they were and each accumulator with its pieces written. The
    conditionals are decided by `hc0`, `hc1`; the pieces are the witness the run finds. -/
noncomputable def kernelRun0_A (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 x1 : Vec F S12544x30 .f32) :
    Σ' (LS0 : List (View.Piece (Elt F) S1x1 .f32)) (LS1 : List (View.Piece (Elt F) S1x1 .f32)), { LS2 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, ?_, fun xi2 E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Hand

end
-- ==== Proof.RunB.lean ====
/- The whole-body run of the loss kernel at a MIDDLE grid point: the accumulators are carried in at the contents the
   point before left, the point's partial sums are added, the result window is not stored into. -/
import proofs.«115196_j11467562680721_1_alg».proof.Proof.RunA

-- membership in a rectangle of production extents: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large: checking the definition needs more than the default budget
set_option maxHeartbeats 1000000 in
/-- The same at a middle grid point (neither conditional taken): the accumulators come in at the contents `xs·` the
    point before left, and go out with this point's pieces written. -/
noncomputable def kernelRun0_B (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 x1 : Vec F S12544x30 .f32) (xs0 xs1 xs2 : Vec F S1x1 .f32) :
    Σ' (LS0 : List (View.Piece (Elt F) S1x1 .f32)) (LS1 : List (View.Piece (Elt F) S1x1 .f32)), { LS2 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, ?_, fun xi2 E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg4.eq_unread hfs0; obtain rfl := harg5.eq_unread hfs1; obtain rfl := harg6.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Hand

end
-- ==== Proof.RunC.lean ====
/- The whole-body run of the loss kernel at the LAST grid point: the accumulators are carried in, the point's partial
   sums are added, and the three totals are combined into the result window. -/
import proofs.«115196_j11467562680721_1_alg».proof.Proof.RunB

-- membership in a rectangle of production extents: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large: checking the definition needs more than the default budget
set_option maxHeartbeats 1000000 in
/-- The same at the last grid point (the zeroing conditional not taken, the combining one taken): the accumulators
    come in at `xs·`, the result window at anything, and the result window goes out with the combined total written. -/
noncomputable def kernelRun0_C (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 x1 : Vec F S12544x30 .f32) (xs0 xs1 xs2 : Vec F S1x1 .f32) :
    Σ' (L2 : List (View.Piece (Elt F) S1x1 .f32)) (LS0 : List (View.Piece (Elt F) S1x1 .f32)) (LS1 : List (View.Piece (Elt F) S1x1 .f32)), { LS2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, ?_, ?_, fun E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1
    obtain rfl := harg4.eq_unread hfs0; obtain rfl := harg5.eq_unread hfs1; obtain rfl := harg6.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.Frame.lean ====
/- The frame certificate of the kernel program: what the output's staging buffer and the three scratch accumulators
   hold after each of the 64 grid points (`outsAt0`), the pipeline's proof data (`dats`), the body obligation by the
   three whole-body runs (first point, middle points, last point), the run of @main to the library's frame post
   (`run_main`) and the frame claim at any `F` (`frame`): both argument arrays end as launched. -/
import proofs.«115196_j11467562680721_1_alg».proof.Proof.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point, on the pipeline's own memrefs -/

/-- The first point's run: the point's staging memrefs and the three accumulators, the conditions from `t = 0`. -/
abbrev ptA (c : Dev nD) (t : Fin cfg0.N) (h0 : t.val = 0) (h1 : ¬t.val = 63) (x0 x1 : Vec F S12544x30 .f32) :=
  kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((hcond0_0 t).mpr h0) (fun h => h1 ((hcond0_1 t).mp h)) x0 x1
/-- A middle point's run, the accumulators at `xs·`. -/
abbrev ptB (c : Dev nD) (t : Fin cfg0.N) (h0 : ¬t.val = 0) (h1 : ¬t.val = 63) (x0 x1 : Vec F S12544x30 .f32) (xs0 xs1 xs2 : Vec F S1x1 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) (fun h => h1 ((hcond0_1 t).mp h)) x0 x1 xs0 xs1 xs2
/-- The last point's run, the accumulators at `xs·`. -/
abbrev ptC (c : Dev nD) (t : Fin cfg0.N) (h0 : ¬t.val = 0) (h1 : t.val = 63) (x0 x1 : Vec F S12544x30 .f32) (xs0 xs1 xs2 : Vec F S1x1 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) ((hcond0_1 t).mpr h1) x0 x1 xs0 xs1 xs2

/-! ## Pieces read back -/

/-- A list of pieces of a one-word block written over junk through view `v` and read back: what a buffer the pieces
    cover holds, whatever it held before and through whichever view of the shape it is stated. -/
abbrev readBack (v : View sig .tc .vmem S1x1 .f32) (L : List (View.Piece (Elt F) S1x1 .f32)) : Vec F S1x1 .f32 :=
  v.read (Elt F) (v.writes (Elt F) v.junk L)

/-- A memref whose view was written with pieces that cover the block is owned at those pieces read back. -/
theorem owns_of_writes (c : Dev nD) (a : Memref sig .tc .vmem S1x1 .f32) (v : View sig .tc .vmem S1x1 .f32)
    (L : List (View.Piece (Elt F) S1x1 .f32)) (hL : ∀ y : S1x1.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (readBack v L) := by
  iintro ⟨%f, H⟩
  unfold owns; iexists _; isplitr
  swap; · iexact H
  ipureintro; exact View.read_writes_of_cover _ _ _ _ _ hL

/-! ## The pieces of every run cover the one-word block -/

section Covers
variable (c : Dev nD) (t : Fin cfg0.N) (x0 x1 : Vec F S12544x30 .f32) (xs0 xs1 xs2 : Vec F S1x1 .f32)

theorem coverA_0 (h0 : t.val = 0) (h1 : ¬t.val = 63) (y : S1x1.Idx) : ∃ pc ∈ (ptA c t h0 h1 x0 x1).1, y ∈ pc.1.set :=
  View.cover_of_tiledL (ptA c t h0 h1 x0 x1).1 S1x1.size (by sl_kernel_rfl) y
theorem coverA_1 (h0 : t.val = 0) (h1 : ¬t.val = 63) (y : S1x1.Idx) : ∃ pc ∈ (ptA c t h0 h1 x0 x1).2.1, y ∈ pc.1.set :=
  View.cover_of_tiledL (ptA c t h0 h1 x0 x1).2.1 S1x1.size (by sl_kernel_rfl) y
theorem coverA_2 (h0 : t.val = 0) (h1 : ¬t.val = 63) (y : S1x1.Idx) : ∃ pc ∈ (ptA c t h0 h1 x0 x1).2.2.1, y ∈ pc.1.set :=
  View.cover_of_tiledL (ptA c t h0 h1 x0 x1).2.2.1 S1x1.size (by sl_kernel_rfl) y
theorem coverB_0 (h0 : ¬t.val = 0) (h1 : ¬t.val = 63) (y : S1x1.Idx) : ∃ pc ∈ (ptB c t h0 h1 x0 x1 xs0 xs1 xs2).1, y ∈ pc.1.set :=
  View.cover_of_tiledL (ptB c t h0 h1 x0 x1 xs0 xs1 xs2).1 S1x1.size (by sl_kernel_rfl) y
theorem coverB_1 (h0 : ¬t.val = 0) (h1 : ¬t.val = 63) (y : S1x1.Idx) : ∃ pc ∈ (ptB c t h0 h1 x0 x1 xs0 xs1 xs2).2.1, y ∈ pc.1.set :=
  View.cover_of_tiledL (ptB c t h0 h1 x0 x1 xs0 xs1 xs2).2.1 S1x1.size (by sl_kernel_rfl) y
theorem coverB_2 (h0 : ¬t.val = 0) (h1 : ¬t.val = 63) (y : S1x1.Idx) : ∃ pc ∈ (ptB c t h0 h1 x0 x1 xs0 xs1 xs2).2.2.1, y ∈ pc.1.set :=
  View.cover_of_tiledL (ptB c t h0 h1 x0 x1 xs0 xs1 xs2).2.2.1 S1x1.size (by sl_kernel_rfl) y
theorem coverC_out (h0 : ¬t.val = 0) (h1 : t.val = 63) (y : S1x1.Idx) : ∃ pc ∈ (ptC c t h0 h1 x0 x1 xs0 xs1 xs2).1, y ∈ pc.1.set :=
  View.cover_of_tiledL (ptC c t h0 h1 x0 x1 xs0 xs1 xs2).1 S1x1.size (by sl_kernel_rfl) y
theorem coverC_0 (h0 : ¬t.val = 0) (h1 : t.val = 63) (y : S1x1.Idx) : ∃ pc ∈ (ptC c t h0 h1 x0 x1 xs0 xs1 xs2).2.1, y ∈ pc.1.set :=
  View.cover_of_tiledL (ptC c t h0 h1 x0 x1 xs0 xs1 xs2).2.1 S1x1.size (by sl_kernel_rfl) y
theorem coverC_1 (h0 : ¬t.val = 0) (h1 : t.val = 63) (y : S1x1.Idx) : ∃ pc ∈ (ptC c t h0 h1 x0 x1 xs0 xs1 xs2).2.2.1, y ∈ pc.1.set :=
  View.cover_of_tiledL (ptC c t h0 h1 x0 x1 xs0 xs1 xs2).2.2.1 S1x1.size (by sl_kernel_rfl) y
theorem coverC_2 (h0 : ¬t.val = 0) (h1 : t.val = 63) (y : S1x1.Idx) : ∃ pc ∈ (ptC c t h0 h1 x0 x1 xs0 xs1 xs2).2.2.2.1, y ∈ pc.1.set :=
  View.cover_of_tiledL (ptC c t h0 h1 x0 x1 xs0 xs1 xs2).2.2.2.1 S1x1.size (by sl_kernel_rfl) y
end Covers

/-! ## What the output's buffer and the three accumulators hold after each point -/

/-- The output's staging buffer, then accumulators 0, 1, 2. -/
abbrev Acc (F : FTy → Type) [FloatOps F] : Type := Vec F S1x1 .f32 × Vec F S1x1 .f32 × Vec F S1x1 .f32 × Vec F S1x1 .f32

/-- Where the body stores nothing into the output's buffer (every point but the last) its component is a placeholder
    nothing consults: the window is idle there and not written back. -/
abbrev idleOut : Vec F S1x1 .f32 := VO0_2.read (Elt F) VO0_2.junk

/-- After the first point: the accumulators at that run's pieces (zeroed, then the point's partial sums added). -/
def accA (c : Dev nD) (t : Fin cfg0.N) (h0 : t.val = 0) (h1 : ¬t.val = 63) : Acc F :=
  (idleOut,
   readBack VS0_0 (ptA c t h0 h1 (iblk m c 0 t) (iblk m c 1 t)).1,
   readBack VS0_1 (ptA c t h0 h1 (iblk m c 0 t) (iblk m c 1 t)).2.1,
   readBack VS0_2 (ptA c t h0 h1 (iblk m c 0 t) (iblk m c 1 t)).2.2.1)
/-- After a middle point, from what the point before left (`p`): the accumulators at that run's pieces. -/
def accB (c : Dev nD) (t : Fin cfg0.N) (h0 : ¬t.val = 0) (h1 : ¬t.val = 63) (p : Acc F) : Acc F :=
  (idleOut,
   readBack VS0_0 (ptB c t h0 h1 (iblk m c 0 t) (iblk m c 1 t) p.2.1 p.2.2.1 p.2.2.2).1,
   readBack VS0_1 (ptB c t h0 h1 (iblk m c 0 t) (iblk m c 1 t) p.2.1 p.2.2.1 p.2.2.2).2.1,
   readBack VS0_2 (ptB c t h0 h1 (iblk m c 0 t) (iblk m c 1 t) p.2.1 p.2.2.1 p.2.2.2).2.2.1)
/-- After the last point, from what the point before left: the output's buffer at the combined sum's pieces too. -/
def accC (c : Dev nD) (t : Fin cfg0.N) (h0 : ¬t.val = 0) (h1 : t.val = 63) (p : Acc F) : Acc F :=
  (readBack VO0_2 (ptC c t h0 h1 (iblk m c 0 t) (iblk m c 1 t) p.2.1 p.2.2.1 p.2.2.2).1,
   readBack VS0_0 (ptC c t h0 h1 (iblk m c 0 t) (iblk m c 1 t) p.2.1 p.2.2.1 p.2.2.2).2.1,
   readBack VS0_1 (ptC c t h0 h1 (iblk m c 0 t) (iblk m c 1 t) p.2.1 p.2.2.1 p.2.2.2).2.2.1,
   readBack VS0_2 (ptC c t h0 h1 (iblk m c 0 t) (iblk m c 1 t) p.2.1 p.2.2.1 p.2.2.2).2.2.2.1)

/-- THE ACCUMULATION: what the output's buffer and the accumulators hold after the body at position `n`: the first
    point's run at 0; afterwards the middle run, or at 63 the last run, over what position `n - 1` left. -/
def outsAt0 (c : Dev nD) : (n : ℕ) → n < cfg0.N → Acc F
  | 0, hn => accA m c ⟨0, hn⟩ rfl (Nat.zero_ne_add_one 62)
  | n + 1, hn =>
    if h1 : n + 1 = 63 then accC m c ⟨n + 1, hn⟩ (Nat.succ_ne_zero n) h1 (outsAt0 c n (Nat.lt_of_succ_lt hn))
    else accB m c ⟨n + 1, hn⟩ (Nat.succ_ne_zero n) h1 (outsAt0 c n (Nat.lt_of_succ_lt hn))

theorem outsAt0_A (c : Dev nD) (t : Fin cfg0.N) (h0 : t.val = 0) (h1 : ¬t.val = 63) :
    outsAt0 m c t.val t.isLt = accA m c t h0 h1 := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 63) :
    outsAt0 m c t.val t.isLt = accB m c t h0 h1 (outsAt0 m c (t.val - 1) (Nat.lt_of_le_of_lt (Nat.sub_le _ _) t.isLt)) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 63) :
    outsAt0 m c t.val t.isLt = accC m c t h0 h1 (outsAt0 m c (t.val - 1) (Nat.lt_of_le_of_lt (Nat.sub_le _ _) t.isLt)) := by
  obtain ⟨n, hn⟩ := t
  cases n with
  | zero => exact absurd rfl h0
  | succ n => exact (dif_pos h1).trans rfl

/-! ## The region invariant with the accumulators named -/

/-- Before position `n`: at the start the frame class's invariant (every scratch at anything); afterwards the three
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1
      ∗ owns (c : Thread nD τ) scM0_1 fullShare (outsAt0 m c n hn).2.2.1
      ∗ owns (c : Thread nD τ) scM0_2 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1
      ∗ owns (c : Thread nD τ) scM0_1 fullShare (outsAt0 m c n hn).2.2.1
      ∗ owns (c : Thread nD τ) scM0_2 fullShare (outsAt0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1
      ∗ owns (c : Thread nD τ) scM0_1 fullShare (outsAt0 m c (n - 1) (by omega)).2.2.1
      ∗ owns (c : Thread nD τ) scM0_2 fullShare (outsAt0 m c (n - 1) (by omega)).2.2.2) ∗ (∃ r, prngReg c r)) := by
  cases n with
  | zero => exact absurd rfl hz
  | succ n => rfl

/-! ## The pipeline's proof data -/

/-- The arrays as the region finds them; after the body at point `t` each input's buffer at its block, the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The two input windows are live everywhere: each buffer is left at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]

set_option maxHeartbeats 4000000 in
/-- The body at any point. The inputs' buffers hold their blocks; the point is the first, a middle or the last one; the
    invariant hands the run the accumulators (at anything at the first point, else at what the point before left) and
    takes them back at this point's pieces read back, which cover the one-word block; the output's buffer is handed back
    as found except at the last point, where the run's pieces cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, leaves0_0, leaves0_1, PhiS_castSucc m c t]
  have hN : t.val < 64 := lt_of_lt_of_eq t.isLt (show cfg0.N = 64 from N_0)
  by_cases h0 : t.val = 0
  · have h1 : ¬t.val = 63 := by omega
    rw [Dat.leavesExact_idle (dats m 0 c) 2 t (idleAt0_2_A t ((hcond0_0 t).mpr h0) (fun h => h1 ((hcond0_1 t).mp h)))
        (noFlush0_2_A t ((hcond0_0 t).mpr h0) (fun h => h1 ((hcond0_1 t).mp h))),
      outsAt0_A m c t h0 h1, PhiS_zero m c _ _ h0, PhiA0_eq]
    unfold accA; (try dsimp only)
    iintro ⟨⟨⟨HS0, HS1, HS2⟩, Hg⟩, Ho, ⟨%d0, H0⟩, ⟨%d1, H1⟩, ⟨%d2, H2⟩⟩
    iapply ((ptA c t h0 h1 (iblk m c 0 t) (iblk m c 1 t)).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitr [Hg]
      · isplitl [HS0]; · iapply (owns_of_writes c _ VS0_0 _ (coverA_0 c t _ _ h0 h1)) $$ HS0
        isplitl [HS1]; · iapply (owns_of_writes c _ VS0_1 _ (coverA_1 c t _ _ h0 h1)) $$ HS1
        iapply (owns_of_writes c _ VS0_2 _ (coverA_2 c t _ _ h0 h1)) $$ HS2
      iexact Hg
    isplitl [Ho]; · iexact Ho
    isplitl [H0]; · iexact H0
    isplitl [H1]; · iexact H1
    iexists _; iexact H2
  · have hz : t.val ≠ 0 := h0
    rw [PhiS_pos m c _ _ hz]
    by_cases h1 : t.val = 63
    · rw [show (dats m 0 c).leavesExact 2 t = owns (c : Thread nD τ) (ms0_2 t) fullShare ((dats m 0 c).after 2 t) from by
          unfold Dat.leavesExact; rw [liveAt0_2_C t (fun h => h0 ((hcond0_0 t).mp h)) ((hcond0_1 t).mpr h1)],
        after0_2, outsAt0_C m c t h0 h1]
      unfold accC; (try dsimp only)
      iintro ⟨⟨⟨HS0, HS1, HS2⟩, Hg⟩, Ho, ⟨%d0, H0⟩, ⟨%d1, H1⟩, ⟨%d2, H2⟩⟩
      iapply ((ptC c t h0 h1 (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · isplitl [HS0]; · iapply (owns_of_writes c _ VS0_0 _ (coverC_0 c t _ _ _ _ _ h0 h1)) $$ HS0
          isplitl [HS1]; · iapply (owns_of_writes c _ VS0_1 _ (coverC_1 c t _ _ _ _ _ h0 h1)) $$ HS1
          iapply (owns_of_writes c _ VS0_2 _ (coverC_2 c t _ _ _ _ _ h0 h1)) $$ HS2
        iexact Hg
      isplitl [Ho]; · iexact Ho
      isplitl [H0]; · iexact H0
      isplitl [H1]; · iexact H1
      iapply (owns_of_writes c _ VO0_2 _ (coverC_out c t _ _ _ _ _ h0 h1)) $$ H2
    · rw [Dat.leavesExact_idle (dats m 0 c) 2 t (idleAt0_2_B t (fun h => h0 ((hcond0_0 t).mp h)) (fun h => h1 ((hcond0_1 t).mp h)))
          (noFlush0_2_B t (fun h => h0 ((hcond0_0 t).mp h)) (fun h => h1 ((hcond0_1 t).mp h))),
        outsAt0_B m c t h0 h1]
      unfold accB; (try dsimp only)
      iintro ⟨⟨⟨HS0, HS1, HS2⟩, Hg⟩, Ho, ⟨%d0, H0⟩, ⟨%d1, H1⟩, ⟨%d2, H2⟩⟩
      iapply ((ptB c t h0 h1 (iblk m c 0 t) (iblk m c 1 t) _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · isplitl [HS0]; · iapply (owns_of_writes c _ VS0_0 _ (coverB_0 c t _ _ _ _ _ h0 h1)) $$ HS0
          isplitl [HS1]; · iapply (owns_of_writes c _ VS0_1 _ (coverB_1 c t _ _ _ _ _ h0 h1)) $$ HS1
          iapply (owns_of_writes c _ VS0_2 _ (coverB_2 c t _ _ _ _ _ h0 h1)) $$ HS2
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulators' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1, HS2⟩, Hg⟩
  isplitr [Hg]
  · isplitl [HS0]; · iexists _; iexact HS0
    isplitl [HS1]; · iexists _; iexact HS1
    iexists _; iexact HS2
  iexact Hg

/-! ## The run and the frame -/

set_option backward.isDefEq.respectTransparency.types false in
/-- Every weakly fair execution of @main on the TensorCores terminates, and every final state has every array of the
    pipeline at what the library computes from the proof data and every other unscoped buffer as the reshape after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME of the kernel program, at any `F`: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) :=
  frame_of m ρ (dats m) (run_main m ρ)

end Cert.KernelIdeal.Hand

end
-- ==== Proof.Spec.lean ====
/-
  The loss both programs compute, written twice over the two flattened arrays P (the predictions' cells) and
  T (the encoded targets' cells), each 802816 rows of 30 numbers, as extended reals.

  A row's last 20 numbers are class scores; its log-softmax is  logp r c = (x_c - m) - log (Σ_c' exp (x_c' - m))  with m the
  row's largest score.  Slot 10 of the target row, truncated to an integer, is the class index ct r, and, compared
  with 0, the object mask.  Slots 0-1, 5-6 (centre offsets) and 2-3, 7-8 (sizes) of the two boxes give the squared error.

  Kval is the arrangement of the kernel: the rows are cut into 64 blocks of 12544; a block contributes
  0 - Σ_rows Σ_c [c = ct] logp,  Σ mask  and  Σ mask · ((p0 + p5) + (p2 + p7));  the blocks' contributions are summed and
  combined as  A / N + 5 · (M / (Nobj · 4)).
  Rval is the arrangement of the reference:  -( (Σ_r logp r (ct r)) / N ) + 5 · ((Σ mask · se_xy + Σ mask · se_wh) / (Nobj · 4)),
  the class score picked by index (⊥ when the index is not a class).
  The two agree when the scores are real numbers and every ct r is a class (Kval_eq_Rval, proved in Bridge.lean).
-/
import Idealize.ShloMosaic.PureOps.Ideal
import Mathlib.Algebra.BigOperators.Fin

noncomputable section

namespace Cert.Spec

open Idealize.ShloMosaic

/-- A flattened cell array: 802816 rows of 30 extended reals. -/
abbrev Arr : Type := Fin 802816 → Fin 30 → EReal

/-- The constants of the final combination, as the words both programs carry: 802816, 4, 5. -/
def cN : EReal := Ideal.ofBits .f32 0x49440000#32
def c4 : EReal := Ideal.ofBits .f32 0x40800000#32
def c5 : EReal := Ideal.ofBits .f32 0x40A00000#32

/-- Column of class c. -/
def cls (c : Fin 20) : Fin 30 := ⟨10 + c.val, by omega⟩

/-- A row's largest class score, as the running maximum from -∞. -/
def rowmax (P : Arr) (r : Fin 802816) : EReal := (Finset.univ : Finset (Fin 20)).fold max ⊥ (fun c => P r (cls c))

def shifted (P : Arr) (r : Fin 802816) (c : Fin 20) : EReal := P r (cls c) - rowmax P r

def lse (P : Arr) (r : Fin 802816) : EReal := Ideal.log (∑ c : Fin 20, Ideal.exp (shifted P r c))

/-- The log-softmax of a row's class scores. -/
def logp (P : Arr) (r : Fin 802816) (c : Fin 20) : EReal := shifted P r c - lse P r

/-- The class index a target row carries: slot 10 truncated to a 32-bit integer. -/
def ctgt (T : Arr) (r : Fin 802816) : BitVec 32 := Ideal.fptosi 32 (T r 10)

/-- The object mask of a target row. -/
def mask (T : Arr) (r : Fin 802816) : EReal := if 0 < T r 10 then 1 else 0

/-- One squared difference. -/
def sqd (P T : Arr) (r : Fin 802816) (j : Fin 30) : EReal := (P r j - T r j) * (P r j - T r j)

/-- The kernel's pick: the one-hot sum over the 20 classes. -/
def sel (P T : Arr) (r : Fin 802816) : EReal :=
  ∑ c : Fin 20, if BitVec.ofNat 32 c.val = ctgt T r then logp P r c else 0

/-- Two adjacent slots' squared differences, from slot o. -/
def pair (P T : Arr) (r : Fin 802816) (o : Fin 29) : EReal :=
  ∑ k : Fin 2, sqd P T r ⟨o.val + k.val, by omega⟩

/-- The kernel's squared error of a row: (xy of box 0 + xy of box 1) + (wh of box 0 + wh of box 1). -/
def seK (P T : Arr) (r : Fin 802816) : EReal := (pair P T r 0 + pair P T r 5) + (pair P T r 2 + pair P T r 7)

/-- Row q of block t. -/
def rowOf (t : Fin 64) (q : Fin 12544) : Fin 802816 := ⟨t.val * 12544 + q.val, by omega⟩

def blkA (P T : Arr) (t : Fin 64) : EReal := 0 - ∑ q : Fin 12544, sel P T (rowOf t q)
def blkN (T : Arr) (t : Fin 64) : EReal := ∑ q : Fin 12544, mask T (rowOf t q)
def blkM (P T : Arr) (t : Fin 64) : EReal := ∑ q : Fin 12544, mask T (rowOf t q) * seK P T (rowOf t q)

/-- The kernel's result. -/
def Kval (P T : Arr) : EReal :=
  Ideal.div (∑ t : Fin 64, blkA P T t) cN + c5 * Ideal.div (∑ t : Fin 64, blkM P T t) ((∑ t : Fin 64, blkN T t) * c4)

/-- The reference's pick: the score at the class index, -∞ (the extended reals' reading of the fill) off the classes. -/
def pick (P T : Arr) (r : Fin 802816) : EReal :=
  if h : (ctgt T r).toNat < 20 then logp P r ⟨(ctgt T r).toNat, h⟩ else ⊥

/-- The reference's squared errors of a row: over the two boxes and the two centre offsets, resp. the two sizes. -/
def seXY (P T : Arr) (r : Fin 802816) : EReal := ∑ k : Fin 2, ∑ j : Fin 2, sqd P T r ⟨5 * k.val + j.val, by omega⟩
def seWH (P T : Arr) (r : Fin 802816) : EReal := ∑ k : Fin 2, ∑ j : Fin 2, sqd P T r ⟨5 * k.val + 2 + j.val, by omega⟩

/-- The reference's result. -/
def Rval (P T : Arr) : EReal :=
  -(Ideal.div (∑ r : Fin 802816, pick P T r) cN)
    + c5 * Ideal.div ((∑ r : Fin 802816, mask T r * seXY P T r) + (∑ r : Fin 802816, mask T r * seWH P T r))
        ((∑ r : Fin 802816, mask T r) * c4)

end Cert.Spec

end
-- ==== Proof.KernelValue.lean ====
/-
  The kernel program's value, read off its frame run.

  The output window has one [1,1] block, idle at the grid points 0..62 and stored and written back at point 63; after the
  region one reshape makes the scalar result from the [1,1] result array. Given that the output window's buffer after the
  last point is the constant function of Kval (the hypothesis `hlast`, proved by the induction over the grid points), the
  one write-back covers the result array's one cell, so the array ends as that constant; a reshape of a constant is the
  constant; and the two argument arrays are buffers no window stages and no host operation writes.
-/
import proofs.«115196_j11467562680721_1_alg».proof.Proof.Frame
import proofs.«115196_j11467562680721_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Hand Cert.Spec

variable (m : (ℓ : Loc nD τ sig) → Buf (Elt Ideal) ℓ) (ρ : Dev nD → PrngReg)

/-- The flattened prediction cells the region finds, as rows of 30 extended reals. -/
def PK (c : Dev nD) : Arr := fun r j => (V m c main_v76 : S802816x30.Idx → EReal) (ix2 r j)
/-- The flattened target cells the region finds. -/
def TK (c : Dev nD) : Arr := fun r j => (V m c main_v75 : S802816x30.Idx → EReal) (ix2 r j)

/-- The last grid point. -/
abbrev tLast : Fin cfg0.N := ⟨63, by decide⟩

/-- The [1,1] result array holding the kernel's value. -/
abbrev result (c : Dev nD) : Buf (Elt Ideal) ((c : Thread nD τ).loc main_v77) := fun _ => Kval (PK m c) (TK m c)

/-- The one write-back, at the last point, writes the constant: the block read through the [1,1] array of a constant
    function is that constant. -/
theorem flushed_eq (hlast : ∀ c, (outsAt0 m c 63 (by decide)).1 = fun _ => Kval (PK m c) (TK m c))
    (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2]
  show (cfg0.win 2).cut (grid0.coords tLast) (outsAt0 m c 63 (by decide)).1 = _
  rw [hlast c]
  funext j
  rfl

/-- The result array ends holding the kernel's value: the one write-back, at the last point, covers its one cell. -/
theorem final_out (hlast : ∀ c, (outsAt0 m c 63 (by decide)).1 = fun _ => Kval (PK m c) (TK m c)) (c : Dev nD) :
    (dats m 0 c).arrAt 2 cfg0.N = result m c :=
  (dats m 0 c).arrAt_eq_of_cover 2 (result m c) (flushed_eq m hlast c) fun i =>
    ⟨tLast, (flush0_2 tLast).mpr rfl, by
      show i ∈ ((View.whole main_v77).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape after the region turns the [1,1] result array into the scalar result: a constant stays that constant. -/
theorem tail_value (hlast : ∀ c, (outsAt0 m c 63 (by decide)).1 = fun _ => Kval (PK m c) (TK m c)) (c : Dev nD) :
    Pipeline.afterTail₀ cfgs (dats m) 0 (V0 m) [hostOps1] c main_v78 = fun _ => Kval (PK m c) (TK m c) := by
  unfold Pipeline.afterTail₀
  show StableHlo.after hostOps1 _ (Proc.devRef .tc main_v78) = _
  after_results
  have e : Pipeline.withArrays (cfgs 0).spec c (V0 m c) (fun w => (dats m 0 c).arrAt w (cfgs 0).N) (Proc.devRef .tc main_v77)
      = result m c :=
    (Pipeline.withArrays_arr spec0 launch0.win.arr_inj c _ _ 2).trans (final_out m hlast c)
  rw [e]
  funext i
  rfl

/-- The kernel program's run: the scalar result holds the kernel's value, and both argument arrays are kept. -/
theorem kernel_run_of (hlast : ∀ c, (outsAt0 m c 63 (by decide)).1 = fun _ => Kval (PK m c) (TK m c)) :
    θ_run (defs (F := Ideal)) (onTc (τ := τ) (main (F := Ideal))) ⟨m, fun _ => 0, ρ⟩ (fun r => ∀ c : Dev nD,
      r.2.mem ((c.tc : Thread nD τ).loc main_v78) = (fun _ => Kval (PK m c) (TK m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v78 (Pipeline.mem_restRefs_of main_v78 (by decide) (by decide))).trans (tail_value m hlast c),
     ((h c).2 main_arg0 (Pipeline.mem_restRefs_of main_arg0 (by decide) (by decide))).trans
        ((W_of m (dats m) c main_arg0 (by decide) (by decide)).trans (V_main_arg0 m c)),
     ((h c).2 main_arg1 (Pipeline.mem_restRefs_of main_arg1 (by decide) (by decide))).trans
        ((W_of m (dats m) c main_arg1 (by decide) (by decide)).trans (V_main_arg1 m c))⟩) (run_main m ρ)

end Cert.KernelIdeal.KV

end
-- ==== Proof.Pieces.lean ====
/- What the three runs of the loss kernel leave, read back: each found piece list, written over any contents of any
   view of the buffer's shape, reads as the skeleton's payload for that store — the accumulator's incoming value plus
   the point's partial sum, and at the last point the loss combined from the three totals. -/
import proofs.«115196_j11467562680721_1_alg».proof.Proof.RunC
import Idealize.ShloMosaic.Lib.Pipeline.Value

-- membership in a rectangle of production extents: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-block rectangle's offsets, spelt as the kernel spells them, are zero. -/
theorem off00_zero : (![0, 0] : Fin 2 → Nat) = fun _ => 0 := funext fun a => by fin_cases a <;> rfl

/-! ## The first grid point: each accumulator is zeroed, read back, and the point's partial sum added -/

/-- At the first point the first accumulator's pieces cover it. -/
theorem cover_A_0 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S12544x30 .f32) (y : S1x1.Idx) :
    ∃ pc ∈ (kernelRun0_A (F := F) c i arg1 harg1 arg2 harg2 arg3 harg3 arg4 harg4 arg5 harg5 arg6 harg6 hc0 hc1 x0 x1).1, y ∈ pc.1.set :=
  View.cover_of_tiledL (kernelRun0_A (F := F) c i arg1 harg1 arg2 harg2 arg3 harg3 arg4 harg4 arg5 harg5 arg6 harg6 hc0 hc1 x0 x1).1 S1x1.size (by sl_kernel_rfl) y

/-- At the first point the second accumulator's pieces cover it. -/
theorem cover_A_1 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S12544x30 .f32) (y : S1x1.Idx) :
    ∃ pc ∈ (kernelRun0_A (F := F) c i arg1 harg1 arg2 harg2 arg3 harg3 arg4 harg4 arg5 harg5 arg6 harg6 hc0 hc1 x0 x1).2.1, y ∈ pc.1.set :=
  View.cover_of_tiledL (kernelRun0_A (F := F) c i arg1 harg1 arg2 harg2 arg3 harg3 arg4 harg4 arg5 harg5 arg6 harg6 hc0 hc1 x0 x1).2.1 S1x1.size (by sl_kernel_rfl) y

/-- At the first point the third accumulator's pieces cover it. -/
theorem cover_A_2 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S12544x30 .f32) (y : S1x1.Idx) :
    ∃ pc ∈ (kernelRun0_A (F := F) c i arg1 harg1 arg2 harg2 arg3 harg3 arg4 harg4 arg5 harg5 arg6 harg6 hc0 hc1 x0 x1).2.2.1, y ∈ pc.1.set :=
  View.cover_of_tiledL (kernelRun0_A (F := F) c i arg1 harg1 arg2 harg2 arg3 harg3 arg4 harg4 arg5 harg5 arg6 harg6 hc0 hc1 x0 x1).2.2.1 S1x1.size (by sl_kernel_rfl) y

/-- After the first point the first accumulator holds zero plus the point's negated log-likelihood sum. -/
theorem read_A_0 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S12544x30 .f32) :
    V.read (Elt F) (V.writes (Elt F) f (kernelRun0_A (F := F) c i arg1 harg1 arg2 harg2 arg3 harg3 arg4 harg4 arg5 harg5 arg6 harg6 hc0 hc1 x0 x1).1) = k0_pay17 (k0_pay8 x0 x1) (k0_pay2 (F := F)) := by
  rw [View.read_writes_eq_canon _ _ _ (cover_A_0 c i arg1 harg1 arg2 harg2 arg3 harg3 arg4 harg4 arg5 harg5 arg6 harg6 hc0 hc1 x0 x1)]
  unfold kernelRun0_A
  dsimp only
  sl_unfold_run_names
  rw [View.canon_cons_unit_zero (S := S1x1) off00_zero, View.readCov_unit_zero (S := S1x1) _ off00_zero]
  simp only [View.readAt_eq_ld, harg1.read_unread, harg2.read_unread, View.ld_unit_zero (S := S12544x30) off00_zero]

/-- After the first point the second accumulator holds zero plus the point's count of object cells. -/
theorem read_A_1 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S12544x30 .f32) :
    V.read (Elt F) (V.writes (Elt F) f (kernelRun0_A (F := F) c i arg1 harg1 arg2 harg2 arg3 harg3 arg4 harg4 arg5 harg5 arg6 harg6 hc0 hc1 x0 x1).2.1) = k0_pay18 (k0_pay9 x1) (k0_pay3 (F := F)) := by
  rw [View.read_writes_eq_canon _ _ _ (cover_A_1 c i arg1 harg1 arg2 harg2 arg3 harg3 arg4 harg4 arg5 harg5 arg6 harg6 hc0 hc1 x0 x1)]
  unfold kernelRun0_A
  dsimp only
  sl_unfold_run_names
  rw [View.canon_cons_unit_zero (S := S1x1) off00_zero, View.readCov_unit_zero (S := S1x1) _ off00_zero]
  simp only [View.readAt_eq_ld, harg1.read_unread, harg2.read_unread, View.ld_unit_zero (S := S12544x30) off00_zero]

/-- After the first point the third accumulator holds zero plus the point's masked squared-error sum. -/
theorem read_A_2 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S12544x30 .f32) :
    V.read (Elt F) (V.writes (Elt F) f (kernelRun0_A (F := F) c i arg1 harg1 arg2 harg2 arg3 harg3 arg4 harg4 arg5 harg5 arg6 harg6 hc0 hc1 x0 x1).2.2.1) = k0_pay19 (k0_pay9 x1) (k0_pay10 x0) (k0_pay11 x1) (k0_pay12 x0) (k0_pay13 x1) (k0_pay14 x0) (k0_pay15 x1) (k0_pay16 x0 x1) (k0_pay4 (F := F)) := by
  rw [View.read_writes_eq_canon _ _ _ (cover_A_2 c i arg1 harg1 arg2 harg2 arg3 harg3 arg4 harg4 arg5 harg5 arg6 harg6 hc0 hc1 x0 x1)]
  unfold kernelRun0_A
  dsimp only
  sl_unfold_run_names
  rw [View.canon_cons_unit_zero (S := S1x1) off00_zero, View.readCov_unit_zero (S := S1x1) _ off00_zero]
  simp only [View.readAt_eq_ld, harg1.read_unread, harg2.read_unread, View.ld_unit_zero (S := S12544x30) off00_zero]

/-! ## A middle grid point: each accumulator comes in at `xs·` and the point's partial sum is added -/

/-- At a middle point the first accumulator's piece covers it. -/
theorem cover_B_0 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S12544x30 .f32) (xs0 xs1 xs2 : Vec F S1x1 .f32) (y : S1x1.Idx) :
    ∃ pc ∈ (kernelRun0_B (F := F) c i arg1 harg1 arg2 harg2 arg3 harg3 arg4 harg4 arg5 harg5 arg6 harg6 hc0 hc1 x0 x1 xs0 xs1 xs2).1, y ∈ pc.1.set :=
  View.cover_of_tiledL (kernelRun0_B (F := F) c i arg1 harg1 arg2 harg2 arg3 harg3 arg4 harg4 arg5 harg5 arg6 harg6 hc0 hc1 x0 x1 xs0 xs1 xs2).1 S1x1.size (by sl_kernel_rfl) y

/-- At a middle point the second accumulator's piece covers it. -/
theorem cover_B_1 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S12544x30 .f32) (xs0 xs1 xs2 : Vec F S1x1 .f32) (y : S1x1.Idx) :
    ∃ pc ∈ (kernelRun0_B (F := F) c i arg1 harg1 arg2 harg2 arg3 harg3 arg4 harg4 arg5 harg5 arg6 harg6 hc0 hc1 x0 x1 xs0 xs1 xs2).2.1, y ∈ pc.1.set :=
  View.cover_of_tiledL (kernelRun0_B (F := F) c i arg1 harg1 arg2 harg2 arg3 harg3 arg4 harg4 arg5 harg5 arg6 harg6 hc0 hc1 x0 x1 xs0 xs1 xs2).2.1 S1x1.size (by sl_kernel_rfl) y

/-- At a middle point the third accumulator's piece covers it. -/
theorem cover_B_2 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S12544x30 .f32) (xs0 xs1 xs2 : Vec F S1x1 .f32) (y : S1x1.Idx) :
    ∃ pc ∈ (kernelRun0_B (F := F) c i arg1 harg1 arg2 harg2 arg3 harg3 arg4 harg4 arg5 harg5 arg6 harg6 hc0 hc1 x0 x1 xs0 xs1 xs2).2.2.1, y ∈ pc.1.set :=
  View.cover_of_tiledL (kernelRun0_B (F := F) c i arg1 harg1 arg2 harg2 arg3 harg3 arg4 harg4 arg5 harg5 arg6 harg6 hc0 hc1 x0 x1 xs0 xs1 xs2).2.2.1 S1x1.size (by sl_kernel_rfl) y

/-- After a middle point the first accumulator holds what it held plus the point's negated log-likelihood sum. -/
theorem read_B_0 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S12544x30 .f32) (xs0 xs1 xs2 : Vec F S1x1 .f32) :
    V.read (Elt F) (V.writes (Elt F) f (kernelRun0_B (F := F) c i arg1 harg1 arg2 harg2 arg3 harg3 arg4 harg4 arg5 harg5 arg6 harg6 hc0 hc1 x0 x1 xs0 xs1 xs2).1) = k0_pay17 (k0_pay8 x0 x1) xs0 := by
  rw [View.read_writes_eq_canon _ _ _ (cover_B_0 c i arg1 harg1 arg2 harg2 arg3 harg3 arg4 harg4 arg5 harg5 arg6 harg6 hc0 hc1 x0 x1 xs0 xs1 xs2)]
  unfold kernelRun0_B
  dsimp only
  sl_unfold_run_names
  rw [View.canon_unit_zero (S := S1x1) off00_zero]
  simp only [View.readAt_eq_ld, harg1.read_unread, harg2.read_unread, harg4.read_unread, View.ld_unit_zero (S := S12544x30) off00_zero, View.ld_unit_zero (S := S1x1) off00_zero]

/-- After a middle point the second accumulator holds what it held plus the point's count of object cells. -/
theorem read_B_1 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S12544x30 .f32) (xs0 xs1 xs2 : Vec F S1x1 .f32) :
    V.read (Elt F) (V.writes (Elt F) f (kernelRun0_B (F := F) c i arg1 harg1 arg2 harg2 arg3 harg3 arg4 harg4 arg5 harg5 arg6 harg6 hc0 hc1 x0 x1 xs0 xs1 xs2).2.1) = k0_pay18 (k0_pay9 x1) xs1 := by
  rw [View.read_writes_eq_canon _ _ _ (cover_B_1 c i arg1 harg1 arg2 harg2 arg3 harg3 arg4 harg4 arg5 harg5 arg6 harg6 hc0 hc1 x0 x1 xs0 xs1 xs2)]
  unfold kernelRun0_B
  dsimp only
  sl_unfold_run_names
  rw [View.canon_unit_zero (S := S1x1) off00_zero]
  simp only [View.readAt_eq_ld, harg1.read_unread, harg2.read_unread, harg5.read_unread, View.ld_unit_zero (S := S12544x30) off00_zero, View.ld_unit_zero (S := S1x1) off00_zero]

/-- After a middle point the third accumulator holds what it held plus the point's masked squared-error sum. -/
theorem read_B_2 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S12544x30 .f32) (xs0 xs1 xs2 : Vec F S1x1 .f32) :
    V.read (Elt F) (V.writes (Elt F) f (kernelRun0_B (F := F) c i arg1 harg1 arg2 harg2 arg3 harg3 arg4 harg4 arg5 harg5 arg6 harg6 hc0 hc1 x0 x1 xs0 xs1 xs2).2.2.1) = k0_pay19 (k0_pay9 x1) (k0_pay10 x0) (k0_pay11 x1) (k0_pay12 x0) (k0_pay13 x1) (k0_pay14 x0) (k0_pay15 x1) (k0_pay16 x0 x1) xs2 := by
  rw [View.read_writes_eq_canon _ _ _ (cover_B_2 c i arg1 harg1 arg2 harg2 arg3 harg3 arg4 harg4 arg5 harg5 arg6 harg6 hc0 hc1 x0 x1 xs0 xs1 xs2)]
  unfold kernelRun0_B
  dsimp only
  sl_unfold_run_names
  rw [View.canon_unit_zero (S := S1x1) off00_zero]
  simp only [View.readAt_eq_ld, harg1.read_unread, harg2.read_unread, harg6.read_unread, View.ld_unit_zero (S := S12544x30) off00_zero, View.ld_unit_zero (S := S1x1) off00_zero]

/-! ## The last grid point: the accumulators as at a middle point, and the result window holds their combination -/

/-- At the last point the result window's piece covers it. -/
theorem cover_C_out (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) (y : S1x1.Idx) :
    ∃ pc ∈ (kernelRun0_C (F := F) c i arg1 harg1 arg2 harg2 arg3 harg3 arg4 harg4 arg5 harg5 arg6 harg6 hc0 hc1 x0 x1 xs0 xs1 xs2).1, y ∈ pc.1.set :=
  View.cover_of_tiledL (kernelRun0_C (F := F) c i arg1 harg1 arg2 harg2 arg3 harg3 arg4 harg4 arg5 harg5 arg6 harg6 hc0 hc1 x0 x1 xs0 xs1 xs2).1 S1x1.size (by sl_kernel_rfl) y

/-- At the last point the first accumulator's piece covers it. -/
theorem cover_C_0 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) (y : S1x1.Idx) :
    ∃ pc ∈ (kernelRun0_C (F := F) c i arg1 harg1 arg2 harg2 arg3 harg3 arg4 harg4 arg5 harg5 arg6 harg6 hc0 hc1 x0 x1 xs0 xs1 xs2).2.1, y ∈ pc.1.set :=
  View.cover_of_tiledL (kernelRun0_C (F := F) c i arg1 harg1 arg2 harg2 arg3 harg3 arg4 harg4 arg5 harg5 arg6 harg6 hc0 hc1 x0 x1 xs0 xs1 xs2).2.1 S1x1.size (by sl_kernel_rfl) y

/-- At the last point the second accumulator's piece covers it. -/
theorem cover_C_1 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) (y : S1x1.Idx) :
    ∃ pc ∈ (kernelRun0_C (F := F) c i arg1 harg1 arg2 harg2 arg3 harg3 arg4 harg4 arg5 harg5 arg6 harg6 hc0 hc1 x0 x1 xs0 xs1 xs2).2.2.1, y ∈ pc.1.set :=
  View.cover_of_tiledL (kernelRun0_C (F := F) c i arg1 harg1 arg2 harg2 arg3 harg3 arg4 harg4 arg5 harg5 arg6 harg6 hc0 hc1 x0 x1 xs0 xs1 xs2).2.2.1 S1x1.size (by sl_kernel_rfl) y

/-- At the last point the third accumulator's piece covers it. -/
theorem cover_C_2 (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) (y : S1x1.Idx) :
    ∃ pc ∈ (kernelRun0_C (F := F) c i arg1 harg1 arg2 harg2 arg3 harg3 arg4 harg4 arg5 harg5 arg6 harg6 hc0 hc1 x0 x1 xs0 xs1 xs2).2.2.2.1, y ∈ pc.1.set :=
  View.cover_of_tiledL (kernelRun0_C (F := F) c i arg1 harg1 arg2 harg2 arg3 harg3 arg4 harg4 arg5 harg5 arg6 harg6 hc0 hc1 x0 x1 xs0 xs1 xs2).2.2.2.1 S1x1.size (by sl_kernel_rfl) y

/-- After the last point the first accumulator holds what it held plus the point's negated log-likelihood sum. -/
theorem read_C_0 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) :
    V.read (Elt F) (V.writes (Elt F) f (kernelRun0_C (F := F) c i arg1 harg1 arg2 harg2 arg3 harg3 arg4 harg4 arg5 harg5 arg6 harg6 hc0 hc1 x0 x1 xs0 xs1 xs2).2.1) = k0_pay17 (k0_pay8 x0 x1) xs0 := by
  rw [View.read_writes_eq_canon _ _ _ (cover_C_0 c i arg1 harg1 arg2 harg2 arg3 harg3 arg4 harg4 arg5 harg5 arg6 harg6 hc0 hc1 x0 x1 xs0 xs1 xs2)]
  unfold kernelRun0_C
  dsimp only
  sl_unfold_run_names
  rw [View.canon_unit_zero (S := S1x1) off00_zero]
  simp only [View.readAt_eq_ld, harg1.read_unread, harg2.read_unread, harg4.read_unread, View.ld_unit_zero (S := S12544x30) off00_zero, View.ld_unit_zero (S := S1x1) off00_zero]

/-- After the last point the second accumulator holds what it held plus the point's count of object cells. -/
theorem read_C_1 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) :
    V.read (Elt F) (V.writes (Elt F) f (kernelRun0_C (F := F) c i arg1 harg1 arg2 harg2 arg3 harg3 arg4 harg4 arg5 harg5 arg6 harg6 hc0 hc1 x0 x1 xs0 xs1 xs2).2.2.1) = k0_pay18 (k0_pay9 x1) xs1 := by
  rw [View.read_writes_eq_canon _ _ _ (cover_C_1 c i arg1 harg1 arg2 harg2 arg3 harg3 arg4 harg4 arg5 harg5 arg6 harg6 hc0 hc1 x0 x1 xs0 xs1 xs2)]
  unfold kernelRun0_C
  dsimp only
  sl_unfold_run_names
  rw [View.canon_unit_zero (S := S1x1) off00_zero]
  simp only [View.readAt_eq_ld, harg1.read_unread, harg2.read_unread, harg5.read_unread, View.ld_unit_zero (S := S12544x30) off00_zero, View.ld_unit_zero (S := S1x1) off00_zero]

/-- After the last point the third accumulator holds what it held plus the point's masked squared-error sum. -/
theorem read_C_2 (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) :
    V.read (Elt F) (V.writes (Elt F) f (kernelRun0_C (F := F) c i arg1 harg1 arg2 harg2 arg3 harg3 arg4 harg4 arg5 harg5 arg6 harg6 hc0 hc1 x0 x1 xs0 xs1 xs2).2.2.2.1) = k0_pay19 (k0_pay9 x1) (k0_pay10 x0) (k0_pay11 x1) (k0_pay12 x0) (k0_pay13 x1) (k0_pay14 x0) (k0_pay15 x1) (k0_pay16 x0 x1) xs2 := by
  rw [View.read_writes_eq_canon _ _ _ (cover_C_2 c i arg1 harg1 arg2 harg2 arg3 harg3 arg4 harg4 arg5 harg5 arg6 harg6 hc0 hc1 x0 x1 xs0 xs1 xs2)]
  unfold kernelRun0_C
  dsimp only
  sl_unfold_run_names
  rw [View.canon_unit_zero (S := S1x1) off00_zero]
  simp only [View.readAt_eq_ld, harg1.read_unread, harg2.read_unread, harg6.read_unread, View.ld_unit_zero (S := S12544x30) off00_zero, View.ld_unit_zero (S := S1x1) off00_zero]

/-- After the last point the result window holds the loss combined from the three totals just stored. -/
theorem read_C_out (V : View sig .tc .vmem S1x1 .f32) (f : V.ty.Contents (Elt F)) (c : Dev nD) (i : grid0.Coords) (arg1 : Memref sig .tc .vmem S12544x30 .f32) (harg1 : arg1.IsWhole) (arg2 : Memref sig .tc .vmem S12544x30 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S12544x30 .f32) (xs0 xs1 xs2 : Vec F S1x1 .f32) :
    V.read (Elt F) (V.writes (Elt F) f (kernelRun0_C (F := F) c i arg1 harg1 arg2 harg2 arg3 harg3 arg4 harg4 arg5 harg5 arg6 harg6 hc0 hc1 x0 x1 xs0 xs1 xs2).1) = k0_pay1 (k0_pay17 (k0_pay8 x0 x1) xs0) (k0_pay18 (k0_pay9 x1) xs1) (k0_pay19 (k0_pay9 x1) (k0_pay10 x0) (k0_pay11 x1) (k0_pay12 x0) (k0_pay13 x1) (k0_pay14 x0) (k0_pay15 x1) (k0_pay16 x0 x1) xs2) := by
  rw [View.read_writes_eq_canon _ _ _ (cover_C_out c i arg1 harg1 arg2 harg2 arg3 harg3 arg4 harg4 arg5 harg5 arg6 harg6 hc0 hc1 x0 x1 xs0 xs1 xs2)]
  unfold kernelRun0_C
  dsimp only
  sl_unfold_run_names
  rw [View.canon_unit_zero (S := S1x1) off00_zero]
  simp only [View.readCov_unit_zero (S := S1x1) _ off00_zero, View.readAt_eq_ld, harg1.read_unread, harg2.read_unread, harg4.read_unread, harg5.read_unread, harg6.read_unread, View.ld_unit_zero (S := S12544x30) off00_zero, View.ld_unit_zero (S := S1x1) off00_zero]

end Cert.KernelIdeal.Hand

end
-- ==== Proof.PointsPayload.lean ====
/- The loss kernel's three running totals as a recursion over the grid points in the skeleton's payloads, and the
   proof that the accumulators hold them after every point and the result window their combination after the last. -/
import proofs.«115196_j11467562680721_1_alg».proof.Proof.Frame
import proofs.«115196_j11467562680721_1_alg».proof.Proof.Pieces

-- membership in a rectangle of production extents: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The blocks of a grid point, at their literal type -/

/-- The prediction block of point `t`. -/
abbrev xb0 (c : Dev nD) (t : Fin cfg0.N) : Vec F S12544x30 .f32 := iblk m c 0 t
/-- The target block of point `t`. -/
abbrev xb1 (c : Dev nD) (t : Fin cfg0.N) : Vec F S12544x30 .f32 := iblk m c 1 t

/-! ## The three running totals, by recursion on the point -/

/-- The negated selected log-probability total after point `n`: zero plus point 0's sum, then each point's sum added
    to what the point before left, in the order the kernel adds them. -/
def acc0 (c : Dev nD) : (n : ℕ) → n < cfg0.N → Vec F S1x1 .f32
  | 0, h => k0_pay17 (k0_pay8 (xb0 m c ⟨0, h⟩) (xb1 m c ⟨0, h⟩)) (k0_pay2 (F := F))
  | n + 1, h => k0_pay17 (k0_pay8 (xb0 m c ⟨n + 1, h⟩) (xb1 m c ⟨n + 1, h⟩)) (acc0 c n (Nat.lt_of_succ_lt h))
/-- The object-cell count after point `n`, likewise. -/
def acc1 (c : Dev nD) : (n : ℕ) → n < cfg0.N → Vec F S1x1 .f32
  | 0, h => k0_pay18 (k0_pay9 (xb1 m c ⟨0, h⟩)) (k0_pay3 (F := F))
  | n + 1, h => k0_pay18 (k0_pay9 (xb1 m c ⟨n + 1, h⟩)) (acc1 c n (Nat.lt_of_succ_lt h))
/-- The masked squared-error total after point `n`, likewise. -/
def acc2 (c : Dev nD) : (n : ℕ) → n < cfg0.N → Vec F S1x1 .f32
  | 0, h => k0_pay19 (k0_pay9 (xb1 m c ⟨0, h⟩)) (k0_pay10 (xb0 m c ⟨0, h⟩)) (k0_pay11 (xb1 m c ⟨0, h⟩)) (k0_pay12 (xb0 m c ⟨0, h⟩)) (k0_pay13 (xb1 m c ⟨0, h⟩)) (k0_pay14 (xb0 m c ⟨0, h⟩)) (k0_pay15 (xb1 m c ⟨0, h⟩)) (k0_pay16 (xb0 m c ⟨0, h⟩) (xb1 m c ⟨0, h⟩)) (k0_pay4 (F := F))
  | n + 1, h => k0_pay19 (k0_pay9 (xb1 m c ⟨n + 1, h⟩)) (k0_pay10 (xb0 m c ⟨n + 1, h⟩)) (k0_pay11 (xb1 m c ⟨n + 1, h⟩)) (k0_pay12 (xb0 m c ⟨n + 1, h⟩)) (k0_pay13 (xb1 m c ⟨n + 1, h⟩)) (k0_pay14 (xb0 m c ⟨n + 1, h⟩)) (k0_pay15 (xb1 m c ⟨n + 1, h⟩)) (k0_pay16 (xb0 m c ⟨n + 1, h⟩) (xb1 m c ⟨n + 1, h⟩)) (acc2 c n (Nat.lt_of_succ_lt h))

theorem acc0_zero (c : Dev nD) (h : 0 < cfg0.N) : acc0 m c 0 h = k0_pay17 (k0_pay8 (xb0 m c ⟨0, h⟩) (xb1 m c ⟨0, h⟩)) (k0_pay2 (F := F)) := rfl
theorem acc0_succ (c : Dev nD) (n : ℕ) (h : n + 1 < cfg0.N) : acc0 m c (n + 1) h = k0_pay17 (k0_pay8 (xb0 m c ⟨n + 1, h⟩) (xb1 m c ⟨n + 1, h⟩)) (acc0 m c n (Nat.lt_of_succ_lt h)) := rfl
theorem acc1_zero (c : Dev nD) (h : 0 < cfg0.N) : acc1 m c 0 h = k0_pay18 (k0_pay9 (xb1 m c ⟨0, h⟩)) (k0_pay3 (F := F)) := rfl
theorem acc1_succ (c : Dev nD) (n : ℕ) (h : n + 1 < cfg0.N) : acc1 m c (n + 1) h = k0_pay18 (k0_pay9 (xb1 m c ⟨n + 1, h⟩)) (acc1 m c n (Nat.lt_of_succ_lt h)) := rfl
theorem acc2_zero (c : Dev nD) (h : 0 < cfg0.N) : acc2 m c 0 h = k0_pay19 (k0_pay9 (xb1 m c ⟨0, h⟩)) (k0_pay10 (xb0 m c ⟨0, h⟩)) (k0_pay11 (xb1 m c ⟨0, h⟩)) (k0_pay12 (xb0 m c ⟨0, h⟩)) (k0_pay13 (xb1 m c ⟨0, h⟩)) (k0_pay14 (xb0 m c ⟨0, h⟩)) (k0_pay15 (xb1 m c ⟨0, h⟩)) (k0_pay16 (xb0 m c ⟨0, h⟩) (xb1 m c ⟨0, h⟩)) (k0_pay4 (F := F)) := rfl
theorem acc2_succ (c : Dev nD) (n : ℕ) (h : n + 1 < cfg0.N) : acc2 m c (n + 1) h = k0_pay19 (k0_pay9 (xb1 m c ⟨n + 1, h⟩)) (k0_pay10 (xb0 m c ⟨n + 1, h⟩)) (k0_pay11 (xb1 m c ⟨n + 1, h⟩)) (k0_pay12 (xb0 m c ⟨n + 1, h⟩)) (k0_pay13 (xb1 m c ⟨n + 1, h⟩)) (k0_pay14 (xb0 m c ⟨n + 1, h⟩)) (k0_pay15 (xb1 m c ⟨n + 1, h⟩)) (k0_pay16 (xb0 m c ⟨n + 1, h⟩) (xb1 m c ⟨n + 1, h⟩)) (acc2 m c n (Nat.lt_of_succ_lt h)) := rfl

/-! ## One point's step, in the payloads -/

/-- The first point leaves each accumulator at zero plus the point's partial sum. -/
theorem stepA (c : Dev nD) (t : Fin cfg0.N) (h0 : t.val = 0) (h1 : ¬t.val = 63) :
    (accA m c t h0 h1).2 = (k0_pay17 (k0_pay8 (xb0 m c t) (xb1 m c t)) (k0_pay2 (F := F)), k0_pay18 (k0_pay9 (xb1 m c t)) (k0_pay3 (F := F)), k0_pay19 (k0_pay9 (xb1 m c t)) (k0_pay10 (xb0 m c t)) (k0_pay11 (xb1 m c t)) (k0_pay12 (xb0 m c t)) (k0_pay13 (xb1 m c t)) (k0_pay14 (xb0 m c t)) (k0_pay15 (xb1 m c t)) (k0_pay16 (xb0 m c t) (xb1 m c t)) (k0_pay4 (F := F))) := by
  unfold accA; dsimp only
  exact congrArg₂ Prod.mk (read_A_0 (F := F) VS0_0 VS0_0.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (xb0 m c t) (xb1 m c t))
    (congrArg₂ Prod.mk (read_A_1 (F := F) VS0_1 VS0_1.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (xb0 m c t) (xb1 m c t))
      (read_A_2 (F := F) VS0_2 VS0_2.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (xb0 m c t) (xb1 m c t)))

/-- A middle point leaves each accumulator at what it held plus the point's partial sum. -/
theorem stepB (c : Dev nD) (t : Fin cfg0.N) (h0 : ¬t.val = 0) (h1 : ¬t.val = 63) (p : Acc F) :
    (accB m c t h0 h1 p).2 = (k0_pay17 (k0_pay8 (xb0 m c t) (xb1 m c t)) p.2.1, k0_pay18 (k0_pay9 (xb1 m c t)) p.2.2.1, k0_pay19 (k0_pay9 (xb1 m c t)) (k0_pay10 (xb0 m c t)) (k0_pay11 (xb1 m c t)) (k0_pay12 (xb0 m c t)) (k0_pay13 (xb1 m c t)) (k0_pay14 (xb0 m c t)) (k0_pay15 (xb1 m c t)) (k0_pay16 (xb0 m c t) (xb1 m c t)) p.2.2.2) := by
  unfold accB; dsimp only
  exact congrArg₂ Prod.mk (read_B_0 (F := F) VS0_0 VS0_0.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (xb0 m c t) (xb1 m c t) p.2.1 p.2.2.1 p.2.2.2)
    (congrArg₂ Prod.mk (read_B_1 (F := F) VS0_1 VS0_1.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (xb0 m c t) (xb1 m c t) p.2.1 p.2.2.1 p.2.2.2)
      (read_B_2 (F := F) VS0_2 VS0_2.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (xb0 m c t) (xb1 m c t) p.2.1 p.2.2.1 p.2.2.2))

/-- The last point leaves each accumulator likewise. -/
theorem stepC (c : Dev nD) (t : Fin cfg0.N) (h0 : ¬t.val = 0) (h1 : t.val = 63) (p : Acc F) :
    (accC m c t h0 h1 p).2 = (k0_pay17 (k0_pay8 (xb0 m c t) (xb1 m c t)) p.2.1, k0_pay18 (k0_pay9 (xb1 m c t)) p.2.2.1, k0_pay19 (k0_pay9 (xb1 m c t)) (k0_pay10 (xb0 m c t)) (k0_pay11 (xb1 m c t)) (k0_pay12 (xb0 m c t)) (k0_pay13 (xb1 m c t)) (k0_pay14 (xb0 m c t)) (k0_pay15 (xb1 m c t)) (k0_pay16 (xb0 m c t) (xb1 m c t)) p.2.2.2) := by
  unfold accC; dsimp only
  exact congrArg₂ Prod.mk (read_C_0 (F := F) VS0_0 VS0_0.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (xb0 m c t) (xb1 m c t) p.2.1 p.2.2.1 p.2.2.2)
    (congrArg₂ Prod.mk (read_C_1 (F := F) VS0_1 VS0_1.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (xb0 m c t) (xb1 m c t) p.2.1 p.2.2.1 p.2.2.2)
      (read_C_2 (F := F) VS0_2 VS0_2.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (xb0 m c t) (xb1 m c t) p.2.1 p.2.2.1 p.2.2.2))

/-- And the result window at the loss combined from the three totals it has just stored. -/
theorem stepC_out (c : Dev nD) (t : Fin cfg0.N) (h0 : ¬t.val = 0) (h1 : t.val = 63) (p : Acc F) :
    (accC m c t h0 h1 p).1 = k0_pay1 (k0_pay17 (k0_pay8 (xb0 m c t) (xb1 m c t)) p.2.1) (k0_pay18 (k0_pay9 (xb1 m c t)) p.2.2.1) (k0_pay19 (k0_pay9 (xb1 m c t)) (k0_pay10 (xb0 m c t)) (k0_pay11 (xb1 m c t)) (k0_pay12 (xb0 m c t)) (k0_pay13 (xb1 m c t)) (k0_pay14 (xb0 m c t)) (k0_pay15 (xb1 m c t)) (k0_pay16 (xb0 m c t) (xb1 m c t)) p.2.2.2) := by
  unfold accC; dsimp only
  exact (read_C_out (F := F) VO0_2 VO0_2.junk c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (xb0 m c t) (xb1 m c t) p.2.1 p.2.2.1 p.2.2.2)

/-! ## The accumulators after every point -/

/-- After point `n` the three accumulators hold the three running totals: by induction on the point, the first
    point's step at 0, then the middle step, or at 63 the last one, over what the point before left. -/
theorem scratch_eq (c : Dev nD) : ∀ (n : ℕ) (h : n < cfg0.N),
    (outsAt0 m c n h).2 = (acc0 m c n h, acc1 m c n h, acc2 m c n h)
  | 0, h => by
    have e : outsAt0 m c 0 h = accA m c ⟨0, h⟩ rfl (Nat.zero_ne_add_one 62) := rfl
    rw [e, stepA, acc0_zero, acc1_zero, acc2_zero]
  | n + 1, h => by
    have ih := scratch_eq c n (Nat.lt_of_succ_lt h)
    by_cases h1 : n + 1 = 63
    · have e : outsAt0 m c (n + 1) h = accC m c ⟨n + 1, h⟩ (Nat.succ_ne_zero n) h1 (outsAt0 m c n (Nat.lt_of_succ_lt h)) := dif_pos h1
      rw [e, stepC, acc0_succ, acc1_succ, acc2_succ, ih]
    · have e : outsAt0 m c (n + 1) h = accB m c ⟨n + 1, h⟩ (Nat.succ_ne_zero n) h1 (outsAt0 m c n (Nat.lt_of_succ_lt h)) := dif_neg h1
      rw [e, stepB, acc0_succ, acc1_succ, acc2_succ, ih]

/-- After the last point the result window holds the loss combined from the three final totals. -/
theorem out_last (c : Dev nD) (h63 : 63 < cfg0.N) :
    (outsAt0 m c 63 h63).1 = k0_pay1 (acc0 m c 63 h63) (acc1 m c 63 h63) (acc2 m c 63 h63) := by
  have e : outsAt0 m c (62 + 1) h63 = accC m c ⟨62 + 1, h63⟩ (Nat.succ_ne_zero 62) rfl (outsAt0 m c 62 (Nat.lt_of_succ_lt h63)) := dif_pos rfl
  show (outsAt0 m c (62 + 1) h63).1 = k0_pay1 (acc0 m c (62 + 1) h63) (acc1 m c (62 + 1) h63) (acc2 m c (62 + 1) h63)
  rw [e, stepC_out, acc0_succ, acc1_succ, acc2_succ, scratch_eq m c 62 (Nat.lt_of_succ_lt h63)]

end Cert.KernelIdeal.Hand

end
-- ==== Proof.PayloadLayout.lean ====
/-
  Layout operations of rank-1 and rank-2 arrays read at an index given by its coordinates: the column forms of a shape
  cast ([a] to [a, 1]), the broadcast of a column along its rows ([a, 1] to [a, b]), the index a one-axis reduction inserts
  (the reduced index with the summed coordinate put back), and the lane counter read at an index.
-/
import Idealize.ShloMosaic.Lib.ValueIdx
import Idealize.ShloMosaic.Lib.ValueLayout
import Idealize.ShloMosaic.PureOps.Ideal.Laws

namespace Cert.KernelIdeal.KV

open Idealize.ShloMosaic Idealize.ShloMosaic.ValueIdx Idealize.ShloMosaic.Pipeline

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction of `[a, b]` over its second axis inserts: row `q`, column `k`. -/
theorem lift_axis1 {a b : ℕ} (h : (⟨2, ![a, b]⟩ : Shape).Reduces [1] ⟨1, ![a]⟩) (q : Fin a) (k : Fin b) :
    h.lift (ix1 q) k = ix2 q k := by
  funext ax
  match ax with
  | ⟨0, _⟩ => rfl
  | ⟨1, _⟩ => rfl

/-- The index a reduction of `[a, 1]` over its first axis inserts: row `k`, the one column. -/
theorem lift_axis0 {a : ℕ} (h : (⟨2, ![a, 1]⟩ : Shape).Reduces [0] ⟨1, ![1]⟩) (u : Fin 1) (k : Fin a) :
    h.lift (ix1 u) k = ix2 k (0 : Fin 1) := by
  funext ax
  match ax with
  | ⟨0, _⟩ => rfl
  | ⟨1, _⟩ =>
    show (u : Fin 1) = (0 : Fin 1)
    exact Subsingleton.elim _ _

/-- The lane counter of a `[a, b]` vector along its second axis reads, at `(q, c)`, the word of `c`. -/
theorem iota_axis1_apply {a b : ℕ} (h : (⟨2, ![a, b]⟩ : Shape).Iotas .tc 32 [1]) (q : Fin a) (c : Fin b) :
    iota .tc ⟨2, ![a, b]⟩ 32 [1] h (ix2 q c) = BitVec.ofNat 32 c.val := by
  show BitVec.ofNat 32 (0 * _ + c.val) = _
  rw [Nat.zero_mul, Nat.zero_add]

end Layout

end Cert.KernelIdeal.KV
-- ==== Proof.PayloadValue.lean ====
/-
  The kernel's first accumulated term at a grid point, as the specification's block value: with the prediction block and the
  target block of point t holding rows t * 12544 + q of P and T, the payload the first scratch store adds is
  0 - Σ_q Σ_c [c = ct] logp, the same at its one index.

  How: the payload is read as a chain of named vectors (definitional), and each is read at an index by its
  coordinates: the class scores are columns 10..29, the row maximum is the fold of max from -∞, the shifted scores, the
  sum of their exponentials, the log-softmax, the one-hot select against the lane counter, the row sum and the column sum.
-/
import proofs.«115196_j11467562680721_1_alg».proof.Proof.Gen.KernelIdeal.Skeleton
import proofs.«115196_j11467562680721_1_alg».proof.Proof.Spec
import proofs.«115196_j11467562680721_1_alg».proof.Proof.PayloadLayout

noncomputable section

namespace Cert.KernelIdeal.KV

open Idealize.ShloMosaic Idealize.ShloMosaic.ValueIdx Idealize.ShloMosaic.Pipeline
open Cert.KernelIdeal Cert.KernelIdeal.Gen Cert.Spec

/-! ## Reductions of the block's shapes read at an index -/

/-- The word of -∞ reads as the extended reals' bottom. -/
theorem ofBits_neg_inf : FloatOps.ofBits (F := Ideal) .f32 0xFF800000#32 = (⊥ : EReal) := by
  show Ideal.ofBits .f32 0xFF800000#32 = ⊥
  simp [Ideal.ofBits, Ideal.ieee]

/-- A row maximum of a [12544, 20] vector: the fold of max from -∞ over the row. -/
theorem rowMax20_apply (v : FVec Ideal S12544x20 .f32) (h : S12544x20.Reduces [1] S12544) (hφ : FKind.Formats .f32)
    (hacc : (0xFF800000#32 : BitVec 32) = FKind.maximumf.neutral .f32 hφ) (q : Fin 12544) :
    multiReduction .maximumf [1] S12544 v 0xFF800000#32 h hφ hacc (ix1 q)
      = (Finset.univ : Finset (Fin 20)).fold max ⊥ (fun c => v (ix2 q c)) := by
  refine (Ideal.multiReduction_maximumf_single v _ h hφ hacc (ix1 q)).trans ?_
  rw [ofBits_neg_inf]
  show (Finset.univ : Finset (Fin 20)).fold max ⊥ (v ∘ h.lift (ix1 q)) = _
  rw [show (v ∘ h.lift (ix1 q)) = fun c : Fin 20 => v (ix2 q c) from funext fun c => congrArg v (lift_axis1 h q c)]
  rfl

/-- A row sum of a [12544, 20] vector. -/
theorem rowSum20_apply (v : FVec Ideal S12544x20 .f32) (h : S12544x20.Reduces [1] S12544) (hφ : FKind.Formats .f32)
    (hacc : (0x00000000#32 : BitVec 32) = FKind.add.neutral .f32 hφ) (q : Fin 12544) :
    multiReduction .add [1] S12544 v 0x00000000#32 h hφ hacc (ix1 q) = ∑ c : Fin 20, v (ix2 q c) := by
  refine (Ideal.multiReduction_add_single v _ h hφ hacc (ix1 q)).trans ?_
  show ∑ c : Fin 20, v (h.lift (ix1 q) c) = _
  exact Finset.sum_congr rfl fun c _ => congrArg v (lift_axis1 h q c)

/-- The sum of a [12544, 1] column. -/
theorem colSumRows_apply (v : FVec Ideal S12544x1 .f32) (h : S12544x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ q : Fin 12544, v (ix2 q (0 : Fin 1)) := by
  refine (Ideal.multiReduction_add_single v _ h hφ hacc (ix1 u)).trans ?_
  show ∑ q : Fin 12544, v (h.lift (ix1 u) q) = _
  exact Finset.sum_congr rfl fun q _ => congrArg v (lift_axis0 h u q)

/-- A select on the equality of two words is the `if` on it. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := by simpa using h
    simp [hb, h]

/-! ## The payload as a chain of named vectors -/

section Chain
variable (x0 x1 : Vec Ideal S12544x30 .f32)

/-- The block's class scores: columns 10..29. -/
def scores : FVec Ideal S12544x20 .f32 :=
  extractStridedSlice S12544x20 ![0, 10] (k0_pay5 x0) slices_S12544x30_o0_10_S12544x20
/-- The class index each target row carries. -/
def tcls : IVec S12544x1 32 := fptosi 32 (k0_pay7 x1)
/-- Each row's largest score. -/
def rmax : FVec Ideal S12544 .f32 :=
  multiReduction .maximumf [1] S12544 (scores x0) 0xFF800000#32 reduces_S12544x20_S12544 (.inl rfl) rfl
/-- The scores less their row's maximum. -/
def shiftedV : FVec Ideal S12544x20 .f32 :=
  subf (scores x0) (broadcastTo S12544x20 (shapeCast S12544x1 (rmax x0) shapeCasts_S12544_S12544x1) broadcasts_S12544x1_S12544x20)
/-- Each row's sum of exponentials. -/
def sumexp : FVec Ideal S12544 .f32 :=
  multiReduction .add [1] S12544 (exp (shiftedV x0)) 0x00000000#32 reduces_S12544x20_S12544 (.inl rfl) rfl
/-- The log-softmax. -/
def logpV : FVec Ideal S12544x20 .f32 :=
  subf (shiftedV x0) (broadcastTo S12544x20 (log (shapeCast S12544x1 (sumexp x0) shapeCasts_S12544_S12544x1)) broadcasts_S12544x1_S12544x20)
/-- The log-softmax kept where the lane is the row's class, zero elsewhere. -/
def onehot : FVec Ideal S12544x20 .f32 :=
  select (cmpi .eq (iota .tc S12544x20 32 [1] iota_S12544x20_d1_w32) (broadcastTo S12544x20 (tcls x1) broadcasts_S12544x1_S12544x20))
    (logpV x0) (broadcast S12544x20 (Scalar.ofBits .f32 0x00000000#32 : Ideal .f32))
/-- Each row's picked value. -/
def rowsel : FVec Ideal S12544 .f32 :=
  multiReduction .add [1] S12544 (onehot x0 x1) 0x00000000#32 reduces_S12544x20_S12544 (.inl rfl) rfl
/-- The block's sum of picked values. -/
def blksum : FVec Ideal S1 .f32 :=
  multiReduction .add [0] S1 (shapeCast S12544x1 (rowsel x0 x1) shapeCasts_S12544_S12544x1) 0x00000000#32 reduces_S12544x1_S1 (.inl rfl) rfl

/-- The payload is zero less the block's sum, cast to [1, 1]. -/
theorem pay8_unfold : k0_pay8 (F := Ideal) x0 x1
    = subf (broadcast S1x1 (Scalar.ofBits .f32 0x00000000#32 : Ideal .f32)) (shapeCast S1x1 (blksum x0 x1) shapeCasts_S1_S1x1) := rfl

end Chain

/-! ## Each vector at an index -/

section AtIndex
variable {P T : Arr} {t : Fin 64} {x0 x1 : Vec Ideal S12544x30 .f32}
  (hx0 : ∀ (q : Fin 12544) (j : Fin 30), x0 (ix2 q j) = P (rowOf t q) j)
  (hx1 : ∀ (q : Fin 12544) (j : Fin 30), x1 (ix2 q j) = T (rowOf t q) j)

include hx0 in
theorem scores_apply (q : Fin 12544) (c : Fin 20) : scores x0 (ix2 q c) = P (rowOf t q) (cls c) := by
  unfold scores k0_pay5
  rw [shapeCast_self]
  exact (slice2_axis1_apply 10 x0 _ q c (cls c) rfl).trans (hx0 q (cls c))

include hx1 in
theorem tcls_apply (q : Fin 12544) (u : Fin 1) : tcls x1 (ix2 q u) = ctgt T (rowOf t q) := by
  unfold tcls k0_pay7 k0_pay6
  rw [shapeCast_self]
  show Ideal.fptosi 32 (extractStridedSlice S12544x1 ![0, 10] x1 _ (ix2 q u)) = _
  rw [slice2_axis1_apply 10 x1 _ q u (10 : Fin 30) (by show 10 = 10 + u.val; omega), hx1]
  rfl

include hx0 in
theorem rmax_apply (q : Fin 12544) : rmax x0 (ix1 q) = rowmax P (rowOf t q) := by
  unfold rmax
  refine (rowMax20_apply _ _ _ _ q).trans ?_
  rw [show (fun c : Fin 20 => scores x0 (ix2 q c)) = fun c => P (rowOf t q) (cls c) from funext fun c => scores_apply hx0 q c]
  rfl

include hx0 in
theorem shifted_apply (q : Fin 12544) (c : Fin 20) : shiftedV x0 (ix2 q c) = shifted P (rowOf t q) c := by
  unfold shiftedV
  rw [subf_apply, broadcastTo_a1_ab_apply, shapeCast_a_a1_apply, scores_apply hx0, rmax_apply hx0]
  rfl

include hx0 in
theorem sumexp_apply (q : Fin 12544) : sumexp x0 (ix1 q) = ∑ c : Fin 20, Ideal.exp (shifted P (rowOf t q) c) := by
  unfold sumexp
  refine (rowSum20_apply _ _ _ _ q).trans ?_
  refine Finset.sum_congr rfl fun c _ => ?_
  show Ideal.exp (shiftedV x0 (ix2 q c)) = _
  rw [shifted_apply hx0]

include hx0 in
theorem logp_apply (q : Fin 12544) (c : Fin 20) : logpV x0 (ix2 q c) = logp P (rowOf t q) c := by
  unfold logpV
  rw [subf_apply, broadcastTo_a1_ab_apply]
  show shiftedV x0 (ix2 q c) - Ideal.log (shapeCast S12544x1 (sumexp x0) _ (ix2 q (0 : Fin 1))) = _
  rw [shapeCast_a_a1_apply, shifted_apply hx0, sumexp_apply hx0]
  rfl

include hx0 hx1 in
theorem onehot_apply (q : Fin 12544) (c : Fin 20) :
    onehot x0 x1 (ix2 q c) = if BitVec.ofNat 32 c.val = ctgt T (rowOf t q) then logp P (rowOf t q) c else 0 := by
  unfold onehot
  rw [select_apply, broadcast_apply]
  show Scalar.select (IntOp.cmpi .eq (iota .tc S12544x20 32 [1] _ (ix2 q c)) (broadcastTo S12544x20 (tcls x1) _ (ix2 q c)))
    (logpV x0 (ix2 q c)) (Ideal.ofBits .f32 0x00000000#32) = _
  rw [iota_axis1_apply, broadcastTo_a1_ab_apply, tcls_apply hx1, logp_apply hx0, Ideal.ofBits_zero_f32, select_cmpi_eq]

include hx0 hx1 in
theorem rowsel_apply (q : Fin 12544) : rowsel x0 x1 (ix1 q) = sel P T (rowOf t q) := by
  unfold rowsel
  refine (rowSum20_apply _ _ _ _ q).trans ?_
  exact Finset.sum_congr rfl fun c _ => onehot_apply hx0 hx1 q c

include hx0 hx1 in
theorem blksum_apply (u : Fin 1) : blksum x0 x1 (ix1 u) = ∑ q : Fin 12544, sel P T (rowOf t q) := by
  unfold blksum
  refine (colSumRows_apply _ _ _ _ u).trans ?_
  refine Finset.sum_congr rfl fun q _ => ?_
  rw [shapeCast_a_a1_apply, rowsel_apply hx0 hx1]

include hx0 hx1 in
/-- The first accumulated term of grid point t is the block's value. -/
theorem pay8_eq : k0_pay8 (F := Ideal) x0 x1 = fun _ => blkA P T t := by
  funext i
  obtain ⟨u, u', rfl⟩ : ∃ (u : Fin 1) (u' : Fin 1), i = ix2 u u' := ⟨i 0, i 1, eq_ix2 i⟩
  rw [pay8_unfold, subf_apply, broadcast_apply, shapeCast_a_1a_apply, blksum_apply hx0 hx1]
  show Ideal.ofBits .f32 0x00000000#32 - _ = _
  rw [Ideal.ofBits_zero_f32]
  rfl

end AtIndex

end Cert.KernelIdeal.KV

end
-- ==== Proof.PayloadValueB.lean ====
/-
  The kernel body's payloads, read over the extended reals, as the block terms of Spec.lean: the second half
  (the object count, the masked squared error, the three running sums' updates, their zeroing and the final
  combination).

  Block t of the predictions P and of the encoded targets T is given cell by cell: x0 (q, j) = P (rowOf t q) j and
  x1 (q, j) = T (rowOf t q) j.  Every payload is a chain of vector operations; read at an index, the pointwise ones
  act on the cells, a cut of columns [o, o + 2) reads column o + j, a row sum over 2 columns is the sum over
  Fin 2, the column sum over the 12544 rows is the sum over Fin 12544, and the casts between [12544], [12544, 1],
  [1] and [1, 1] keep the one coordinate that matters.  The mask is the comparison  0 < T (row) 10  as a bit,
  widened to a word and read as a signed integer: 1 or 0.
-/
import proofs.«115196_j11467562680721_1_alg».proof.Proof.Gen.KernelIdeal.Skeleton
import proofs.«115196_j11467562680721_1_alg».proof.Proof.Spec
import proofs.«115196_j11467562680721_1_alg».proof.Proof.PayloadLayout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Mathlib.Algebra.BigOperators.Fin

noncomputable section

namespace Cert.KernelIdeal.KV

open Idealize.ShloMosaic Idealize.ShloMosaic.ValueIdx Idealize.ShloMosaic.Pipeline
open Cert.KernelIdeal Cert.KernelIdeal.Gen Cert.Spec

/-! ### Sums along one axis, read at an index -/

/-- The sum of an [a, b] array over its second axis reads, at row q, the sum over the b columns. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (q : Fin a) :
    multiReduction .add [1] ⟨1, ![a]⟩ src 0x00000000#32 h hφ hacc (ix1 q) = ∑ k : Fin b, src (ix2 q k) :=
  (Ideal.multiReduction_add_single src 0x00000000#32 h hφ hacc (ix1 q)).trans
    (Finset.sum_congr rfl (fun k _ => congrArg src (lift_axis1 h q k)))

/-- The sum of an [a, 1] column over its first axis reads, at its one index, the sum over the a rows. -/
theorem colSum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ k : Fin a, src (ix2 k (0 : Fin 1)) :=
  (Ideal.multiReduction_add_single src 0x00000000#32 h hφ hacc (ix1 u)).trans
    (Finset.sum_congr rfl (fun k _ => congrArg src (lift_axis0 h u k)))

/-- A [12544] vector of row values, cast to a column and summed over the rows into [1, 1]: the sum of the row values. -/
theorem total_apply (v : FVec Ideal S12544x1 .f32) (i : S1x1.Idx) :
    shapeCast S1x1 (multiReduction .add [0] S1 v 0x00000000#32 reduces_S12544x1_S1 (.inl rfl) rfl) shapeCasts_S1_S1x1 i
      = ∑ q : Fin 12544, v (ix2 q (0 : Fin 1)) := by
  obtain ⟨u, w, rfl⟩ : ∃ (u : Fin 1) (w : Fin 1), i = ix2 u w := ⟨i 0, i 1, eq_ix2 i⟩
  refine (shapeCast_a_1a_apply _ shapeCasts_S1_S1x1 u w).trans ?_
  exact colSum_apply v reduces_S12544x1_S1 (.inl rfl) rfl w

/-! ### The cells of a block -/

section Block
variable (P T : Arr) (t : Fin 64) (x0 x1 : Vec Ideal S12544x30 .f32)

/-- Slot 10 of a target row, as the kernel cuts it. -/
theorem pay7_at (hx1 : ∀ (q : Fin 12544) (j : Fin 30), x1 (ix2 q j) = T (rowOf t q) j) (q : Fin 12544) (u : Fin 1) : k0_pay7 (F := Ideal) x1 (ix2 q u) = T (rowOf t q) 10 := by
  simp only [k0_pay7, k0_pay6]
  rw [shapeCast_self]
  refine (slice2_axis1_apply 10 x1 slices_S12544x30_o0_10_S12544x1 q u (10 : Fin 30) ?_).trans (hx1 q 10)
  have hu : u.val = 0 := by omega
  rw [hu]
  rfl

/-- The object mask of a row: the comparison with 0, as a bit, widened and read as a signed integer. -/
theorem pay9_at (hx1 : ∀ (q : Fin 12544) (j : Fin 30), x1 (ix2 q j) = T (rowOf t q) j) (q : Fin 12544) (u : Fin 1) : k0_pay9 (F := Ideal) x1 (ix2 q u) = mask T (rowOf t q) := by
  simp only [k0_pay9]
  show ((((Ideal.cmp .ogt (k0_pay7 (F := Ideal) x1 (ix2 q u)) (Ideal.ofBits .f32 0x00000000#32)).setWidth 32).toInt : ℝ) : EReal) = _
  rw [pay7_at T t x1 hx1, Ideal.ofBits_zero_f32]
  unfold mask Ideal.cmp
  by_cases h : 0 < T (rowOf t q) 10
  · simp [h]
  · simp [h]

end Block

section Block2
variable (P T : Arr) (t : Fin 64) (x0 x1 : Vec Ideal S12544x30 .f32)

/-- Columns [o, o + 2) of a block, as the kernel cuts them, read at (q, j): column o + j. -/
theorem cut2_at (x : Vec Ideal S12544x30 .f32) (o : ℕ) (h : S12544x30.Slices ![0, o] S12544x2) (q : Fin 12544)
    (j : Fin 2) (c : Fin 30) (hc : c.val = o + j.val) :
    extractStridedSlice S12544x2 ![0, o] (shapeCast S12544x30 x shapeCasts_S12544x30_S12544x30) h (ix2 q j) = x (ix2 q c) := by
  rw [shapeCast_self]
  exact slice2_axis1_apply o x h q j c hc

theorem pay10_at (hx0 : ∀ (q : Fin 12544) (j : Fin 30), x0 (ix2 q j) = P (rowOf t q) j) (q : Fin 12544) (j : Fin 2) :
    k0_pay10 (F := Ideal) x0 (ix2 q j) = P (rowOf t q) ⟨2 + j.val, by omega⟩ :=
  (cut2_at x0 2 slices_S12544x30_o0_2_S12544x2 q j ⟨2 + j.val, by omega⟩ rfl).trans (hx0 q _)

theorem pay11_at (hx1 : ∀ (q : Fin 12544) (j : Fin 30), x1 (ix2 q j) = T (rowOf t q) j) (q : Fin 12544) (j : Fin 2) :
    k0_pay11 (F := Ideal) x1 (ix2 q j) = T (rowOf t q) ⟨2 + j.val, by omega⟩ :=
  (cut2_at x1 2 slices_S12544x30_o0_2_S12544x2 q j ⟨2 + j.val, by omega⟩ rfl).trans (hx1 q _)

theorem pay12_at (hx0 : ∀ (q : Fin 12544) (j : Fin 30), x0 (ix2 q j) = P (rowOf t q) j) (q : Fin 12544) (j : Fin 2) :
    k0_pay12 (F := Ideal) x0 (ix2 q j) = P (rowOf t q) ⟨5 + j.val, by omega⟩ :=
  (cut2_at x0 5 slices_S12544x30_o0_5_S12544x2 q j ⟨5 + j.val, by omega⟩ rfl).trans (hx0 q _)

theorem pay13_at (hx1 : ∀ (q : Fin 12544) (j : Fin 30), x1 (ix2 q j) = T (rowOf t q) j) (q : Fin 12544) (j : Fin 2) :
    k0_pay13 (F := Ideal) x1 (ix2 q j) = T (rowOf t q) ⟨5 + j.val, by omega⟩ :=
  (cut2_at x1 5 slices_S12544x30_o0_5_S12544x2 q j ⟨5 + j.val, by omega⟩ rfl).trans (hx1 q _)

theorem pay14_at (hx0 : ∀ (q : Fin 12544) (j : Fin 30), x0 (ix2 q j) = P (rowOf t q) j) (q : Fin 12544) (j : Fin 2) :
    k0_pay14 (F := Ideal) x0 (ix2 q j) = P (rowOf t q) ⟨7 + j.val, by omega⟩ :=
  (cut2_at x0 7 slices_S12544x30_o0_7_S12544x2 q j ⟨7 + j.val, by omega⟩ rfl).trans (hx0 q _)

theorem pay15_at (hx1 : ∀ (q : Fin 12544) (j : Fin 30), x1 (ix2 q j) = T (rowOf t q) j) (q : Fin 12544) (j : Fin 2) :
    k0_pay15 (F := Ideal) x1 (ix2 q j) = T (rowOf t q) ⟨7 + j.val, by omega⟩ :=
  (cut2_at x1 7 slices_S12544x30_o0_7_S12544x2 q j ⟨7 + j.val, by omega⟩ rfl).trans (hx1 q _)

/-- The squared difference of the first box's centre offsets, as the kernel forms it. -/
theorem pay16_at (hx0 : ∀ (q : Fin 12544) (j : Fin 30), x0 (ix2 q j) = P (rowOf t q) j) (hx1 : ∀ (q : Fin 12544) (j : Fin 30), x1 (ix2 q j) = T (rowOf t q) j) (q : Fin 12544) (j : Fin 2) :
    k0_pay16 (F := Ideal) x0 x1 (ix2 q j) = sqd P T (rowOf t q) ⟨0 + j.val, by omega⟩ := by
  simp only [k0_pay16, k0_pay5, k0_pay6]
  rw [mulf_apply, subf_apply,
    cut2_at x0 0 slices_S12544x30_o0_0_S12544x2 q j ⟨0 + j.val, by omega⟩ rfl,
    cut2_at x1 0 slices_S12544x30_o0_0_S12544x2 q j ⟨0 + j.val, by omega⟩ rfl, hx0, hx1]
  rfl

/-- A row sum over 2 columns, cast to a column, read at (q, u). -/
theorem rowSum2_apply (v : FVec Ideal S12544x2 .f32) (q : Fin 12544) (u : Fin 1) :
    shapeCast S12544x1 (multiReduction .add [1] S12544 v 0x00000000#32 reduces_S12544x2_S12544 (.inl rfl) rfl)
        shapeCasts_S12544_S12544x1 (ix2 q u) = ∑ k : Fin 2, v (ix2 q k) :=
  (shapeCast_a_a1_apply _ shapeCasts_S12544_S12544x1 q u).trans
    (rowSum_apply v reduces_S12544x2_S12544 (.inl rfl) rfl q)

/-! ### The payloads -/

/-- The object count's update: the running sum plus the block's count. -/
theorem pay18_eq (hx1 : ∀ (q : Fin 12544) (j : Fin 30), x1 (ix2 q j) = T (rowOf t q) j) (xs1 : Vec Ideal S1x1 .f32) :
    k0_pay18 (F := Ideal) (k0_pay9 x1) xs1 = fun i => xs1 i + blkN T t := by
  funext i
  simp only [k0_pay18]
  rw [shapeCast_self, addf_apply]
  refine congrArg (xs1 i + ·) ((total_apply _ i).trans ?_)
  exact Finset.sum_congr rfl (fun q _ => pay9_at T t x1 hx1 q 0)

/-- The masked squared error's update: the running sum plus the block's masked squared error. -/
theorem pay19_eq (hx0 : ∀ (q : Fin 12544) (j : Fin 30), x0 (ix2 q j) = P (rowOf t q) j) (hx1 : ∀ (q : Fin 12544) (j : Fin 30), x1 (ix2 q j) = T (rowOf t q) j) (xs2 : Vec Ideal S1x1 .f32) :
    k0_pay19 (F := Ideal) (k0_pay9 x1) (k0_pay10 x0) (k0_pay11 x1) (k0_pay12 x0) (k0_pay13 x1) (k0_pay14 x0)
        (k0_pay15 x1) (k0_pay16 x0 x1) xs2 = fun i => xs2 i + blkM P T t := by
  funext i
  simp only [k0_pay19]
  rw [shapeCast_self, addf_apply]
  refine congrArg (xs2 i + ·) ((total_apply _ i).trans ?_)
  refine Finset.sum_congr rfl (fun q _ => ?_)
  rw [mulf_apply, addf_apply, addf_apply, addf_apply, rowSum2_apply, rowSum2_apply, rowSum2_apply, rowSum2_apply,
    pay9_at T t x1 hx1]
  simp only [Fin.sum_univ_two, mulf_apply, subf_apply, pay10_at P t x0 hx0, pay11_at T t x1 hx1, pay12_at P t x0 hx0,
    pay13_at T t x1 hx1, pay14_at P t x0 hx0, pay15_at T t x1 hx1, pay16_at P T t x0 x1 hx0 hx1]
  simp only [seK, pair, sqd, Fin.sum_univ_two]
  rfl

end Block2

/-- The picked-score sum's update: the running sum plus the block's term. -/
theorem pay17_eq (v30 xs0 : Vec Ideal S1x1 .f32) : k0_pay17 (F := Ideal) v30 xs0 = fun i => xs0 i + v30 i := by
  funext i
  simp only [k0_pay17]
  rw [shapeCast_self, addf_apply]

/-- The three running sums start from 0. -/
theorem pay2_eq : k0_pay2 (F := Ideal) = fun _ => 0 := by
  funext i
  simp only [k0_pay2]
  rw [shapeCast_self]
  exact Ideal.ofBits_zero_f32

theorem pay3_eq : k0_pay3 (F := Ideal) = fun _ => 0 := by
  funext i
  simp only [k0_pay3]
  rw [shapeCast_self]
  exact Ideal.ofBits_zero_f32

theorem pay4_eq : k0_pay4 (F := Ideal) = fun _ => 0 := by
  funext i
  simp only [k0_pay4]
  rw [shapeCast_self]
  exact Ideal.ofBits_zero_f32

/-- The final combination of the three sums. -/
theorem pay1_eq (a n mm : Vec Ideal S1x1 .f32) :
    k0_pay1 (F := Ideal) a n mm = fun i => Ideal.div (a i) cN + c5 * Ideal.div (mm i) (n i * c4) := by
  funext i
  rfl

end Cert.KernelIdeal.KV

end
-- ==== Proof.PointsValue.lean ====
/-
  The kernel's last store, as the specification's value.  The blocks the body loads at grid point t are block t of the two
  flattened cell arrays (rows t * 12544 + q); so each scratch accumulator, after point n, holds the sum of its block terms
  over the points up to n (an induction on the point: the first point's zeroing makes the loaded value 0, every later
  point adds its block's term), and the combination the last point stores is
  A / N + 5 * (M / (Nobj * 4)) of the three sums over the 64 blocks.
-/
import proofs.«115196_j11467562680721_1_alg».proof.Proof.KernelValue
import proofs.«115196_j11467562680721_1_alg».proof.Proof.PointsPayload
import proofs.«115196_j11467562680721_1_alg».proof.Proof.PayloadValue
import proofs.«115196_j11467562680721_1_alg».proof.Proof.PayloadValueB
import proofs.«115196_j11467562680721_1_alg».proof.Proof.Spec
import Idealize.ShloMosaic.Lib.Pipeline.Value
import Idealize.ShloMosaic.Lib.ValueIdx
import Mathlib.Algebra.BigOperators.Fin

set_option maxRecDepth 16384

noncomputable section

namespace Cert.KernelIdeal.KV

open Idealize.ShloMosaic Idealize.ShloMosaic.TcCoe Idealize.ShloMosaic.ValueIdx Idealize.ShloMosaic.Pipeline Idealize.SL.Sem
open Cert.KernelIdeal Cert.KernelIdeal.Gen Cert.KernelIdeal.Hand Cert.Spec

variable (m : (ℓ : Loc nD τ sig) → Buf (Elt Ideal) ℓ)

/-! ## The windows' blocks are the arrays' row blocks -/

/-- A grid point as a block number. -/
abbrev blockOf (t : Fin cfg0.N) : Fin 64 := Fin.cast N_0 t

/-- The two input windows' block index at point t: block t along the rows, the one block along the columns. -/
theorem index0_0 : ∀ t : Fin cfg0.N, win0_0.index t 0 = t.val ∧ win0_0.index t 1 = 0 := by decide +kernel
theorem index0_1 : ∀ t : Fin cfg0.N, win0_1.index t 0 = t.val ∧ win0_1.index t 1 = 0 := by decide +kernel

/-- The prediction window's block at point t, read off any contents A of its array: cell (q, j) is A at row t * 12544 + q. -/
theorem blk0_read (c : Dev nD) (A : Buf (Elt Ideal) ((c : Thread nD τ).loc main_v76)) (t : Fin cfg0.N) (q : Fin 12544) (j : Fin 30) :
    (((cfg0.win 0).blk t).view.read (Elt Ideal) A : Vec Ideal S12544x30 .f32) (ix2 q j)
      = (A : S802816x30.Idx → EReal) (ix2 (rowOf (blockOf t) q) j) := by
  have hi := index0_0 t
  rw [View.read_apply]
  show (A : S802816x30.Idx → EReal) _ = _
  refine congrArg (A : S802816x30.Idx → EReal) (funext fun a => Fin.ext ?_)
  match a with
  | ⟨0, _⟩ => show win0_0.index t 0 * 12544 + 1 * q.val = t.val * 12544 + q.val; rw [hi.1]; omega
  | ⟨1, _⟩ => show win0_0.index t 1 * 30 + 1 * j.val = j.val; rw [hi.2]; omega

/-- The target window's block likewise. -/
theorem blk1_read (c : Dev nD) (A : Buf (Elt Ideal) ((c : Thread nD τ).loc main_v75)) (t : Fin cfg0.N) (q : Fin 12544) (j : Fin 30) :
    (((cfg0.win 1).blk t).view.read (Elt Ideal) A : Vec Ideal S12544x30 .f32) (ix2 q j)
      = (A : S802816x30.Idx → EReal) (ix2 (rowOf (blockOf t) q) j) := by
  have hi := index0_1 t
  rw [View.read_apply]
  show (A : S802816x30.Idx → EReal) _ = _
  refine congrArg (A : S802816x30.Idx → EReal) (funext fun a => Fin.ext ?_)
  match a with
  | ⟨0, _⟩ => show win0_1.index t 0 * 12544 + 1 * q.val = t.val * 12544 + q.val; rw [hi.1]; omega
  | ⟨1, _⟩ => show win0_1.index t 1 * 30 + 1 * j.val = j.val; rw [hi.2]; omega

/-- So the blocks the body loads at point t are block t of the two cell arrays. -/
theorem iblk0_apply (c : Dev nD) (t : Fin cfg0.N) (q : Fin 12544) (j : Fin 30) :
    (xb0 m c t) (ix2 q j) = PK m c (rowOf (blockOf t) q) j :=
  blk0_read c (V m c main_v76) t q j

theorem iblk1_apply (c : Dev nD) (t : Fin cfg0.N) (q : Fin 12544) (j : Fin 30) :
    (xb1 m c t) (ix2 q j) = TK m c (rowOf (blockOf t) q) j :=
  blk1_read c (V m c main_v75) t q j

/-! ## The three running sums after each point -/

/-- A block term of the specification, along the naturals (zero past the last block). -/
def ext (f : Fin 64 → EReal) (k : ℕ) : EReal := if h : k < 64 then f ⟨k, h⟩ else 0

theorem ext_at (f : Fin 64 → EReal) (t : Fin cfg0.N) : ext f t.val = f (blockOf t) := by
  have ht : t.val < 64 := (blockOf t).isLt
  unfold ext
  rw [dif_pos ht]
  rfl

theorem sum_ext (f : Fin 64 → EReal) : ∑ k ∈ Finset.range 64, ext f k = ∑ t : Fin 64, f t := by
  rw [Finset.sum_range]
  refine Finset.sum_congr rfl fun t _ => ?_
  unfold ext
  rw [dif_pos t.isLt]

/-- A sequence of one-cell vectors that starts at 0 + B 0 and adds B (n + 1) at each step is the partial sums of B. -/
theorem partial_sums (a : (n : ℕ) → n < cfg0.N → Vec Ideal S1x1 .f32) (B : ℕ → EReal)
    (h0 : ∀ h, a 0 h = fun _ => 0 + B 0)
    (hs : ∀ n (h : n + 1 < cfg0.N), a (n + 1) h = fun i => a n (Nat.lt_of_succ_lt h) i + B (n + 1)) :
    ∀ (n : ℕ) (h : n < cfg0.N), a n h = fun _ => ∑ k ∈ Finset.range (n + 1), B k
  | 0, h => by rw [h0 h, Finset.sum_range_one, zero_add]
  | n + 1, h => by
    rw [hs n h, partial_sums a B h0 hs n (Nat.lt_of_succ_lt h)]
    funext i
    exact (Finset.sum_range_succ B (n + 1)).symm

section Sums
variable (c : Dev nD)

theorem acc0_sum : ∀ (n : ℕ) (h : n < cfg0.N),
    acc0 m c n h = fun _ => ∑ k ∈ Finset.range (n + 1), ext (blkA (PK m c) (TK m c)) k :=
  partial_sums (acc0 m c) _
    (fun h => by
      rw [acc0_zero, pay17_eq, pay2_eq, pay8_eq (iblk0_apply m c ⟨0, h⟩) (iblk1_apply m c ⟨0, h⟩)]
      funext i
      exact congrArg (0 + ·) (ext_at _ ⟨0, h⟩).symm)
    (fun n h => by
      rw [acc0_succ, pay17_eq, pay8_eq (iblk0_apply m c ⟨n + 1, h⟩) (iblk1_apply m c ⟨n + 1, h⟩)]
      funext i
      exact congrArg (acc0 m c n _ i + ·) (ext_at _ ⟨n + 1, h⟩).symm)

theorem acc1_sum : ∀ (n : ℕ) (h : n < cfg0.N),
    acc1 m c n h = fun _ => ∑ k ∈ Finset.range (n + 1), ext (blkN (TK m c)) k :=
  partial_sums (acc1 m c) _
    (fun h => by
      rw [acc1_zero, pay18_eq (TK m c) (blockOf ⟨0, h⟩) _ (iblk1_apply m c ⟨0, h⟩), pay3_eq]
      funext i
      exact congrArg (0 + ·) (ext_at _ ⟨0, h⟩).symm)
    (fun n h => by
      rw [acc1_succ, pay18_eq (TK m c) (blockOf ⟨n + 1, h⟩) _ (iblk1_apply m c ⟨n + 1, h⟩)]
      funext i
      exact congrArg (acc1 m c n _ i + ·) (ext_at _ ⟨n + 1, h⟩).symm)

theorem acc2_sum : ∀ (n : ℕ) (h : n < cfg0.N),
    acc2 m c n h = fun _ => ∑ k ∈ Finset.range (n + 1), ext (blkM (PK m c) (TK m c)) k :=
  partial_sums (acc2 m c) _
    (fun h => by
      rw [acc2_zero, pay19_eq (PK m c) (TK m c) (blockOf ⟨0, h⟩) _ _ (iblk0_apply m c ⟨0, h⟩) (iblk1_apply m c ⟨0, h⟩), pay4_eq]
      funext i
      exact congrArg (0 + ·) (ext_at _ ⟨0, h⟩).symm)
    (fun n h => by
      rw [acc2_succ, pay19_eq (PK m c) (TK m c) (blockOf ⟨n + 1, h⟩) _ _ (iblk0_apply m c ⟨n + 1, h⟩) (iblk1_apply m c ⟨n + 1, h⟩)]
      funext i
      exact congrArg (acc2 m c n _ i + ·) (ext_at _ ⟨n + 1, h⟩).symm)

/-- The last point's combination of the three sums is the kernel's value of the specification. -/
theorem final_val (h63 : 63 < cfg0.N) :
    k0_pay1 (F := Ideal) (acc0 m c 63 h63) (acc1 m c 63 h63) (acc2 m c 63 h63) = fun _ => Kval (PK m c) (TK m c) := by
  rw [pay1_eq, acc0_sum, acc1_sum, acc2_sum]
  funext i
  show Ideal.div (∑ k ∈ Finset.range 64, ext (blkA (PK m c) (TK m c)) k) cN
      + c5 * Ideal.div (∑ k ∈ Finset.range 64, ext (blkM (PK m c) (TK m c)) k)
          ((∑ k ∈ Finset.range 64, ext (blkN (TK m c)) k) * c4) = _
  rw [sum_ext, sum_ext, sum_ext]
  rfl

end Sums

/-- What the output window's staging buffer holds after the last point: the kernel's value. -/
theorem final_out_value (c : Dev nD) : (outsAt0 m c 63 (by decide)).1 = fun _ => Kval (PK m c) (TK m c) :=
  (out_last m c (by decide)).trans (final_val m c (by decide))

end Cert.KernelIdeal.KV

end
-- ==== Proof.RefRun.lean ====
/-
  The reference program's run. @main of the reference is a straight line of StableHLO operations once its
  four calls (@trunc with its inner @_where, @log_softmax, @take_along_axis) are read at their call sites: 189
  operations, listed here in four stretches — the label encoding up to the two flattened arrays (two stretches, cut
  where @main's first printed window ends), then the loss itself (two stretches, cut where the second window ends).
  Each printed window equals the straight line of its stretch by unfolding alone; the library's run of a straight
  line then gives termination and every buffer's final contents as the fold of the operations over the launch
  contents. The two argument arrays are written by no operation, so they end as they started.
-/
import proofs.«115196_j11467562680721_1_alg».proof.Defs
import proofs.«115196_j11467562680721_1_alg».proof.Proof.Gen.ReferenceIdeal
import proofs.«115196_j11467562680721_1_alg».proof.Proof.Gen.Pre_finite_inputs
import Idealize.ShloMosaic.Lib.StableHlo.Run
import Idealize.ShloMosaic.Lib.Pipeline.Frame
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The label encoding, first stretch: the box arithmetic, the cell indices, the per-box row written slot by slot (the class slot through the truncation read at its call site), 65 operations. -/
abbrev opsH0 : List (HloOp τ sig (Elt F)) :=
  [ StableHlo.nullary main_c (fun i => lit0 (S2.rowMajor i)),
    StableHlo.unary main_arg1 main_v0 ((extractStridedSlice S16384x8x4 ![0, 0, 0] · slices_S16384x8x5_S16384x8x4_0_0_0) : (⟨S16384x8x5, .f32⟩ : BufTy).Contents (Elt F) → (⟨S16384x8x4, .f32⟩ : BufTy).Contents (Elt F)),
    StableHlo.unary main_v0 main_v1 ((extractStridedSlice S16384x8x2 ![0, 0, 2] · slices_S16384x8x4_S16384x8x2_0_0_2) : (⟨S16384x8x4, .f32⟩ : BufTy).Contents (Elt F) → (⟨S16384x8x2, .f32⟩ : BufTy).Contents (Elt F)),
    StableHlo.unary main_v0 main_v2 ((extractStridedSlice S16384x8x2 ![0, 0, 0] · slices_S16384x8x4_S16384x8x2_0_0_0) : (⟨S16384x8x4, .f32⟩ : BufTy).Contents (Elt F) → (⟨S16384x8x2, .f32⟩ : BufTy).Contents (Elt F)),
    StableHlo.binary main_v1 main_v2 main_v3 (subf : (⟨S16384x8x2, .f32⟩ : BufTy).Contents (Elt F) → (⟨S16384x8x2, .f32⟩ : BufTy).Contents (Elt F) → (⟨S16384x8x2, .f32⟩ : BufTy).Contents (Elt F)),
    StableHlo.unary main_v0 main_v4 ((extractStridedSlice S16384x8x2 ![0, 0, 2] · slices_S16384x8x4_S16384x8x2_0_0_2) : (⟨S16384x8x4, .f32⟩ : BufTy).Contents (Elt F) → (⟨S16384x8x2, .f32⟩ : BufTy).Contents (Elt F)),
    StableHlo.unary main_v0 main_v5 ((extractStridedSlice S16384x8x2 ![0, 0, 0] · slices_S16384x8x4_S16384x8x2_0_0_0) : (⟨S16384x8x4, .f32⟩ : BufTy).Contents (Elt F) → (⟨S16384x8x2, .f32⟩ : BufTy).Contents (Elt F)),
    StableHlo.binary main_v4 main_v5 main_v6 (addf : (⟨S16384x8x2, .f32⟩ : BufTy).Contents (Elt F) → (⟨S16384x8x2, .f32⟩ : BufTy).Contents (Elt F) → (⟨S16384x8x2, .f32⟩ : BufTy).Contents (Elt F)),
    StableHlo.nullary main_cst (constant S_ .f32 0x3F000000#32),
    StableHlo.unary main_cst main_v7 (broadcastInDim S16384x8x2 ![] bcast_S_S16384x8x2 : (⟨S_, .f32⟩ : BufTy).Contents (Elt F) → (⟨S16384x8x2, .f32⟩ : BufTy).Contents (Elt F)),
    StableHlo.binary main_v6 main_v7 main_v8 (mulf : (⟨S16384x8x2, .f32⟩ : BufTy).Contents (Elt F) → (⟨S16384x8x2, .f32⟩ : BufTy).Contents (Elt F) → (⟨S16384x8x2, .f32⟩ : BufTy).Contents (Elt F)),
    StableHlo.nullary main_cst_0 (constant S_ .f32 0x40E00000#32),
    StableHlo.unary main_cst_0 main_v9 (broadcastInDim S16384x8x2 ![] bcast_S_S16384x8x2 : (⟨S_, .f32⟩ : BufTy).Contents (Elt F) → (⟨S16384x8x2, .f32⟩ : BufTy).Contents (Elt F)),
    StableHlo.binary main_v8 main_v9 main_v10 (mulf : (⟨S16384x8x2, .f32⟩ : BufTy).Contents (Elt F) → (⟨S16384x8x2, .f32⟩ : BufTy).Contents (Elt F) → (⟨S16384x8x2, .f32⟩ : BufTy).Contents (Elt F)),
    StableHlo.unary main_v10 main_v11 (Host.ceil : (⟨S16384x8x2, .f32⟩ : BufTy).Contents (Elt F) → (⟨S16384x8x2, .f32⟩ : BufTy).Contents (Elt F)),
    StableHlo.nullary main_cst_1 (constant S_ .f32 0x3F800000#32),
    StableHlo.unary main_cst_1 main_v12 (broadcastInDim S16384x8x2 ![] bcast_S_S16384x8x2 : (⟨S_, .f32⟩ : BufTy).Contents (Elt F) → (⟨S16384x8x2, .f32⟩ : BufTy).Contents (Elt F)),
    StableHlo.binary main_v11 main_v12 main_v13 (subf : (⟨S16384x8x2, .f32⟩ : BufTy).Contents (Elt F) → (⟨S16384x8x2, .f32⟩ : BufTy).Contents (Elt F) → (⟨S16384x8x2, .f32⟩ : BufTy).Contents (Elt F)),
    StableHlo.nullary main_cst_2 (constant S_ .f32 0x40E00000#32),
    StableHlo.unary main_cst_2 main_v14 (broadcastInDim S16384x8x2 ![] bcast_S_S16384x8x2 : (⟨S_, .f32⟩ : BufTy).Contents (Elt F) → (⟨S16384x8x2, .f32⟩ : BufTy).Contents (Elt F)),
    StableHlo.binary main_v8 main_v14 main_v15 (mulf : (⟨S16384x8x2, .f32⟩ : BufTy).Contents (Elt F) → (⟨S16384x8x2, .f32⟩ : BufTy).Contents (Elt F) → (⟨S16384x8x2, .f32⟩ : BufTy).Contents (Elt F)),
    StableHlo.binary main_v15 main_v13 main_v16 (subf : (⟨S16384x8x2, .f32⟩ : BufTy).Contents (Elt F) → (⟨S16384x8x2, .f32⟩ : BufTy).Contents (Elt F) → (⟨S16384x8x2, .f32⟩ : BufTy).Contents (Elt F)),
    StableHlo.unary main_v13 main_v17 ((extractStridedSlice S16384x8x1 ![0, 0, 0] · slices_S16384x8x2_S16384x8x1_0_0_0) : (⟨S16384x8x2, .f32⟩ : BufTy).Contents (Elt F) → (⟨S16384x8x1, .f32⟩ : BufTy).Contents (Elt F)),
    StableHlo.reshape main_v17 main_v18 rfl shapeCasts_S16384x8x1_S16384x8,
    StableHlo.unary main_v18 main_v19 (fptosi 32 : (⟨S16384x8, .f32⟩ : BufTy).Contents (Elt F) → (⟨S16384x8, .i32⟩ : BufTy).Contents (Elt F)),
    StableHlo.unary main_v13 main_v20 ((extractStridedSlice S16384x8x1 ![0, 0, 1] · slices_S16384x8x2_S16384x8x1_0_0_1) : (⟨S16384x8x2, .f32⟩ : BufTy).Contents (Elt F) → (⟨S16384x8x1, .f32⟩ : BufTy).Contents (Elt F)),
    StableHlo.reshape main_v20 main_v21 rfl shapeCasts_S16384x8x1_S16384x8,
    StableHlo.unary main_v21 main_v22 (fptosi 32 : (⟨S16384x8, .f32⟩ : BufTy).Contents (Elt F) → (⟨S16384x8, .i32⟩ : BufTy).Contents (Elt F)),
    StableHlo.nullary main_cst_3 (constant S_ .f32 0x00000000#32),
    StableHlo.unary main_cst_3 main_v23 (broadcastInDim S16384x8x30 ![] bcast_S_S16384x8x30 : (⟨S_, .f32⟩ : BufTy).Contents (Elt F) → (⟨S16384x8x30, .f32⟩ : BufTy).Contents (Elt F)),
    StableHlo.nullary main_c_4 (constantI S_ 32 0#32),
    StableHlo.unary main_c_4 main_v24 (broadcastInDim S2 ![] bcast_S_S2 : (⟨S_, .i32⟩ : BufTy).Contents (Elt F) → (⟨S2, .i32⟩ : BufTy).Contents (Elt F)),
    StableHlo.binary main_c main_v24 main_v25 (cmpi .slt : (⟨S2, .i32⟩ : BufTy).Contents (Elt F) → (⟨S2, .i32⟩ : BufTy).Contents (Elt F) → (⟨S2, .i1⟩ : BufTy).Contents (Elt F)),
    StableHlo.nullary main_c_5 (constantI S_ 32 30#32),
    StableHlo.unary main_c_5 main_v26 (broadcastInDim S2 ![] bcast_S_S2 : (⟨S_, .i32⟩ : BufTy).Contents (Elt F) → (⟨S2, .i32⟩ : BufTy).Contents (Elt F)),
    StableHlo.binary main_c main_v26 main_v27 (addi : (⟨S2, .i32⟩ : BufTy).Contents (Elt F) → (⟨S2, .i32⟩ : BufTy).Contents (Elt F) → (⟨S2, .i32⟩ : BufTy).Contents (Elt F)),
    StableHlo.ternary main_v25 main_v27 main_c main_v28 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v28 main_v29 (broadcastInDim S2x1 ![0] bcast_S2_S2x1_0 : (⟨S2, .i32⟩ : BufTy).Contents (Elt F) → (⟨S2x1, .i32⟩ : BufTy).Contents (Elt F)),
    StableHlo.nullary main_cst_6 (constant S_ .f32 0x3F800000#32),
    StableHlo.unary main_cst_6 main_v30 (broadcastInDim S16384x8x2 ![] bcast_S_S16384x8x2 : (⟨S_, .f32⟩ : BufTy).Contents (Elt F) → (⟨S16384x8x2, .f32⟩ : BufTy).Contents (Elt F)),
    StableHlo.ternary main_v23 main_v29 main_v30 main_v31 ((fun x i u => Host.scatter scatter_S16384x8x30_S2x1_S16384x8x2_01_2_2_1 (fun _ b => b) x i u) : (⟨S16384x8x30, .f32⟩ : BufTy).Contents (Elt F) → (⟨S2x1, .i32⟩ : BufTy).Contents (Elt F) → (⟨S16384x8x2, .f32⟩ : BufTy).Contents (Elt F) → (⟨S16384x8x30, .f32⟩ : BufTy).Contents (Elt F)),
    StableHlo.unary main_arg1 main_v32 ((extractStridedSlice S16384x8x1 ![0, 0, 4] · slices_S16384x8x5_S16384x8x1_0_0_4) : (⟨S16384x8x5, .f32⟩ : BufTy).Contents (Elt F) → (⟨S16384x8x1, .f32⟩ : BufTy).Contents (Elt F)),
    StableHlo.reshape main_v32 main_v33 rfl shapeCasts_S16384x8x1_S16384x8,
    StableHlo.TRef.nullary main_call0.cst (constant S_ .f32 0x00000000#32),
    StableHlo.TRef.unary main_call0.cst main_call0.v0 (broadcastInDim S16384x8 ![] bcast_S_S16384x8),
    StableHlo.TRef.binary (.of main_v33 : StableHlo.TRef sig ⟨S16384x8, .f32⟩) main_call0.v0 main_call0.v1 (cmpf (F := F) .olt),
    StableHlo.TRef.unary (.of main_v33 : StableHlo.TRef sig ⟨S16384x8, .f32⟩) main_call0.v2 Host.ceil,
    StableHlo.TRef.unary (.of main_v33 : StableHlo.TRef sig ⟨S16384x8, .f32⟩) main_call0.v3 Host.floor,
    StableHlo.TRef.ternary main_call0.v1 main_call0.v2 main_call0.v3 main_call0.call0.v0 select,
    StableHlo.nullary main_c_7 (constantI S_ 32 10#32),
    StableHlo.unary main_c_7 main_v35 (broadcastInDim S1 ![] bcast_S_S1 : (⟨S_, .i32⟩ : BufTy).Contents (Elt F) → (⟨S1, .i32⟩ : BufTy).Contents (Elt F)),
    StableHlo.ternary main_v31 main_v35 main_v34 main_v36 ((fun x i u => Host.scatter scatter_S16384x8x30_S1_S16384x8_01_2_2_0 (fun _ b => b) x i u) : (⟨S16384x8x30, .f32⟩ : BufTy).Contents (Elt F) → (⟨S1, .i32⟩ : BufTy).Contents (Elt F) → (⟨S16384x8, .f32⟩ : BufTy).Contents (Elt F) → (⟨S16384x8x30, .f32⟩ : BufTy).Contents (Elt F)),
    StableHlo.nullary main_cst_8 (constant S_ .f32 0x40E00000#32),
    StableHlo.unary main_cst_8 main_v37 (broadcastInDim S16384x8x2 ![] bcast_S_S16384x8x2 : (⟨S_, .f32⟩ : BufTy).Contents (Elt F) → (⟨S16384x8x2, .f32⟩ : BufTy).Contents (Elt F)),
    StableHlo.binary main_v3 main_v37 main_v38 (mulf : (⟨S16384x8x2, .f32⟩ : BufTy).Contents (Elt F) → (⟨S16384x8x2, .f32⟩ : BufTy).Contents (Elt F) → (⟨S16384x8x2, .f32⟩ : BufTy).Contents (Elt F)),
    StableHlo.nullary main_c_9 (constantI S_ 32 2#32),
    StableHlo.unary main_c_9 main_v39 (broadcastInDim S1 ![] bcast_S_S1 : (⟨S_, .i32⟩ : BufTy).Contents (Elt F) → (⟨S1, .i32⟩ : BufTy).Contents (Elt F)),
    StableHlo.ternary main_v36 main_v39 main_v38 main_v40 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_c_10 (constantI S_ 32 0#32),
    StableHlo.unary main_c_10 main_v41 (broadcastInDim S1 ![] bcast_S_S1 : (⟨S_, .i32⟩ : BufTy).Contents (Elt F) → (⟨S1, .i32⟩ : BufTy).Contents (Elt F)),
    StableHlo.ternary main_v40 main_v41 main_v16 main_v42 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_cst_11 (constant S_ .f32 0x40E00000#32),
    StableHlo.unary main_cst_11 main_v43 (broadcastInDim S16384x8x2 ![] bcast_S_S16384x8x2 : (⟨S_, .f32⟩ : BufTy).Contents (Elt F) → (⟨S16384x8x2, .f32⟩ : BufTy).Contents (Elt F)),
    StableHlo.binary main_v3 main_v43 main_v44 (mulf : (⟨S16384x8x2, .f32⟩ : BufTy).Contents (Elt F) → (⟨S16384x8x2, .f32⟩ : BufTy).Contents (Elt F) → (⟨S16384x8x2, .f32⟩ : BufTy).Contents (Elt F)),
    StableHlo.nullary main_c_12 (constantI S_ 32 9#32) ]

set_option maxRecDepth 8192 in
set_option maxHeartbeats 4000000 in
/-- The label encoding, second stretch: the last two row writes, the scatter of the rows into the cell grid at the concatenated index triple, and the two flattenings, 40 operations. -/
abbrev opsH1 : List (HloOp τ sig (Elt F)) :=
  [ StableHlo.unary main_c_12 main_v45 (broadcastInDim S1 ![] bcast_S_S1 : (⟨S_, .i32⟩ : BufTy).Contents (Elt F) → (⟨S1, .i32⟩ : BufTy).Contents (Elt F)),
    StableHlo.ternary main_v42 main_v45 main_v44 main_v46 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_c_13 (constantI S_ 32 7#32),
    StableHlo.unary main_c_13 main_v47 (broadcastInDim S1 ![] bcast_S_S1 : (⟨S_, .i32⟩ : BufTy).Contents (Elt F) → (⟨S1, .i32⟩ : BufTy).Contents (Elt F)),
    StableHlo.ternary main_v46 main_v47 main_v16 main_v48 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_v49 (iotaInDim S16384 32 0),
    StableHlo.unary main_v49 main_v50 (broadcastInDim S16384x1 ![0] bcast_S16384_S16384x1_0 : (⟨S16384, .i32⟩ : BufTy).Contents (Elt F) → (⟨S16384x1, .i32⟩ : BufTy).Contents (Elt F)),
    StableHlo.nullary main_cst_14 (constant S_ .f32 0x00000000#32),
    StableHlo.unary main_cst_14 main_v51 (broadcastInDim S16384x7x7x30 ![] bcast_S_S16384x7x7x30 : (⟨S_, .f32⟩ : BufTy).Contents (Elt F) → (⟨S16384x7x7x30, .f32⟩ : BufTy).Contents (Elt F)),
    StableHlo.nullary main_c_15 (constantI S_ 32 0#32),
    StableHlo.unary main_c_15 main_v52 (broadcastInDim S16384x1 ![] bcast_S_S16384x1 : (⟨S_, .i32⟩ : BufTy).Contents (Elt F) → (⟨S16384x1, .i32⟩ : BufTy).Contents (Elt F)),
    StableHlo.binary main_v50 main_v52 main_v53 (cmpi .slt : (⟨S16384x1, .i32⟩ : BufTy).Contents (Elt F) → (⟨S16384x1, .i32⟩ : BufTy).Contents (Elt F) → (⟨S16384x1, .i1⟩ : BufTy).Contents (Elt F)),
    StableHlo.nullary main_c_16 (constantI S_ 32 16384#32),
    StableHlo.unary main_c_16 main_v54 (broadcastInDim S16384x1 ![] bcast_S_S16384x1 : (⟨S_, .i32⟩ : BufTy).Contents (Elt F) → (⟨S16384x1, .i32⟩ : BufTy).Contents (Elt F)),
    StableHlo.binary main_v50 main_v54 main_v55 (addi : (⟨S16384x1, .i32⟩ : BufTy).Contents (Elt F) → (⟨S16384x1, .i32⟩ : BufTy).Contents (Elt F) → (⟨S16384x1, .i32⟩ : BufTy).Contents (Elt F)),
    StableHlo.ternary main_v53 main_v55 main_v50 main_v56 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    StableHlo.nullary main_c_17 (constantI S_ 32 0#32),
    StableHlo.unary main_c_17 main_v57 (broadcastInDim S16384x8 ![] bcast_S_S16384x8 : (⟨S_, .i32⟩ : BufTy).Contents (Elt F) → (⟨S16384x8, .i32⟩ : BufTy).Contents (Elt F)),
    StableHlo.binary main_v22 main_v57 main_v58 (cmpi .slt : (⟨S16384x8, .i32⟩ : BufTy).Contents (Elt F) → (⟨S16384x8, .i32⟩ : BufTy).Contents (Elt F) → (⟨S16384x8, .i1⟩ : BufTy).Contents (Elt F)),
    StableHlo.nullary main_c_18 (constantI S_ 32 7#32),
    StableHlo.unary main_c_18 main_v59 (broadcastInDim S16384x8 ![] bcast_S_S16384x8 : (⟨S_, .i32⟩ : BufTy).Contents (Elt F) → (⟨S16384x8, .i32⟩ : BufTy).Contents (Elt F)),
    StableHlo.binary main_v22 main_v59 main_v60 (addi : (⟨S16384x8, .i32⟩ : BufTy).Contents (Elt F) → (⟨S16384x8, .i32⟩ : BufTy).Contents (Elt F) → (⟨S16384x8, .i32⟩ : BufTy).Contents (Elt F)),
    StableHlo.ternary main_v58 main_v60 main_v22 main_v61 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    StableHlo.nullary main_c_19 (constantI S_ 32 0#32),
    StableHlo.unary main_c_19 main_v62 (broadcastInDim S16384x8 ![] bcast_S_S16384x8 : (⟨S_, .i32⟩ : BufTy).Contents (Elt F) → (⟨S16384x8, .i32⟩ : BufTy).Contents (Elt F)),
    StableHlo.binary main_v19 main_v62 main_v63 (cmpi .slt : (⟨S16384x8, .i32⟩ : BufTy).Contents (Elt F) → (⟨S16384x8, .i32⟩ : BufTy).Contents (Elt F) → (⟨S16384x8, .i1⟩ : BufTy).Contents (Elt F)),
    StableHlo.nullary main_c_20 (constantI S_ 32 7#32),
    StableHlo.unary main_c_20 main_v64 (broadcastInDim S16384x8 ![] bcast_S_S16384x8 : (⟨S_, .i32⟩ : BufTy).Contents (Elt F) → (⟨S16384x8, .i32⟩ : BufTy).Contents (Elt F)),
    StableHlo.binary main_v19 main_v64 main_v65 (addi : (⟨S16384x8, .i32⟩ : BufTy).Contents (Elt F) → (⟨S16384x8, .i32⟩ : BufTy).Contents (Elt F) → (⟨S16384x8, .i32⟩ : BufTy).Contents (Elt F)),
    StableHlo.ternary main_v63 main_v65 main_v19 main_v66 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    StableHlo.unary main_v56 main_v67 (broadcastInDim S16384x8 ![0, 1] bcast_S16384x1_S16384x8_0_1 : (⟨S16384x1, .i32⟩ : BufTy).Contents (Elt F) → (⟨S16384x8, .i32⟩ : BufTy).Contents (Elt F)),
    StableHlo.unary main_v67 main_v68 (broadcastInDim S16384x8x1 ![0, 1] bcast_S16384x8_S16384x8x1_0_1 : (⟨S16384x8, .i32⟩ : BufTy).Contents (Elt F) → (⟨S16384x8x1, .i32⟩ : BufTy).Contents (Elt F)),
    StableHlo.unary main_v61 main_v69 (broadcastInDim S16384x8x1 ![0, 1] bcast_S16384x8_S16384x8x1_0_1 : (⟨S16384x8, .i32⟩ : BufTy).Contents (Elt F) → (⟨S16384x8x1, .i32⟩ : BufTy).Contents (Elt F)),
    StableHlo.unary main_v66 main_v70 (broadcastInDim S16384x8x1 ![0, 1] bcast_S16384x8_S16384x8x1_0_1 : (⟨S16384x8, .i32⟩ : BufTy).Contents (Elt F) → (⟨S16384x8x1, .i32⟩ : BufTy).Contents (Elt F)),
    StableHlo.nary ![main_v68, main_v69, main_v70] main_v71 (fun u => concatenate S16384x8x3 2 [⟨S16384x8x1, u 0⟩, ⟨S16384x8x1, u 1⟩, ⟨S16384x8x1, u 2⟩] concatenates_S16384x8x1_S16384x8x1_S16384x8x1_S16384x8x3_d2),
    StableHlo.ternary main_v51 main_v71 main_v48 main_v72 ((fun x i u => Host.scatter scatter_S16384x7x7x30_S16384x8x3_S16384x8x30_2_012_012_2 (fun _ b => b) x i u) : (⟨S16384x7x7x30, .f32⟩ : BufTy).Contents (Elt F) → (⟨S16384x8x3, .i32⟩ : BufTy).Contents (Elt F) → (⟨S16384x8x30, .f32⟩ : BufTy).Contents (Elt F) → (⟨S16384x7x7x30, .f32⟩ : BufTy).Contents (Elt F)),
    StableHlo.reshape main_v72 main_v73 rfl shapeCasts_S16384x7x7x30_S16384x49x30,
    StableHlo.reshape main_arg0 main_v74 rfl shapeCasts_S16384x1470_S16384x49x30,
    StableHlo.reshape main_v73 main_v75 rfl shapeCasts_S16384x49x30_S802816x30,
    StableHlo.reshape main_v74 main_v76 rfl shapeCasts_S16384x49x30_S802816x30 ]

set_option maxRecDepth 8192 in
set_option maxHeartbeats 4000000 in
/-- The loss, first stretch: the class logits and the class index, the log-softmax and the gather along the class axis read at their call sites, the mean, the object mask and the first box slice, 55 operations. -/
abbrev opsT1 : List (HloOp τ sig (Elt F)) :=
  [ StableHlo.unary main_v76 main_v77 ((extractStridedSlice S802816x20 ![0, 10] · slices_S802816x30_S802816x20_0_10) : (⟨S802816x30, .f32⟩ : BufTy).Contents (Elt F) → (⟨S802816x20, .f32⟩ : BufTy).Contents (Elt F)),
    StableHlo.unary main_v75 main_v78 ((extractStridedSlice S802816x1 ![0, 10] · slices_S802816x30_S802816x1_0_10) : (⟨S802816x30, .f32⟩ : BufTy).Contents (Elt F) → (⟨S802816x1, .f32⟩ : BufTy).Contents (Elt F)),
    StableHlo.reshape main_v78 main_v79 rfl shapeCasts_S802816x1_S802816,
    StableHlo.unary main_v79 main_v80 (fptosi 32 : (⟨S802816, .f32⟩ : BufTy).Contents (Elt F) → (⟨S802816, .i32⟩ : BufTy).Contents (Elt F)),
    StableHlo.TRef.nullary main_call1.cst (constant S_ .f32 0xFF800000#32),
    StableHlo.TRef.binary (.of main_v77 : StableHlo.TRef sig ⟨S802816x20, .f32⟩) main_call1.cst main_call1.v0 (fun x v => Host.reduce FloatOps.maximumf x v reducesTo_S802816x20_S802816_d1 h_S_),
    StableHlo.TRef.nullary main_call1.cst_0 (constant S_ .f32 0xFF800000#32),
    StableHlo.TRef.unary main_call1.cst_0 main_call1.v1 (broadcastInDim S802816 ![] bcast_S_S802816),
    StableHlo.TRef.binary main_call1.v1 main_call1.v0 main_call1.v2 maximumf,
    StableHlo.TRef.unary main_call1.v2 main_call1.v3 (broadcastInDim S802816x1 ![0] bcast_S802816_S802816x1_0),
    StableHlo.TRef.unary main_call1.v3 main_call1.v4 (broadcastInDim S802816x20 ![0, 1] bcast_S802816x1_S802816x20_0_1),
    StableHlo.TRef.binary (.of main_v77 : StableHlo.TRef sig ⟨S802816x20, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S802816x20_S802816_d1 h_S_),
    StableHlo.TRef.unary main_call1.v7 main_call1.v8 (broadcastInDim S802816x1 ![0] bcast_S802816_S802816x1_0),
    StableHlo.TRef.unary main_call1.v8 main_call1.v9 Host.log,
    StableHlo.TRef.unary main_call1.v9 main_call1.v10 (broadcastInDim S802816x20 ![0, 1] bcast_S802816x1_S802816x20_0_1),
    StableHlo.TRef.binary main_call1.v5 main_call1.v10 main_call1.v11 subf,
    StableHlo.unary main_v80 main_v82 (broadcastInDim S802816x1 ![0] bcast_S802816_S802816x1_0 : (⟨S802816, .i32⟩ : BufTy).Contents (Elt F) → (⟨S802816x1, .i32⟩ : BufTy).Contents (Elt F)),
    StableHlo.TRef.nullary main_call2.c (constantI S_ 32 0#32),
    StableHlo.TRef.unary main_call2.c main_call2.v0 (broadcastInDim S802816x1 ![] bcast_S_S802816x1),
    StableHlo.TRef.binary (.of main_v82 : StableHlo.TRef sig ⟨S802816x1, .i32⟩) main_call2.v0 main_call2.v1 (cmpi .slt),
    StableHlo.TRef.nullary main_call2.c_0 (constantI S_ 32 20#32),
    StableHlo.TRef.unary main_call2.c_0 main_call2.v2 (broadcastInDim S802816x1 ![] bcast_S_S802816x1),
    StableHlo.TRef.binary (.of main_v82 : StableHlo.TRef sig ⟨S802816x1, .i32⟩) main_call2.v2 main_call2.v3 addi,
    StableHlo.TRef.ternary main_call2.v1 main_call2.v3 (.of main_v82 : StableHlo.TRef sig ⟨S802816x1, .i32⟩) main_call2.v4 select,
    StableHlo.TRef.reshape main_call2.v4 main_call2.v5 rfl shapeCasts_S802816x1_S802816x1x1,
    StableHlo.TRef.nullary main_call2.c_1 (constantI S1 32 19#32),
    StableHlo.TRef.nullary main_call2.c_2 (constantI S_ 32 0#32),
    StableHlo.TRef.unary main_call2.c_2 main_call2.v6 (broadcastInDim S802816x1x1 ![] bcast_S_S802816x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S802816x1x1 ![0, 1, 2] bcast_S1x1x1_S802816x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S802816x1x1_S802816x1_d2 h_S_),
    StableHlo.TRef.binary (.of main_v81 : StableHlo.TRef sig ⟨S802816x20, .f32⟩) main_call2.v5 main_call2.v13 (fun x i => Host.gather gather_S802816x20_S802816x1x1_S802816x1_n_1_0_0_1_2_11 x i),
    StableHlo.TRef.nullary main_call2.cst (constant S_ .f32 0x7FC00000#32),
    StableHlo.TRef.unary main_call2.cst main_call2.v14 (broadcastInDim S802816x1 ![] bcast_S_S802816x1),
    StableHlo.TRef.ternary main_call2.v12 main_call2.v13 main_call2.v14 main_call2.v15 select,
    StableHlo.nullary main_cst_21 (constant S_ .f32 0x00000000#32),
    StableHlo.binary main_v83 main_cst_21 main_v84 ((fun x v => Host.reduceAdd x v reducesTo_S802816x1_S_d0_1 h_S_) : (⟨S802816x1, .f32⟩ : BufTy).Contents (Elt F) → (⟨S_, .f32⟩ : BufTy).Contents (Elt F) → (⟨S_, .f32⟩ : BufTy).Contents (Elt F)),
    StableHlo.nullary main_cst_22 (constant S_ .f32 0x49440000#32),
    StableHlo.binary main_v84 main_cst_22 main_v85 (Host.divf : (⟨S_, .f32⟩ : BufTy).Contents (Elt F) → (⟨S_, .f32⟩ : BufTy).Contents (Elt F) → (⟨S_, .f32⟩ : BufTy).Contents (Elt F)),
    StableHlo.unary main_v85 main_v86 (Host.negf : (⟨S_, .f32⟩ : BufTy).Contents (Elt F) → (⟨S_, .f32⟩ : BufTy).Contents (Elt F)),
    StableHlo.unary main_v75 main_v87 ((extractStridedSlice S802816x1 ![0, 10] · slices_S802816x30_S802816x1_0_10) : (⟨S802816x30, .f32⟩ : BufTy).Contents (Elt F) → (⟨S802816x1, .f32⟩ : BufTy).Contents (Elt F)),
    StableHlo.reshape main_v87 main_v88 rfl shapeCasts_S802816x1_S802816,
    StableHlo.nullary main_cst_23 (constant S_ .f32 0x00000000#32),
    StableHlo.unary main_cst_23 main_v89 (broadcastInDim S802816 ![] bcast_S_S802816 : (⟨S_, .f32⟩ : BufTy).Contents (Elt F) → (⟨S802816, .f32⟩ : BufTy).Contents (Elt F)),
    StableHlo.binary main_v88 main_v89 main_v90 (cmpf (F := F) .ogt : (⟨S802816, .f32⟩ : BufTy).Contents (Elt F) → (⟨S802816, .f32⟩ : BufTy).Contents (Elt F) → (⟨S802816, .i1⟩ : BufTy).Contents (Elt F)),
    StableHlo.unary main_v90 main_v91 (uitofp (F := F) .f32 : (⟨S802816, .i1⟩ : BufTy).Contents (Elt F) → (⟨S802816, .f32⟩ : BufTy).Contents (Elt F)),
    StableHlo.unary main_v76 main_v92 ((extractStridedSlice S802816x10 ![0, 0] · slices_S802816x30_S802816x10_0_0) : (⟨S802816x30, .f32⟩ : BufTy).Contents (Elt F) → (⟨S802816x10, .f32⟩ : BufTy).Contents (Elt F)),
    StableHlo.reshape main_v92 main_v93 rfl shapeCasts_S802816x10_S802816x2x5 ]

set_option maxRecDepth 8192 in
set_option maxHeartbeats 4000000 in
/-- The loss, second stretch: the squared coordinate and size differences summed per cell, their masked sums, the object count, and the combination, 29 operations. -/
abbrev opsT2 : List (HloOp τ sig (Elt F)) :=
  [ StableHlo.unary main_v75 main_v94 ((extractStridedSlice S802816x10 ![0, 0] · slices_S802816x30_S802816x10_0_0) : (⟨S802816x30, .f32⟩ : BufTy).Contents (Elt F) → (⟨S802816x10, .f32⟩ : BufTy).Contents (Elt F)),
    StableHlo.reshape main_v94 main_v95 rfl shapeCasts_S802816x10_S802816x2x5,
    StableHlo.unary main_v93 main_v96 ((extractStridedSlice S802816x2x2 ![0, 0, 0] · slices_S802816x2x5_S802816x2x2_0_0_0) : (⟨S802816x2x5, .f32⟩ : BufTy).Contents (Elt F) → (⟨S802816x2x2, .f32⟩ : BufTy).Contents (Elt F)),
    StableHlo.unary main_v95 main_v97 ((extractStridedSlice S802816x2x2 ![0, 0, 0] · slices_S802816x2x5_S802816x2x2_0_0_0) : (⟨S802816x2x5, .f32⟩ : BufTy).Contents (Elt F) → (⟨S802816x2x2, .f32⟩ : BufTy).Contents (Elt F)),
    StableHlo.binary main_v96 main_v97 main_v98 (subf : (⟨S802816x2x2, .f32⟩ : BufTy).Contents (Elt F) → (⟨S802816x2x2, .f32⟩ : BufTy).Contents (Elt F) → (⟨S802816x2x2, .f32⟩ : BufTy).Contents (Elt F)),
    StableHlo.binary main_v98 main_v98 main_v99 (mulf : (⟨S802816x2x2, .f32⟩ : BufTy).Contents (Elt F) → (⟨S802816x2x2, .f32⟩ : BufTy).Contents (Elt F) → (⟨S802816x2x2, .f32⟩ : BufTy).Contents (Elt F)),
    StableHlo.nullary main_cst_24 (constant S_ .f32 0x00000000#32),
    StableHlo.binary main_v99 main_cst_24 main_v100 ((fun x v => Host.reduceAdd x v reducesTo_S802816x2x2_S802816_d1_2 h_S_) : (⟨S802816x2x2, .f32⟩ : BufTy).Contents (Elt F) → (⟨S_, .f32⟩ : BufTy).Contents (Elt F) → (⟨S802816, .f32⟩ : BufTy).Contents (Elt F)),
    StableHlo.unary main_v93 main_v101 ((extractStridedSlice S802816x2x2 ![0, 0, 2] · slices_S802816x2x5_S802816x2x2_0_0_2) : (⟨S802816x2x5, .f32⟩ : BufTy).Contents (Elt F) → (⟨S802816x2x2, .f32⟩ : BufTy).Contents (Elt F)),
    StableHlo.unary main_v95 main_v102 ((extractStridedSlice S802816x2x2 ![0, 0, 2] · slices_S802816x2x5_S802816x2x2_0_0_2) : (⟨S802816x2x5, .f32⟩ : BufTy).Contents (Elt F) → (⟨S802816x2x2, .f32⟩ : BufTy).Contents (Elt F)),
    StableHlo.binary main_v101 main_v102 main_v103 (subf : (⟨S802816x2x2, .f32⟩ : BufTy).Contents (Elt F) → (⟨S802816x2x2, .f32⟩ : BufTy).Contents (Elt F) → (⟨S802816x2x2, .f32⟩ : BufTy).Contents (Elt F)),
    StableHlo.binary main_v103 main_v103 main_v104 (mulf : (⟨S802816x2x2, .f32⟩ : BufTy).Contents (Elt F) → (⟨S802816x2x2, .f32⟩ : BufTy).Contents (Elt F) → (⟨S802816x2x2, .f32⟩ : BufTy).Contents (Elt F)),
    StableHlo.nullary main_cst_25 (constant S_ .f32 0x00000000#32),
    StableHlo.binary main_v104 main_cst_25 main_v105 ((fun x v => Host.reduceAdd x v reducesTo_S802816x2x2_S802816_d1_2 h_S_) : (⟨S802816x2x2, .f32⟩ : BufTy).Contents (Elt F) → (⟨S_, .f32⟩ : BufTy).Contents (Elt F) → (⟨S802816, .f32⟩ : BufTy).Contents (Elt F)),
    StableHlo.nullary main_cst_26 (constant S_ .f32 0x00000000#32),
    StableHlo.binary main_v91 main_cst_26 main_v106 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.nullary main_cst_27 (constant S_ .f32 0x40800000#32),
    StableHlo.binary main_v106 main_cst_27 main_v107 (mulf : (⟨S_, .f32⟩ : BufTy).Contents (Elt F) → (⟨S_, .f32⟩ : BufTy).Contents (Elt F) → (⟨S_, .f32⟩ : BufTy).Contents (Elt F)),
    StableHlo.binary main_v91 main_v100 main_v108 (mulf : (⟨S802816, .f32⟩ : BufTy).Contents (Elt F) → (⟨S802816, .f32⟩ : BufTy).Contents (Elt F) → (⟨S802816, .f32⟩ : BufTy).Contents (Elt F)),
    StableHlo.nullary main_cst_28 (constant S_ .f32 0x00000000#32),
    StableHlo.binary main_v108 main_cst_28 main_v109 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.binary main_v91 main_v105 main_v110 (mulf : (⟨S802816, .f32⟩ : BufTy).Contents (Elt F) → (⟨S802816, .f32⟩ : BufTy).Contents (Elt F) → (⟨S802816, .f32⟩ : BufTy).Contents (Elt F)),
    StableHlo.nullary main_cst_29 (constant S_ .f32 0x00000000#32),
    StableHlo.binary main_v110 main_cst_29 main_v111 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.binary main_v109 main_v111 main_v112 (addf : (⟨S_, .f32⟩ : BufTy).Contents (Elt F) → (⟨S_, .f32⟩ : BufTy).Contents (Elt F) → (⟨S_, .f32⟩ : BufTy).Contents (Elt F)),
    StableHlo.binary main_v112 main_v107 main_v113 (Host.divf : (⟨S_, .f32⟩ : BufTy).Contents (Elt F) → (⟨S_, .f32⟩ : BufTy).Contents (Elt F) → (⟨S_, .f32⟩ : BufTy).Contents (Elt F)),
    StableHlo.nullary main_cst_30 (constant S_ .f32 0x40A00000#32),
    StableHlo.binary main_cst_30 main_v113 main_v114 (mulf : (⟨S_, .f32⟩ : BufTy).Contents (Elt F) → (⟨S_, .f32⟩ : BufTy).Contents (Elt F) → (⟨S_, .f32⟩ : BufTy).Contents (Elt F)),
    StableHlo.binary main_v86 main_v114 main_v115 (addf : (⟨S_, .f32⟩ : BufTy).Contents (Elt F) → (⟨S_, .f32⟩ : BufTy).Contents (Elt F) → (⟨S_, .f32⟩ : BufTy).Contents (Elt F)) ]

/-- The operations up to the two flattened arrays (105). -/
abbrev opsHead : List (HloOp τ sig (Elt F)) := opsH0 ++ opsH1
/-- The operations of the loss proper (84). -/
abbrev opsTail : List (HloOp τ sig (Elt F)) := opsT1 ++ opsT2
/-- @main's 189 operations, in order. -/
abbrev ops : List (HloOp τ sig (Elt F)) := opsHead ++ opsTail

/-! Each printed window is the straight line of its stretch: both sides unfold to the same nest of steps. -/
set_option maxRecDepth 8192 in
theorem main_part0_eq (c : Dev nD) : main_part0 (F := F) c = seq opsH0 := by chain_rfl
set_option maxRecDepth 8192 in
theorem main_part1_eq (c : Dev nD) : main_part1 (F := F) c = seq (opsH1 ++ opsT1) := by chain_rfl
set_option maxRecDepth 8192 in
theorem main_part2_eq (c : Dev nD) : main_part2 (F := F) c = seq opsT2 := by chain_rfl

theorem main_eq (c : Dev nD) : main (F := F) c = seq ops := by
  have h : main (F := F) c = (main_part0 c >>= fun _ => main_part1 c >>= fun _ => main_part2 c) := rfl
  rw [h, main_part0_eq, main_part1_eq, main_part2_eq]
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsH0_sub : (opsH0 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., unary_bufs_sub .., reshape_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., reshape_bufs_sub .., nullary_bufs_sub .., unary_bufs_sub .., binary_bufs_sub .., unary_bufs_sub .., unary_bufs_sub .., ternary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., ternary_bufs_sub .., nullary_bufs_sub .., unary_bufs_sub .., binary_bufs_sub .., nullary_bufs_sub ..⟩
set_option maxRecDepth 8192 in
theorem opsH0_fresh : (opsH0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsH1_sub : (opsH1 : List (HloOp τ sig (Elt F))).Forall fun op => op.bufs ⊆ tcRefs τ sig :=
  ⟨unary_bufs_sub .., ternary_bufs_sub .., nullary_bufs_sub .., unary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., ternary_bufs_sub .., reshape_bufs_sub .., reshape_bufs_sub .., reshape_bufs_sub .., reshape_bufs_sub ..⟩
set_option maxRecDepth 8192 in
theorem opsH1_fresh : (opsH1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsT1_sub : (opsT1 : List (HloOp τ sig (Elt F))).Forall fun op => op.bufs ⊆ tcRefs τ sig :=
  ⟨unary_bufs_sub .., unary_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub .., unary_bufs_sub .., reshape_bufs_sub .., nullary_bufs_sub .., unary_bufs_sub .., binary_bufs_sub .., unary_bufs_sub .., unary_bufs_sub .., reshape_bufs_sub ..⟩
set_option maxRecDepth 8192 in
theorem opsT1_fresh : (opsT1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsT2_sub : (opsT2 : List (HloOp τ sig (Elt F))).Forall fun op => op.bufs ⊆ tcRefs τ sig :=
  ⟨unary_bufs_sub .., reshape_bufs_sub .., unary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub ..⟩
set_option maxRecDepth 8192 in
theorem opsT2_fresh : (opsT2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem mem_ops {op : HloOp τ sig (Elt F)} (h : op ∈ (ops : List (HloOp τ sig (Elt F)))) :
    op ∈ (opsH0 : List (HloOp τ sig (Elt F))) ∨ op ∈ (opsH1 : List (HloOp τ sig (Elt F)))
      ∨ op ∈ (opsT1 : List (HloOp τ sig (Elt F))) ∨ op ∈ (opsT2 : List (HloOp τ sig (Elt F))) := by
  rcases List.mem_append.mp h with h | h
  · rcases List.mem_append.mp h with h | h
    · exact .inl h
    · exact .inr (.inl h)
  · rcases List.mem_append.mp h with h | h
    · exact .inr (.inr (.inl h))
    · exact .inr (.inr (.inr h))

theorem ops_sub : (ops : List (HloOp τ sig (Elt F))).Forall fun op => op.bufs ⊆ tcRefs τ sig :=
  List.forall_iff_forall_mem.mpr fun op h => by
    rcases mem_ops h with h | h | h | h
    exacts [List.forall_iff_forall_mem.mp opsH0_sub op h, List.forall_iff_forall_mem.mp opsH1_sub op h,
      List.forall_iff_forall_mem.mp opsT1_sub op h, List.forall_iff_forall_mem.mp opsT2_sub op h]

theorem ops_fresh : ∀ op ∈ (ops : List (HloOp τ sig (Elt F))), op.fresh = ∅ := fun op h => by
  rcases mem_ops h with h | h | h | h
  exacts [List.forall_iff_forall_mem.mp opsH0_fresh op h, List.forall_iff_forall_mem.mp opsH1_fresh op h,
    List.forall_iff_forall_mem.mp opsT1_fresh op h, List.forall_iff_forall_mem.mp opsT2_fresh op h]

/-- A buffer other than the one an operation writes is not among its written buffers. -/
theorem keep2 {op : HloOp τ sig (Elt F)} {y : Ref sig .tc} (hw : op.writes = {(Proc.devRef .tc y : DevRef τ sig)})
    (h0 : main_arg0 ≠ y) (h1 : main_arg1 ≠ y) :
    (Proc.devRef .tc main_arg0 : DevRef τ sig) ∉ op.writes ∧ (Proc.devRef .tc main_arg1 : DevRef τ sig) ∉ op.writes := by
  rw [hw, Finset.mem_singleton, Finset.mem_singleton]
  exact ⟨devRef_ne_of_ne h0, devRef_ne_of_ne h1⟩

/-! No operation writes an argument array: each writes its own result buffer, and the two arguments are results of none. -/
set_option maxRecDepth 8192 in
theorem opsH0_keep : (opsH0 : List (HloOp τ sig (Elt F))).Forall fun op =>
    (Proc.devRef .tc main_arg0 : DevRef τ sig) ∉ op.writes ∧ (Proc.devRef .tc main_arg1 : DevRef τ sig) ∉ op.writes :=
  ⟨keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide)⟩

set_option maxRecDepth 8192 in
theorem opsH1_keep : (opsH1 : List (HloOp τ sig (Elt F))).Forall fun op =>
    (Proc.devRef .tc main_arg0 : DevRef τ sig) ∉ op.writes ∧ (Proc.devRef .tc main_arg1 : DevRef τ sig) ∉ op.writes :=
  ⟨keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide)⟩

set_option maxRecDepth 8192 in
theorem opsT1_keep : (opsT1 : List (HloOp τ sig (Elt F))).Forall fun op =>
    (Proc.devRef .tc main_arg0 : DevRef τ sig) ∉ op.writes ∧ (Proc.devRef .tc main_arg1 : DevRef τ sig) ∉ op.writes :=
  ⟨keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide)⟩

set_option maxRecDepth 8192 in
theorem opsT2_keep : (opsT2 : List (HloOp τ sig (Elt F))).Forall fun op =>
    (Proc.devRef .tc main_arg0 : DevRef τ sig) ∉ op.writes ∧ (Proc.devRef .tc main_arg1 : DevRef τ sig) ∉ op.writes :=
  ⟨keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide), keep2 rfl (by decide) (by decide)⟩

theorem ops_keep : ∀ op ∈ (ops : List (HloOp τ sig (Elt F))),
    (Proc.devRef .tc main_arg0 : DevRef τ sig) ∉ op.writes ∧ (Proc.devRef .tc main_arg1 : DevRef τ sig) ∉ op.writes := fun op h => by
  rcases mem_ops h with h | h | h | h
  exacts [List.forall_iff_forall_mem.mp opsH0_keep op h, List.forall_iff_forall_mem.mp opsH1_keep op h,
    List.forall_iff_forall_mem.mp opsT1_keep op h, List.forall_iff_forall_mem.mp opsT2_keep op h]

theorem after_arg0 (V : Valuation τ sig (Elt F)) : after ops V (Proc.devRef .tc main_arg0) = V (Proc.devRef .tc main_arg0) :=
  after_of_forall_not_mem ops V fun op h => (ops_keep op h).1
theorem after_arg1 (V : Valuation τ sig (Elt F)) : after ops V (Proc.devRef .tc main_arg1) = V (Proc.devRef .tc main_arg1) :=
  after_of_forall_not_mem ops V fun op h => (ops_keep op h).2

/-- On the device, for any float values, from any memory with zero counters: every weakly fair execution of @main
    terminates, the result buffer holds the fold of the 189 operations over the launch contents, and the two argument
    arrays are unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v115) = StableHlo.after ops (StableHlo.launchContents m c) (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v115, (h c main_arg0).trans (after_arg0 _), (h c main_arg1).trans (after_arg1 _)⟩)
    (run_seq scopedRefs_eq scopedSems_eq defs main (fun _ => ops) main_eq (fun _ => ops_sub) m ρ (fun _ => ops_fresh))

/-- The reference runs (terminates, nothing faulting) and leaves its argument arrays as they were: the run above at the
    ideal instance, the result's value dropped. -/
theorem frame_ri :
    Cert.frame_ReferenceIdeal (hReferenceIdeal := Cert.ReferenceIdeal.Gen.facts) (hPre_finite_inputs := Cert.Pre_finite_inputs.Gen.facts) :=
  fun m g _ => (θ_run _ _ _).mono (fun _ h c => ⟨(h c).2.1, (h c).2.2⟩) (run (F := Ideal) m g)

end Cert.ReferenceIdeal.Hand

end
-- ==== Proof.RefTailDef.lean ====
/-
  The reference's last stretch as pure functions of the two flattened arrays: the operations %77 … %115 of @main in
  their printed order, the bodies of the two calls (the row-wise log-softmax and the pick of one entry per row)
  written out where they are called.  Each line carries the function its printed operation carries.

  From the predictions' cells P (802816 rows of 30) and the targets' cells T:
    classTerm = -( (Σ_r  logsoftmax(P r [10:30]) at index trunc (T r 10))  /  802816 )          (%77 … %86)
    locTerm   = (Σ_r m_r · Σ_{k,j<2} (P r (5k+j) - T r (5k+j))²  +  Σ_r m_r · Σ_{k,j<2} (P r (5k+2+j) - T r (5k+2+j))²)
                  / ((Σ_r m_r) · 4),          m_r = [T r 10 > 0]                                  (%87 … %113)
    refTail   = classTerm + 5 · locTerm                                                          (%114, %115)
-/
import proofs.«115196_j11467562680721_1_alg».proof.ReferenceIdeal
import proofs.«115196_j11467562680721_1_alg».proof.Proof.Spec
import Idealize.ShloMosaic.Lib.ValueIdx

noncomputable section

namespace Cert.ReferenceIdeal.RV

open Idealize.ShloMosaic
open Cert.ReferenceIdeal Cert.Spec
open Cert.ReferenceIdeal.Facts₀ Cert.ReferenceIdeal.Facts

/-- A flattened array of extended reals by row and column. -/
def arr (v : FVec Ideal S802816x30 .f32) : Arr := fun r j => v (ValueIdx.ix2 r j)

variable [Facts]

/-- The row-wise log-softmax of the class scores (the body of the first call). -/
def lsmTerm {F : FTy → Type} [FloatOps F] (X : FVec F S802816x20 .f32) : FVec F S802816x20 .f32 :=
  let l_cst : FVec F S_ .f32 := constant (F := F) S_ .f32 0xFF800000#32
  let l_v0 : FVec F S802816 .f32 := Host.reduce FloatOps.maximumf X l_cst reducesTo_S802816x20_S802816_d1 h_S_
  let l_cst_0 : FVec F S_ .f32 := constant (F := F) S_ .f32 0xFF800000#32
  let l_v1 : FVec F S802816 .f32 := broadcastInDim S802816 ![] bcast_S_S802816 l_cst_0
  let l_v2 : FVec F S802816 .f32 := maximumf l_v1 l_v0
  let l_v3 : FVec F S802816x1 .f32 := broadcastInDim S802816x1 ![0] bcast_S802816_S802816x1_0 l_v2
  let l_v4 : FVec F S802816x20 .f32 := broadcastInDim S802816x20 ![0, 1] bcast_S802816x1_S802816x20_0_1 l_v3
  let l_v5 : FVec F S802816x20 .f32 := subf X l_v4
  let l_v6 : FVec F S802816x20 .f32 := Host.exp l_v5
  let l_cst_1 : FVec F S_ .f32 := constant (F := F) S_ .f32 0x00000000#32
  let l_v7 : FVec F S802816 .f32 := Host.reduceAdd l_v6 l_cst_1 reducesTo_S802816x20_S802816_d1 h_S_
  let l_v8 : FVec F S802816x1 .f32 := broadcastInDim S802816x1 ![0] bcast_S802816_S802816x1_0 l_v7
  let l_v9 : FVec F S802816x1 .f32 := Host.log l_v8
  let l_v10 : FVec F S802816x20 .f32 := broadcastInDim S802816x20 ![0, 1] bcast_S802816x1_S802816x20_0_1 l_v9
  let v81 : FVec F S802816x20 .f32 := subf l_v5 l_v10
  v81

/-- One entry of each row of L, at the row's index in ix: a negative index counted from the end, an index off the row
    filled (the body of the second call). -/
def takeTerm {F : FTy → Type} [FloatOps F] (L : FVec F S802816x20 .f32) (ix : IVec S802816x1 32) : FVec F S802816x1 .f32 :=
  let t_c : IVec S_ 32 := constantI S_ 32 0#32
  let t_v0 : IVec S802816x1 32 := broadcastInDim S802816x1 ![] bcast_S_S802816x1 t_c
  let t_v1 : IVec S802816x1 1 := cmpi .slt ix t_v0
  let t_c_0 : IVec S_ 32 := constantI S_ 32 20#32
  let t_v2 : IVec S802816x1 32 := broadcastInDim S802816x1 ![] bcast_S_S802816x1 t_c_0
  let t_v3 : IVec S802816x1 32 := addi ix t_v2
  let t_v4 : IVec S802816x1 32 := select t_v1 t_v3 ix
  let t_v5 : IVec S802816x1x1 32 := shapeCast S802816x1x1 t_v4 shapeCasts_S802816x1_S802816x1x1
  let t_c_1 : IVec S1 32 := constantI S1 32 19#32
  let t_c_2 : IVec S_ 32 := constantI S_ 32 0#32
  let t_v6 : IVec S802816x1x1 32 := broadcastInDim S802816x1x1 ![] bcast_S_S802816x1x1 t_c_2
  let t_v7 : IVec S802816x1x1 1 := cmpi .sge t_v5 t_v6
  let t_v8 : IVec S1x1x1 32 := broadcastInDim S1x1x1 ![2] bcast_S1_S1x1x1_2 t_c_1
  let t_v9 : IVec S802816x1x1 32 := broadcastInDim S802816x1x1 ![0, 1, 2] bcast_S1x1x1_S802816x1x1_0_1_2 t_v8
  let t_v10 : IVec S802816x1x1 1 := cmpi .sle t_v5 t_v9
  let t_v11 : IVec S802816x1x1 1 := andi t_v7 t_v10
  let t_c_3 : IVec S_ 1 := constantI S_ 1 1#1
  let t_v12 : IVec S802816x1 1 := Host.reduce IntOp.andi t_v11 t_c_3 reducesTo_S802816x1x1_S802816x1_d2 h_S_
  let t_v13 : FVec F S802816x1 .f32 := Host.gather gather_S802816x20_S802816x1x1_S802816x1_n_1_0_0_1_2_11 L t_v5
  let t_cst : FVec F S_ .f32 := constant (F := F) S_ .f32 0x7FC00000#32
  let t_v14 : FVec F S802816x1 .f32 := broadcastInDim S802816x1 ![] bcast_S_S802816x1 t_cst
  let v83 : FVec F S802816x1 .f32 := select t_v12 t_v13 t_v14
  v83

/-- The value of %86, the class term, as a function of the values of %76 (the predictions' cells) and %75 (the
    targets' cells). -/
def classTerm {F : FTy → Type} [FloatOps F] (Pv Tv : FVec F S802816x30 .f32) : FVec F S_ .f32 :=
  let v77 : FVec F S802816x20 .f32 := extractStridedSlice S802816x20 ![0, 10] Pv slices_S802816x30_S802816x20_0_10
  let v78 : FVec F S802816x1 .f32 := extractStridedSlice S802816x1 ![0, 10] Tv slices_S802816x30_S802816x1_0_10
  let v79 : FVec F S802816 .f32 := shapeCast S802816 v78 shapeCasts_S802816x1_S802816
  let v80 : IVec S802816 32 := fptosi 32 v79
  let v81 : FVec F S802816x20 .f32 := lsmTerm v77
  let v82 : IVec S802816x1 32 := broadcastInDim S802816x1 ![0] bcast_S802816_S802816x1_0 v80
  let v83 : FVec F S802816x1 .f32 := takeTerm v81 v82
  -- the class term: minus the mean of the picked entries
  let cst_21 : FVec F S_ .f32 := constant (F := F) S_ .f32 0x00000000#32
  let v84 : FVec F S_ .f32 := Host.reduceAdd v83 cst_21 reducesTo_S802816x1_S_d0_1 h_S_
  let cst_22 : FVec F S_ .f32 := constant (F := F) S_ .f32 0x49440000#32
  let v85 : FVec F S_ .f32 := Host.divf v84 cst_22
  let v86 : FVec F S_ .f32 := Host.negf v85
  v86

/-- The value of %113, the localisation term, as a function of the values of %76 and %75. -/
def locTerm {F : FTy → Type} [FloatOps F] (Pv Tv : FVec F S802816x30 .f32) : FVec F S_ .f32 :=
  -- the object mask
  let v87 : FVec F S802816x1 .f32 := extractStridedSlice S802816x1 ![0, 10] Tv slices_S802816x30_S802816x1_0_10
  let v88 : FVec F S802816 .f32 := shapeCast S802816 v87 shapeCasts_S802816x1_S802816
  let cst_23 : FVec F S_ .f32 := constant (F := F) S_ .f32 0x00000000#32
  let v89 : FVec F S802816 .f32 := broadcastInDim S802816 ![] bcast_S_S802816 cst_23
  let v90 : IVec S802816 1 := cmpf .ogt v88 v89
  let v91 : FVec F S802816 .f32 := uitofp .f32 v90
  -- the two boxes' five numbers, of the predictions and of the targets
  let v92 : FVec F S802816x10 .f32 := extractStridedSlice S802816x10 ![0, 0] Pv slices_S802816x30_S802816x10_0_0
  let v93 : FVec F S802816x2x5 .f32 := shapeCast S802816x2x5 v92 shapeCasts_S802816x10_S802816x2x5
  let v94 : FVec F S802816x10 .f32 := extractStridedSlice S802816x10 ![0, 0] Tv slices_S802816x30_S802816x10_0_0
  let v95 : FVec F S802816x2x5 .f32 := shapeCast S802816x2x5 v94 shapeCasts_S802816x10_S802816x2x5
  -- the squared error of the centre offsets, per row
  let v96 : FVec F S802816x2x2 .f32 := extractStridedSlice S802816x2x2 ![0, 0, 0] v93 slices_S802816x2x5_S802816x2x2_0_0_0
  let v97 : FVec F S802816x2x2 .f32 := extractStridedSlice S802816x2x2 ![0, 0, 0] v95 slices_S802816x2x5_S802816x2x2_0_0_0
  let v98 : FVec F S802816x2x2 .f32 := subf v96 v97
  let v99 : FVec F S802816x2x2 .f32 := mulf v98 v98
  let cst_24 : FVec F S_ .f32 := constant (F := F) S_ .f32 0x00000000#32
  let v100 : FVec F S802816 .f32 := Host.reduceAdd v99 cst_24 reducesTo_S802816x2x2_S802816_d1_2 h_S_
  -- the squared error of the sizes, per row
  let v101 : FVec F S802816x2x2 .f32 := extractStridedSlice S802816x2x2 ![0, 0, 2] v93 slices_S802816x2x5_S802816x2x2_0_0_2
  let v102 : FVec F S802816x2x2 .f32 := extractStridedSlice S802816x2x2 ![0, 0, 2] v95 slices_S802816x2x5_S802816x2x2_0_0_2
  let v103 : FVec F S802816x2x2 .f32 := subf v101 v102
  let v104 : FVec F S802816x2x2 .f32 := mulf v103 v103
  let cst_25 : FVec F S_ .f32 := constant (F := F) S_ .f32 0x00000000#32
  let v105 : FVec F S802816 .f32 := Host.reduceAdd v104 cst_25 reducesTo_S802816x2x2_S802816_d1_2 h_S_
  -- the number of object rows, times 4
  let cst_26 : FVec F S_ .f32 := constant (F := F) S_ .f32 0x00000000#32
  let v106 : FVec F S_ .f32 := Host.reduceAdd v91 cst_26 reducesTo_S802816_S_d0 h_S_
  let cst_27 : FVec F S_ .f32 := constant (F := F) S_ .f32 0x40800000#32
  let v107 : FVec F S_ .f32 := mulf v106 cst_27
  -- the masked sums of the two squared errors, their mean, and the combination
  let v108 : FVec F S802816 .f32 := mulf v91 v100
  let cst_28 : FVec F S_ .f32 := constant (F := F) S_ .f32 0x00000000#32
  let v109 : FVec F S_ .f32 := Host.reduceAdd v108 cst_28 reducesTo_S802816_S_d0 h_S_
  let v110 : FVec F S802816 .f32 := mulf v91 v105
  let cst_29 : FVec F S_ .f32 := constant (F := F) S_ .f32 0x00000000#32
  let v111 : FVec F S_ .f32 := Host.reduceAdd v110 cst_29 reducesTo_S802816_S_d0 h_S_
  let v112 : FVec F S_ .f32 := addf v109 v111
  let v113 : FVec F S_ .f32 := Host.divf v112 v107
  v113

/-- The value of %115: the class term plus five times the localisation term (%114, %115). -/
def refTail {F : FTy → Type} [FloatOps F] (Pv Tv : FVec F S802816x30 .f32) : FVec F S_ .f32 :=
  addf (classTerm Pv Tv) (mulf (constant (F := F) S_ .f32 0x40A00000#32) (locTerm Pv Tv))

end Cert.ReferenceIdeal.RV

end
-- ==== Proof.RefTail.lean ====
/-
  The reference's result as a function of the two flattened arrays. The last 84 operations of @main — the class term
  (log-softmax of the class scores, one entry picked per row, minus their mean) and the localisation term (masked
  squared differences of the box centres and sizes over four times the object count) — read, of everything the first
  105 operations leave, only the two flattened arrays; every other operand is a constant or a result of their own.
  So their fold over any contents is the loss function of those two arrays. The operations that stand inside the two
  called functions are first restated over the buffers themselves (the same operations: a value moved to its buffer's
  type and back along an identity is the value), after which each operation's result is read off in turn.
-/
import proofs.«115196_j11467562680721_1_alg».proof.Proof.RefRun
import proofs.«115196_j11467562680721_1_alg».proof.Proof.RefTailDef

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the loss proper with every call-site operation written over the buffers themselves. -/
def pTail : List (HloOp τ sig (Elt F)) :=
  [ StableHlo.unary main_v76 main_v77 ((extractStridedSlice S802816x20 ![0, 10] · slices_S802816x30_S802816x20_0_10) : (⟨S802816x30, .f32⟩ : BufTy).Contents (Elt F) → (⟨S802816x20, .f32⟩ : BufTy).Contents (Elt F)),
    StableHlo.unary main_v75 main_v78 ((extractStridedSlice S802816x1 ![0, 10] · slices_S802816x30_S802816x1_0_10) : (⟨S802816x30, .f32⟩ : BufTy).Contents (Elt F) → (⟨S802816x1, .f32⟩ : BufTy).Contents (Elt F)),
    StableHlo.reshape main_v78 main_v79 rfl shapeCasts_S802816x1_S802816,
    StableHlo.unary main_v79 main_v80 (fptosi 32 : (⟨S802816, .f32⟩ : BufTy).Contents (Elt F) → (⟨S802816, .i32⟩ : BufTy).Contents (Elt F)),
    StableHlo.nullary main_call1_cst (constant S_ .f32 0xFF800000#32 : (⟨S_, .f32⟩ : BufTy).Contents (Elt F)),
    StableHlo.binary main_v77 main_call1_cst main_call1_v0 (((fun x v => Host.reduce FloatOps.maximumf x v reducesTo_S802816x20_S802816_d1 h_S_)) : (⟨S802816x20, .f32⟩ : BufTy).Contents (Elt F) → (⟨S_, .f32⟩ : BufTy).Contents (Elt F) → (⟨S802816, .f32⟩ : BufTy).Contents (Elt F)),
    StableHlo.nullary main_call1_cst_0 (constant S_ .f32 0xFF800000#32 : (⟨S_, .f32⟩ : BufTy).Contents (Elt F)),
    StableHlo.unary main_call1_cst_0 main_call1_v1 (((broadcastInDim S802816 ![] bcast_S_S802816)) : (⟨S_, .f32⟩ : BufTy).Contents (Elt F) → (⟨S802816, .f32⟩ : BufTy).Contents (Elt F)),
    StableHlo.binary main_call1_v1 main_call1_v0 main_call1_v2 ((maximumf) : (⟨S802816, .f32⟩ : BufTy).Contents (Elt F) → (⟨S802816, .f32⟩ : BufTy).Contents (Elt F) → (⟨S802816, .f32⟩ : BufTy).Contents (Elt F)),
    StableHlo.unary main_call1_v2 main_call1_v3 (((broadcastInDim S802816x1 ![0] bcast_S802816_S802816x1_0)) : (⟨S802816, .f32⟩ : BufTy).Contents (Elt F) → (⟨S802816x1, .f32⟩ : BufTy).Contents (Elt F)),
    StableHlo.unary main_call1_v3 main_call1_v4 (((broadcastInDim S802816x20 ![0, 1] bcast_S802816x1_S802816x20_0_1)) : (⟨S802816x1, .f32⟩ : BufTy).Contents (Elt F) → (⟨S802816x20, .f32⟩ : BufTy).Contents (Elt F)),
    StableHlo.binary main_v77 main_call1_v4 main_call1_v5 ((subf) : (⟨S802816x20, .f32⟩ : BufTy).Contents (Elt F) → (⟨S802816x20, .f32⟩ : BufTy).Contents (Elt F) → (⟨S802816x20, .f32⟩ : BufTy).Contents (Elt F)),
    StableHlo.unary main_call1_v5 main_call1_v6 ((Host.exp) : (⟨S802816x20, .f32⟩ : BufTy).Contents (Elt F) → (⟨S802816x20, .f32⟩ : BufTy).Contents (Elt F)),
    StableHlo.nullary main_call1_cst_1 (constant S_ .f32 0x00000000#32 : (⟨S_, .f32⟩ : BufTy).Contents (Elt F)),
    StableHlo.binary main_call1_v6 main_call1_cst_1 main_call1_v7 (((fun x v => Host.reduceAdd x v reducesTo_S802816x20_S802816_d1 h_S_)) : (⟨S802816x20, .f32⟩ : BufTy).Contents (Elt F) → (⟨S_, .f32⟩ : BufTy).Contents (Elt F) → (⟨S802816, .f32⟩ : BufTy).Contents (Elt F)),
    StableHlo.unary main_call1_v7 main_call1_v8 (((broadcastInDim S802816x1 ![0] bcast_S802816_S802816x1_0)) : (⟨S802816, .f32⟩ : BufTy).Contents (Elt F) → (⟨S802816x1, .f32⟩ : BufTy).Contents (Elt F)),
    StableHlo.unary main_call1_v8 main_call1_v9 ((Host.log) : (⟨S802816x1, .f32⟩ : BufTy).Contents (Elt F) → (⟨S802816x1, .f32⟩ : BufTy).Contents (Elt F)),
    StableHlo.unary main_call1_v9 main_call1_v10 (((broadcastInDim S802816x20 ![0, 1] bcast_S802816x1_S802816x20_0_1)) : (⟨S802816x1, .f32⟩ : BufTy).Contents (Elt F) → (⟨S802816x20, .f32⟩ : BufTy).Contents (Elt F)),
    StableHlo.binary main_call1_v5 main_call1_v10 main_v81 ((subf) : (⟨S802816x20, .f32⟩ : BufTy).Contents (Elt F) → (⟨S802816x20, .f32⟩ : BufTy).Contents (Elt F) → (⟨S802816x20, .f32⟩ : BufTy).Contents (Elt F)),
    StableHlo.unary main_v80 main_v82 (broadcastInDim S802816x1 ![0] bcast_S802816_S802816x1_0 : (⟨S802816, .i32⟩ : BufTy).Contents (Elt F) → (⟨S802816x1, .i32⟩ : BufTy).Contents (Elt F)),
    StableHlo.nullary main_call2_c (constantI S_ 32 0#32 : (⟨S_, .i32⟩ : BufTy).Contents (Elt F)),
    StableHlo.unary main_call2_c main_call2_v0 (((broadcastInDim S802816x1 ![] bcast_S_S802816x1)) : (⟨S_, .i32⟩ : BufTy).Contents (Elt F) → (⟨S802816x1, .i32⟩ : BufTy).Contents (Elt F)),
    StableHlo.binary main_v82 main_call2_v0 main_call2_v1 (((cmpi .slt)) : (⟨S802816x1, .i32⟩ : BufTy).Contents (Elt F) → (⟨S802816x1, .i32⟩ : BufTy).Contents (Elt F) → (⟨S802816x1, .i1⟩ : BufTy).Contents (Elt F)),
    StableHlo.nullary main_call2_c_0 (constantI S_ 32 20#32 : (⟨S_, .i32⟩ : BufTy).Contents (Elt F)),
    StableHlo.unary main_call2_c_0 main_call2_v2 (((broadcastInDim S802816x1 ![] bcast_S_S802816x1)) : (⟨S_, .i32⟩ : BufTy).Contents (Elt F) → (⟨S802816x1, .i32⟩ : BufTy).Contents (Elt F)),
    StableHlo.binary main_v82 main_call2_v2 main_call2_v3 ((addi) : (⟨S802816x1, .i32⟩ : BufTy).Contents (Elt F) → (⟨S802816x1, .i32⟩ : BufTy).Contents (Elt F) → (⟨S802816x1, .i32⟩ : BufTy).Contents (Elt F)),
    StableHlo.ternary main_call2_v1 main_call2_v3 main_v82 main_call2_v4 ((select) : (⟨S802816x1, .i1⟩ : BufTy).Contents (Elt F) → (⟨S802816x1, .i32⟩ : BufTy).Contents (Elt F) → (⟨S802816x1, .i32⟩ : BufTy).Contents (Elt F) → (⟨S802816x1, .i32⟩ : BufTy).Contents (Elt F)),
    StableHlo.reshape main_call2_v4 main_call2_v5 rfl shapeCasts_S802816x1_S802816x1x1,
    StableHlo.nullary main_call2_c_1 (constantI S1 32 19#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 (((broadcastInDim S802816x1x1 ![] bcast_S_S802816x1x1)) : (⟨S_, .i32⟩ : BufTy).Contents (Elt F) → (⟨S802816x1x1, .i32⟩ : BufTy).Contents (Elt F)),
    StableHlo.binary main_call2_v5 main_call2_v6 main_call2_v7 (((cmpi .sge)) : (⟨S802816x1x1, .i32⟩ : BufTy).Contents (Elt F) → (⟨S802816x1x1, .i32⟩ : BufTy).Contents (Elt F) → (⟨S802816x1x1, .i1⟩ : BufTy).Contents (Elt F)),
    StableHlo.unary main_call2_c_1 main_call2_v8 (((broadcastInDim S1x1x1 ![2] bcast_S1_S1x1x1_2)) : (⟨S1, .i32⟩ : BufTy).Contents (Elt F) → (⟨S1x1x1, .i32⟩ : BufTy).Contents (Elt F)),
    StableHlo.unary main_call2_v8 main_call2_v9 (((broadcastInDim S802816x1x1 ![0, 1, 2] bcast_S1x1x1_S802816x1x1_0_1_2)) : (⟨S1x1x1, .i32⟩ : BufTy).Contents (Elt F) → (⟨S802816x1x1, .i32⟩ : BufTy).Contents (Elt F)),
    StableHlo.binary main_call2_v5 main_call2_v9 main_call2_v10 (((cmpi .sle)) : (⟨S802816x1x1, .i32⟩ : BufTy).Contents (Elt F) → (⟨S802816x1x1, .i32⟩ : BufTy).Contents (Elt F) → (⟨S802816x1x1, .i1⟩ : BufTy).Contents (Elt F)),
    StableHlo.binary main_call2_v7 main_call2_v10 main_call2_v11 ((andi) : (⟨S802816x1x1, .i1⟩ : BufTy).Contents (Elt F) → (⟨S802816x1x1, .i1⟩ : BufTy).Contents (Elt F) → (⟨S802816x1x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 (((fun x v => Host.reduce IntOp.andi x v reducesTo_S802816x1x1_S802816x1_d2 h_S_)) : (⟨S802816x1x1, .i1⟩ : BufTy).Contents (Elt F) → (⟨S_, .i1⟩ : BufTy).Contents (Elt F) → (⟨S802816x1, .i1⟩ : BufTy).Contents (Elt F)),
    StableHlo.binary main_v81 main_call2_v5 main_call2_v13 (((fun x i => Host.gather gather_S802816x20_S802816x1x1_S802816x1_n_1_0_0_1_2_11 x i)) : (⟨S802816x20, .f32⟩ : BufTy).Contents (Elt F) → (⟨S802816x1x1, .i32⟩ : BufTy).Contents (Elt F) → (⟨S802816x1, .f32⟩ : BufTy).Contents (Elt F)),
    StableHlo.nullary main_call2_cst (constant S_ .f32 0x7FC00000#32 : (⟨S_, .f32⟩ : BufTy).Contents (Elt F)),
    StableHlo.unary main_call2_cst main_call2_v14 (((broadcastInDim S802816x1 ![] bcast_S_S802816x1)) : (⟨S_, .f32⟩ : BufTy).Contents (Elt F) → (⟨S802816x1, .f32⟩ : BufTy).Contents (Elt F)),
    StableHlo.ternary main_call2_v12 main_call2_v13 main_call2_v14 main_v83 ((select) : (⟨S802816x1, .i1⟩ : BufTy).Contents (Elt F) → (⟨S802816x1, .f32⟩ : BufTy).Contents (Elt F) → (⟨S802816x1, .f32⟩ : BufTy).Contents (Elt F) → (⟨S802816x1, .f32⟩ : BufTy).Contents (Elt F)),
    StableHlo.nullary main_cst_21 (constant S_ .f32 0x00000000#32),
    StableHlo.binary main_v83 main_cst_21 main_v84 ((fun x v => Host.reduceAdd x v reducesTo_S802816x1_S_d0_1 h_S_) : (⟨S802816x1, .f32⟩ : BufTy).Contents (Elt F) → (⟨S_, .f32⟩ : BufTy).Contents (Elt F) → (⟨S_, .f32⟩ : BufTy).Contents (Elt F)),
    StableHlo.nullary main_cst_22 (constant S_ .f32 0x49440000#32),
    StableHlo.binary main_v84 main_cst_22 main_v85 (Host.divf : (⟨S_, .f32⟩ : BufTy).Contents (Elt F) → (⟨S_, .f32⟩ : BufTy).Contents (Elt F) → (⟨S_, .f32⟩ : BufTy).Contents (Elt F)),
    StableHlo.unary main_v85 main_v86 (Host.negf : (⟨S_, .f32⟩ : BufTy).Contents (Elt F) → (⟨S_, .f32⟩ : BufTy).Contents (Elt F)),
    StableHlo.unary main_v75 main_v87 ((extractStridedSlice S802816x1 ![0, 10] · slices_S802816x30_S802816x1_0_10) : (⟨S802816x30, .f32⟩ : BufTy).Contents (Elt F) → (⟨S802816x1, .f32⟩ : BufTy).Contents (Elt F)),
    StableHlo.reshape main_v87 main_v88 rfl shapeCasts_S802816x1_S802816,
    StableHlo.nullary main_cst_23 (constant S_ .f32 0x00000000#32),
    StableHlo.unary main_cst_23 main_v89 (broadcastInDim S802816 ![] bcast_S_S802816 : (⟨S_, .f32⟩ : BufTy).Contents (Elt F) → (⟨S802816, .f32⟩ : BufTy).Contents (Elt F)),
    StableHlo.binary main_v88 main_v89 main_v90 (cmpf (F := F) .ogt : (⟨S802816, .f32⟩ : BufTy).Contents (Elt F) → (⟨S802816, .f32⟩ : BufTy).Contents (Elt F) → (⟨S802816, .i1⟩ : BufTy).Contents (Elt F)),
    StableHlo.unary main_v90 main_v91 (uitofp (F := F) .f32 : (⟨S802816, .i1⟩ : BufTy).Contents (Elt F) → (⟨S802816, .f32⟩ : BufTy).Contents (Elt F)),
    StableHlo.unary main_v76 main_v92 ((extractStridedSlice S802816x10 ![0, 0] · slices_S802816x30_S802816x10_0_0) : (⟨S802816x30, .f32⟩ : BufTy).Contents (Elt F) → (⟨S802816x10, .f32⟩ : BufTy).Contents (Elt F)),
    StableHlo.reshape main_v92 main_v93 rfl shapeCasts_S802816x10_S802816x2x5,
    StableHlo.unary main_v75 main_v94 ((extractStridedSlice S802816x10 ![0, 0] · slices_S802816x30_S802816x10_0_0) : (⟨S802816x30, .f32⟩ : BufTy).Contents (Elt F) → (⟨S802816x10, .f32⟩ : BufTy).Contents (Elt F)),
    StableHlo.reshape main_v94 main_v95 rfl shapeCasts_S802816x10_S802816x2x5,
    StableHlo.unary main_v93 main_v96 ((extractStridedSlice S802816x2x2 ![0, 0, 0] · slices_S802816x2x5_S802816x2x2_0_0_0) : (⟨S802816x2x5, .f32⟩ : BufTy).Contents (Elt F) → (⟨S802816x2x2, .f32⟩ : BufTy).Contents (Elt F)),
    StableHlo.unary main_v95 main_v97 ((extractStridedSlice S802816x2x2 ![0, 0, 0] · slices_S802816x2x5_S802816x2x2_0_0_0) : (⟨S802816x2x5, .f32⟩ : BufTy).Contents (Elt F) → (⟨S802816x2x2, .f32⟩ : BufTy).Contents (Elt F)),
    StableHlo.binary main_v96 main_v97 main_v98 (subf : (⟨S802816x2x2, .f32⟩ : BufTy).Contents (Elt F) → (⟨S802816x2x2, .f32⟩ : BufTy).Contents (Elt F) → (⟨S802816x2x2, .f32⟩ : BufTy).Contents (Elt F)),
    StableHlo.binary main_v98 main_v98 main_v99 (mulf : (⟨S802816x2x2, .f32⟩ : BufTy).Contents (Elt F) → (⟨S802816x2x2, .f32⟩ : BufTy).Contents (Elt F) → (⟨S802816x2x2, .f32⟩ : BufTy).Contents (Elt F)),
    StableHlo.nullary main_cst_24 (constant S_ .f32 0x00000000#32),
    StableHlo.binary main_v99 main_cst_24 main_v100 ((fun x v => Host.reduceAdd x v reducesTo_S802816x2x2_S802816_d1_2 h_S_) : (⟨S802816x2x2, .f32⟩ : BufTy).Contents (Elt F) → (⟨S_, .f32⟩ : BufTy).Contents (Elt F) → (⟨S802816, .f32⟩ : BufTy).Contents (Elt F)),
    StableHlo.unary main_v93 main_v101 ((extractStridedSlice S802816x2x2 ![0, 0, 2] · slices_S802816x2x5_S802816x2x2_0_0_2) : (⟨S802816x2x5, .f32⟩ : BufTy).Contents (Elt F) → (⟨S802816x2x2, .f32⟩ : BufTy).Contents (Elt F)),
    StableHlo.unary main_v95 main_v102 ((extractStridedSlice S802816x2x2 ![0, 0, 2] · slices_S802816x2x5_S802816x2x2_0_0_2) : (⟨S802816x2x5, .f32⟩ : BufTy).Contents (Elt F) → (⟨S802816x2x2, .f32⟩ : BufTy).Contents (Elt F)),
    StableHlo.binary main_v101 main_v102 main_v103 (subf : (⟨S802816x2x2, .f32⟩ : BufTy).Contents (Elt F) → (⟨S802816x2x2, .f32⟩ : BufTy).Contents (Elt F) → (⟨S802816x2x2, .f32⟩ : BufTy).Contents (Elt F)),
    StableHlo.binary main_v103 main_v103 main_v104 (mulf : (⟨S802816x2x2, .f32⟩ : BufTy).Contents (Elt F) → (⟨S802816x2x2, .f32⟩ : BufTy).Contents (Elt F) → (⟨S802816x2x2, .f32⟩ : BufTy).Contents (Elt F)),
    StableHlo.nullary main_cst_25 (constant S_ .f32 0x00000000#32),
    StableHlo.binary main_v104 main_cst_25 main_v105 ((fun x v => Host.reduceAdd x v reducesTo_S802816x2x2_S802816_d1_2 h_S_) : (⟨S802816x2x2, .f32⟩ : BufTy).Contents (Elt F) → (⟨S_, .f32⟩ : BufTy).Contents (Elt F) → (⟨S802816, .f32⟩ : BufTy).Contents (Elt F)),
    StableHlo.nullary main_cst_26 (constant S_ .f32 0x00000000#32),
    StableHlo.binary main_v91 main_cst_26 main_v106 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.nullary main_cst_27 (constant S_ .f32 0x40800000#32),
    StableHlo.binary main_v106 main_cst_27 main_v107 (mulf : (⟨S_, .f32⟩ : BufTy).Contents (Elt F) → (⟨S_, .f32⟩ : BufTy).Contents (Elt F) → (⟨S_, .f32⟩ : BufTy).Contents (Elt F)),
    StableHlo.binary main_v91 main_v100 main_v108 (mulf : (⟨S802816, .f32⟩ : BufTy).Contents (Elt F) → (⟨S802816, .f32⟩ : BufTy).Contents (Elt F) → (⟨S802816, .f32⟩ : BufTy).Contents (Elt F)),
    StableHlo.nullary main_cst_28 (constant S_ .f32 0x00000000#32),
    StableHlo.binary main_v108 main_cst_28 main_v109 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.binary main_v91 main_v105 main_v110 (mulf : (⟨S802816, .f32⟩ : BufTy).Contents (Elt F) → (⟨S802816, .f32⟩ : BufTy).Contents (Elt F) → (⟨S802816, .f32⟩ : BufTy).Contents (Elt F)),
    StableHlo.nullary main_cst_29 (constant S_ .f32 0x00000000#32),
    StableHlo.binary main_v110 main_cst_29 main_v111 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.binary main_v109 main_v111 main_v112 (addf : (⟨S_, .f32⟩ : BufTy).Contents (Elt F) → (⟨S_, .f32⟩ : BufTy).Contents (Elt F) → (⟨S_, .f32⟩ : BufTy).Contents (Elt F)),
    StableHlo.binary main_v112 main_v107 main_v113 (Host.divf : (⟨S_, .f32⟩ : BufTy).Contents (Elt F) → (⟨S_, .f32⟩ : BufTy).Contents (Elt F) → (⟨S_, .f32⟩ : BufTy).Contents (Elt F)),
    StableHlo.nullary main_cst_30 (constant S_ .f32 0x40A00000#32),
    StableHlo.binary main_cst_30 main_v113 main_v114 (mulf : (⟨S_, .f32⟩ : BufTy).Contents (Elt F) → (⟨S_, .f32⟩ : BufTy).Contents (Elt F) → (⟨S_, .f32⟩ : BufTy).Contents (Elt F)),
    StableHlo.binary main_v86 main_v114 main_v115 (addf : (⟨S_, .f32⟩ : BufTy).Contents (Elt F) → (⟨S_, .f32⟩ : BufTy).Contents (Elt F) → (⟨S_, .f32⟩ : BufTy).Contents (Elt F)) ]

set_option maxRecDepth 65536 in
/-- The same 84 operations: each call-site operation and its restatement have the same buffers and the same function. -/
theorem opsTail_plain : (opsTail : List (HloOp τ sig (Elt F))) = pTail := by chain_rfl

set_option maxRecDepth 8192 in
set_option maxHeartbeats 4000000 in
/-- The result buffer after the whole line is the loss function of the two flattened arrays as they stand after the
    first 105 operations. -/
theorem result_eq (V : Valuation τ sig (Elt F)) :
    after ops V (Proc.devRef .tc main_v115)
      = RV.refTail (F := F) (after opsHead V (Proc.devRef .tc main_v76)) (after opsHead V (Proc.devRef .tc main_v75)) := by
  rw [show (ops : List (HloOp τ sig (Elt F))) = opsHead ++ opsTail from rfl, StableHlo.after_append, opsTail_plain]
  generalize after opsHead V = W
  simp only [pTail]
  after_results_simp
  rfl

end Cert.ReferenceIdeal.Hand

end
-- ==== Proof.RefLocValue.lean ====
/-
  The reference's localisation term, read over the extended reals, as Spec.lean's closed form.

  The term is a chain of host operations over the two flattened arrays (802816 rows of 30).  Read at an index:
  * slot 10 of a target row, compared with 0, converted as an unsigned bit, is the object mask (1 or 0);
  * the first ten slots of a row, viewed as 2 boxes of 5 numbers, put number j of box k at column 5 k + j; cutting
    numbers [o, o + 2) of each box reads column 5 k + o + j;
  * a host sum over the box and number axes of a [rows, 2, 2] array is, at row r, the initial value plus the
    double sum over Fin 2 x Fin 2 (the source indices over r are exactly the (r, k, j): a bijection, no sum over the
    rows is touched);
  * a host sum of a [rows] vector into a scalar is the initial value plus the sum over the rows;
  * the initial values are the zero word, 0.
-/
import proofs.«115196_j11467562680721_1_alg».proof.Proof.RefTailDef
import proofs.«115196_j11467562680721_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Mathlib.Algebra.BigOperators.Fin
import Mathlib.Algebra.BigOperators.Group.Finset.Basic

noncomputable section

namespace Cert.ReferenceIdeal.RV

open Idealize.ShloMosaic
open Cert.ReferenceIdeal Cert.Spec
open Cert.ReferenceIdeal.Facts₀ Cert.ReferenceIdeal.Facts

variable [Facts]

open Idealize.ShloMosaic.ValueIdx Idealize.ShloMosaic.Pipeline

/-! ### Layout operations read at an index -/

section Layout
variable {α : Type}

/-- An [a, 1] column cast to [a] reads, at i, the column at row i. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a, 10] array cast to [a, 2, 5] reads, at (r, k, j), column 5 k + j of row r. -/
theorem shapeCast_a10_a25_apply {a : ℕ} (x : (⟨2, ![a, 10]⟩ : Shape).Idx → α)
    (h : (⟨2, ![a, 10]⟩ : Shape).ShapeCasts ⟨3, ![a, 2, 5]⟩) (r : Fin a) (k : Fin 2) (j : Fin 5) (c : Fin 10)
    (hc : c.val = 5 * k.val + j.val) : shapeCast ⟨3, ![a, 2, 5]⟩ x h (ix3 r k j) = x (ix2 r c) :=
  shapeCast_apply x h _ _ (by
    rw [Shape.rowMajor_val_two, Shape.rowMajor_val_three]
    show r.val * 10 + c.val = (r.val * 2 + k.val) * 5 + j.val
    omega)

/-- A rank-3 array cut along its last axis from o reads, at (r, k, j), the source at (r, k, c) with c = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (k : Fin n1) (j : Fin m) (c : Fin n2) (hc : c.val = o + j.val) :
    extractStridedSlice ⟨3, ![n0, n1, m]⟩ ![0, 0, o] X h (ix3 r k j) = X (ix3 r k c) :=
  extractStridedSlice_apply _ _ _ _ _ (fun ax => by
    match ax with
    | ⟨0, _⟩ => exact (Nat.zero_add _).symm
    | ⟨1, _⟩ => exact (Nat.zero_add _).symm
    | ⟨2, _⟩ => exact hc)

end Layout

/-! ### Host sums read at an index -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : ℕ} (f : (⟨1, ![n]⟩ : Shape).Idx → M) :
    ∑ i, f i = ∑ a : Fin n, f (ix1 a) :=
  (Equiv.sum_comp (idxEquiv1 (n := n)).symm f).symm

/-- A host sum of a vector into a scalar: the initial value plus the sum over the coordinate. -/
theorem hostSum_total_apply {n : ℕ} (x : (⟨1, ![n]⟩ : Shape).Idx → EReal)
    (h : (⟨1, ![n]⟩ : Shape).ReducesTo [0] ⟨0, ![]⟩) (init : EReal) (j : (⟨0, ![]⟩ : Shape).Idx) :
    Ideal.hostReduceAdd h x init j = init + ∑ r : Fin n, x (ix1 r) := by
  rw [Ideal.hostReduceAdd_total h (fun b => b.elim0), sum_idx1]

/-- A host sum of an [n, 2, 2] array over its last two axes: at row r, the initial value plus the double sum. -/
theorem hostSum12_apply {n : ℕ} (x : (⟨3, ![n, 2, 2]⟩ : Shape).Idx → EReal)
    (h : (⟨3, ![n, 2, 2]⟩ : Shape).ReducesTo [1, 2] ⟨1, ![n]⟩) (init : EReal) (r : Fin n) :
    Ideal.hostReduceAdd h x init (ix1 r) = init + ∑ k : Fin 2, ∑ j : Fin 2, x (ix3 r k j) := by
  unfold Ideal.hostReduceAdd
  refine congrArg (init + ·) ?_
  rw [← Fintype.sum_prod_type' (fun k j => x (ix3 r k j))]
  have hrow : ∀ i : (⟨3, ![n, 2, 2]⟩ : Shape).Idx, (h.drop i 0 : ℕ) = i 0 := fun i => rfl
  refine Finset.sum_nbij' (fun i => ((i 1, i 2) : Fin 2 × Fin 2)) (fun p => ix3 r p.1 p.2) ?_ ?_ ?_ ?_ ?_
  · intro i _
    exact Finset.mem_univ _
  · intro p _
    rw [Finset.mem_filter]
    refine ⟨Finset.mem_univ _, ?_⟩
    funext b
    match b with
    | ⟨0, _⟩ => exact Fin.ext (hrow (ix3 r p.1 p.2))
  · intro i hi
    rw [Finset.mem_filter] at hi
    have h0 : (i 0).val = r.val := (hrow i).symm.trans (congrArg (fun z => (z 0).val) hi.2)
    refine Eq.trans ?_ (eq_ix3 i).symm
    funext b
    match b with
    | ⟨0, _⟩ => exact Fin.ext h0.symm
    | ⟨1, _⟩ => rfl
    | ⟨2, _⟩ => rfl
  · intro p _
    rfl
  · intro i hi
    rw [Finset.mem_filter] at hi
    have h0 : (i 0).val = r.val := (hrow i).symm.trans (congrArg (fun z => (z 0).val) hi.2)
    refine congrArg x ?_
    refine Eq.trans (eq_ix3 i) ?_
    funext b
    match b with
    | ⟨0, _⟩ => exact Fin.ext h0
    | ⟨1, _⟩ => rfl
    | ⟨2, _⟩ => rfl

/-! ### The pieces of the term -/

/-- The reference's object mask, per row. -/
def maskV (Tv : FVec Ideal S802816x30 .f32) : FVec Ideal S802816 .f32 :=
  uitofp .f32 (cmpf .ogt
    (shapeCast S802816 (extractStridedSlice S802816x1 ![0, 10] Tv slices_S802816x30_S802816x1_0_10)
      shapeCasts_S802816x1_S802816)
    (broadcastInDim S802816 ![] bcast_S_S802816 (constant (F := Ideal) S_ .f32 0x00000000#32)))

/-- It is Spec's mask: the comparison of slot 10 with 0, as a bit read unsigned. -/
theorem maskV_at (Tv : FVec Ideal S802816x30 .f32) (r : Fin 802816) : maskV Tv (ix1 r) = mask (arr Tv) r := by
  unfold maskV
  show ((((Ideal.cmp .ogt
      (shapeCast S802816 (extractStridedSlice S802816x1 ![0, 10] Tv slices_S802816x30_S802816x1_0_10)
        shapeCasts_S802816x1_S802816 (ix1 r))
      (Ideal.ofBits .f32 0x00000000#32)).toNat : ℝ) : EReal)) = _
  rw [shapeCast_a1_a_apply,
    slice2_axis1_apply 10 Tv slices_S802816x30_S802816x1_0_10 r (0 : Fin 1) (10 : Fin 30) rfl,
    Ideal.ofBits_zero_f32]
  unfold mask Ideal.cmp arr
  by_cases h : 0 < Tv (ix2 r 10)
  · simp [h]
  · simp [h]

/-- Numbers [o, o + 2) of the two boxes of each row: the first ten slots viewed as 2 boxes of 5, cut. -/
def boxV (o : ℕ) (hs : S802816x2x5.Slices ![0, 0, o] S802816x2x2) (X : FVec Ideal S802816x30 .f32) :
    FVec Ideal S802816x2x2 .f32 :=
  extractStridedSlice S802816x2x2 ![0, 0, o]
    (shapeCast S802816x2x5 (extractStridedSlice S802816x10 ![0, 0] X slices_S802816x30_S802816x10_0_0)
      shapeCasts_S802816x10_S802816x2x5) hs

/-- Read at (r, k, j): column 5 k + o + j of row r. -/
theorem boxV_at (o : ℕ) (hs : S802816x2x5.Slices ![0, 0, o] S802816x2x2) (ho : o + 2 ≤ 5)
    (X : FVec Ideal S802816x30 .f32) (r : Fin 802816) (k j : Fin 2) (c : Fin 30)
    (hc : c.val = 5 * k.val + o + j.val) : boxV o hs X (ix3 r k j) = X (ix2 r c) := by
  unfold boxV
  refine (slice3_axis2_apply o _ hs r k j (⟨o + j.val, by omega⟩ : Fin 5) rfl).trans ?_
  refine (shapeCast_a10_a25_apply _ shapeCasts_S802816x10_S802816x2x5 r k ⟨o + j.val, by omega⟩
    (⟨5 * k.val + (o + j.val), by omega⟩ : Fin 10) rfl).trans ?_
  refine slice2_axis1_apply 0 X slices_S802816x30_S802816x10_0_0 r _ c ?_
  show c.val = 0 + (5 * k.val + (o + j.val))
  omega

/-- The squared error of numbers [o, o + 2) of the two boxes, per row. -/
def seV (o : ℕ) (hs : S802816x2x5.Slices ![0, 0, o] S802816x2x2) (Pv Tv : FVec Ideal S802816x30 .f32) :
    FVec Ideal S802816 .f32 :=
  Host.reduceAdd (mulf (subf (boxV o hs Pv) (boxV o hs Tv)) (subf (boxV o hs Pv) (boxV o hs Tv)))
    (constant (F := Ideal) S_ .f32 0x00000000#32) reducesTo_S802816x2x2_S802816_d1_2 h_S_

theorem seV_at (o : ℕ) (hs : S802816x2x5.Slices ![0, 0, o] S802816x2x2) (ho : o + 2 ≤ 5)
    (Pv Tv : FVec Ideal S802816x30 .f32) (r : Fin 802816) :
    seV o hs Pv Tv (ix1 r)
      = ∑ k : Fin 2, ∑ j : Fin 2, sqd (arr Pv) (arr Tv) r ⟨5 * k.val + o + j.val, by omega⟩ := by
  unfold seV
  show Ideal.hostReduceAdd reducesTo_S802816x2x2_S802816_d1_2 _ (Ideal.ofBits .f32 0x00000000#32) (ix1 r) = _
  rw [hostSum12_apply, Ideal.ofBits_zero_f32, zero_add]
  refine Finset.sum_congr rfl (fun k _ => Finset.sum_congr rfl (fun j _ => ?_))
  rw [mulf_apply, subf_apply, boxV_at o hs ho Pv r k j ⟨5 * k.val + o + j.val, by omega⟩ rfl,
    boxV_at o hs ho Tv r k j ⟨5 * k.val + o + j.val, by omega⟩ rfl]
  rfl

/-- A host sum of a per-row vector from the zero word: the sum over the rows. -/
theorem hostTotal0_apply (v : FVec Ideal S802816 .f32) (i : S_.Idx) :
    Host.reduceAdd v (constant (F := Ideal) S_ .f32 0x00000000#32) reducesTo_S802816_S_d0 h_S_ i
      = ∑ r : Fin 802816, v (ix1 r) := by
  show Ideal.hostReduceAdd reducesTo_S802816_S_d0 v (Ideal.ofBits .f32 0x00000000#32) i = _
  rw [hostSum_total_apply, Ideal.ofBits_zero_f32, zero_add]

/-! ### The term -/

/-- The host's division at an index is the extended reals' division with corners. -/
theorem hostDivf_apply {s : Shape} (x y : FVec Ideal s .f32) (i : s.Idx) :
    Host.divf x y i = Ideal.div (x i) (y i) := rfl

theorem locTerm_eq (Pv Tv : FVec Ideal S802816x30 .f32) :
    locTerm (F := Ideal) Pv Tv = fun _ =>
      Ideal.div ((∑ r : Fin 802816, mask (arr Tv) r * seXY (arr Pv) (arr Tv) r)
          + (∑ r : Fin 802816, mask (arr Tv) r * seWH (arr Pv) (arr Tv) r))
        ((∑ r : Fin 802816, mask (arr Tv) r) * c4) := by
  have hdef : locTerm (F := Ideal) Pv Tv = Host.divf
      (addf
        (Host.reduceAdd (mulf (maskV Tv) (seV 0 slices_S802816x2x5_S802816x2x2_0_0_0 Pv Tv))
          (constant (F := Ideal) S_ .f32 0x00000000#32) reducesTo_S802816_S_d0 h_S_)
        (Host.reduceAdd (mulf (maskV Tv) (seV 2 slices_S802816x2x5_S802816x2x2_0_0_2 Pv Tv))
          (constant (F := Ideal) S_ .f32 0x00000000#32) reducesTo_S802816_S_d0 h_S_))
      (mulf (Host.reduceAdd (maskV Tv) (constant (F := Ideal) S_ .f32 0x00000000#32) reducesTo_S802816_S_d0 h_S_)
        (constant (F := Ideal) S_ .f32 0x40800000#32)) := rfl
  rw [hdef]
  funext i
  rw [hostDivf_apply, addf_apply, mulf_apply, hostTotal0_apply, hostTotal0_apply, hostTotal0_apply, constant_apply]
  have h1 : ∀ r : Fin 802816, mulf (maskV Tv) (seV 0 slices_S802816x2x5_S802816x2x2_0_0_0 Pv Tv) (ix1 r)
      = mask (arr Tv) r * seXY (arr Pv) (arr Tv) r := fun r => by
    rw [mulf_apply, maskV_at, seV_at 0 slices_S802816x2x5_S802816x2x2_0_0_0 (by omega)]
    rfl
  have h2 : ∀ r : Fin 802816, mulf (maskV Tv) (seV 2 slices_S802816x2x5_S802816x2x2_0_0_2 Pv Tv) (ix1 r)
      = mask (arr Tv) r * seWH (arr Pv) (arr Tv) r := fun r => by
    rw [mulf_apply, maskV_at, seV_at 2 slices_S802816x2x5_S802816x2x2_0_0_2 (by omega)]
    rfl
  rw [Finset.sum_congr rfl (fun r _ => h1 r), Finset.sum_congr rfl (fun r _ => h2 r),
    Finset.sum_congr rfl (fun r _ => maskV_at Tv r)]
  rfl

end Cert.ReferenceIdeal.RV

end
-- ==== Proof.RefTakeValue.lean ====
/-
  The reference's pick of one entry per row (take_along_axis along the class axis), read at a row whose index is a
  class: the index is then not negative, so it is kept as it is; it lies in [0, 19], so the in-range mask is 1 and the
  filled value is not used; and the gather's clamp of it into [0, 19] is the identity, so the row's entry at that class
  is what is read.
-/
import proofs.«115196_j11467562680721_1_alg».proof.Proof.RefTailDef
import Idealize.ShloMosaic.Lib.ValueIdx
import Idealize.ShloMosaic.Lib.Pipeline.Value
import Idealize.ShloMosaic.PureOps.Reduce

noncomputable section

namespace Cert.ReferenceIdeal.RV

open Idealize.ShloMosaic Idealize.ShloMosaic.ValueIdx
open Cert.ReferenceIdeal
open Cert.ReferenceIdeal.Facts₀ Cert.ReferenceIdeal.Facts

/-! ## Words -/

/-- A 32-bit word with unsigned value below 20 is the same integer read signed. -/
theorem take_toInt_of_lt (w : BitVec 32) (h : w.toNat < 20) : w.toInt = (w.toNat : Int) := by
  rw [BitVec.toInt_eq_toNat_cond, if_pos (by omega)]

/-- Such a word is not negative, -/
theorem take_slt_zero (w : BitVec 32) (h : w.toNat < 20) : IntOp.cmpi .slt w 0#32 = 0#1 := by
  have e := take_toInt_of_lt w h
  have e0 : (0#32 : BitVec 32).toInt = 0 := by decide
  simp only [IntOp.cmpi, BitVec.slt, e, e0]
  have : ¬ ((w.toNat : Int) < 0) := by omega
  simp [this]

/-- is at least 0, -/
theorem take_sge_zero (w : BitVec 32) (h : w.toNat < 20) : IntOp.cmpi .sge w 0#32 = 1#1 := by
  have e := take_toInt_of_lt w h
  have e0 : (0#32 : BitVec 32).toInt = 0 := by decide
  simp only [IntOp.cmpi, BitVec.sle, e, e0]
  have : (0 : Int) ≤ (w.toNat : Int) := by omega
  simp [this]

/-- and at most 19, all read signed. -/
theorem take_sle_nineteen (w : BitVec 32) (h : w.toNat < 20) : IntOp.cmpi .sle w 19#32 = 1#1 := by
  have e := take_toInt_of_lt w h
  have e19 : (19#32 : BitVec 32).toInt = 19 := by decide
  simp only [IntOp.cmpi, BitVec.sle, e, e19]
  have : (w.toNat : Int) ≤ 19 := by omega
  simp [this]

/-- The clamp of its signed value into [0, 19] is its unsigned value. -/
theorem take_clamp (w : BitVec 32) (h : w.toNat < 20) : min w.toInt.toNat (20 - 1) = w.toNat := by
  rw [take_toInt_of_lt w h, Int.toNat_natCast]; omega

/-! ## A reduction by `and` of an all-ones array -/

theorem take_foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    rw [List.foldl_cons]
    refine take_foldl_andi_one f l _ ?_ (fun n hn => hl n (List.mem_cons_of_mem _ hn))
    rw [hi, hl a List.mem_cons_self]; rfl

/-- A reduce by `and` from 1 is 1 at `j` when every operand element that reduces into `j` is 1. -/
theorem take_reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine take_foldl_andi_one x _ _ hinit fun i hi => hx i ?_
  simpa using (List.mem_filter.1 hi).2

variable [Facts]

local notation "dG" => gather_S802816x20_S802816x1x1_S802816x1_n_1_0_0_1_2_11

/-! ## Reads at a row -/

section Reads
variable {α : Type}

/-- An index of the [802816, 1, 1] shape is its row and two zeros. -/
theorem take_idx3_eq (i : S802816x1x1.Idx) : i = ix3 (i 0) (0 : Fin 1) (0 : Fin 1) := by
  funext a
  match a with
  | ⟨0, _⟩ => rfl
  | ⟨1, _⟩ => exact Fin.ext (by have h := (i ⟨1, by decide⟩).isLt; change _ < 1 at h; show (i ⟨1, _⟩).val = 0; omega)
  | ⟨2, _⟩ => exact Fin.ext (by have h := (i ⟨2, by decide⟩).isLt; change _ < 1 at h; show (i ⟨2, _⟩).val = 0; omega)

/-- Adding a trailing unit axis: position (r, 0, 0) reads position (r, 0). -/
theorem take_cast3_at (x : S802816x1.Idx → α) (hc : S802816x1.ShapeCasts S802816x1x1) (r : Fin 802816) :
    shapeCast S802816x1x1 x hc (ix3 r (0 : Fin 1) (0 : Fin 1)) = x (ix2 r (0 : Fin 1)) := by
  refine shapeCast_apply x hc _ _ ?_
  rw [Shape.rowMajor_val_two, Shape.rowMajor_val_three]
  show r.val * 1 + 0 = (r.val * 1 + 0) * 1 + 0
  omega

/-- The take along the class axis: result row r reads the operand's row r at the column the start index names, when that
    index, read unsigned, is a column. -/
theorem take_gather_at (L : S802816x20.Idx → α) (idx : IVec S802816x1x1 32) (r : Fin 802816) (v : BitVec 32)
    (hv : idx (ix3 r (0 : Fin 1) (0 : Fin 1)) = v) (h : v.toNat < 20) :
    Host.gather dG L idx (ix2 r (0 : Fin 1)) = L (ix2 r ⟨v.toNat, h⟩) := by
  subst hv
  unfold Host.gather
  congr 1
  funext a
  refine Fin.ext ?_
  match a with
  | ⟨0, h0⟩ =>
    show (dG).start (ix2 r (0 : Fin 1)) idx ⟨0, h0⟩ + (dG).batchCoord (ix2 r (0 : Fin 1)) ⟨0, h0⟩ + (dG).offCoord (ix2 r (0 : Fin 1)) ⟨0, h0⟩ = r.val
    have e1 : (dG).start (ix2 r (0 : Fin 1)) idx ⟨0, h0⟩ = 0 := rfl
    have e2 : (dG).batchCoord (ix2 r (0 : Fin 1)) ⟨0, h0⟩ = r.val := rfl
    have e3 : (dG).offCoord (ix2 r (0 : Fin 1)) ⟨0, h0⟩ = 0 := rfl
    rw [e1, e2, e3]; omega
  | ⟨1, h1⟩ =>
    show (dG).start (ix2 r (0 : Fin 1)) idx ⟨1, h1⟩ + (dG).batchCoord (ix2 r (0 : Fin 1)) ⟨1, h1⟩ + (dG).offCoord (ix2 r (0 : Fin 1)) ⟨1, h1⟩
      = (idx (ix3 r (0 : Fin 1) (0 : Fin 1))).toNat
    have e1 : (dG).start (ix2 r (0 : Fin 1)) idx ⟨1, h1⟩
        = min (idx ((dG).siIdx (ix2 r (0 : Fin 1)) ⟨0, Nat.one_pos⟩)).toInt.toNat (20 - 1) := rfl
    have e2 : (dG).batchCoord (ix2 r (0 : Fin 1)) ⟨1, h1⟩ = 0 := rfl
    have e3 : (dG).offCoord (ix2 r (0 : Fin 1)) ⟨1, h1⟩ = 0 := rfl
    have hsi : (dG).siIdx (ix2 r (0 : Fin 1)) ⟨0, Nat.one_pos⟩ = ix3 r (0 : Fin 1) (0 : Fin 1) := by
      funext c
      match c with
      | ⟨0, _⟩ => rfl
      | ⟨1, _⟩ => rfl
      | ⟨2, _⟩ => rfl
    rw [e1, e2, e3, hsi, take_clamp _ h]; omega

end Reads

/-! ## The pick of one entry per row -/

/-- The class indices as the gather reads them: a negative index counted from the end, then a trailing unit axis. -/
def takeNormIx (ix : IVec S802816x1 32) : IVec S802816x1x1 32 :=
  shapeCast S802816x1x1
    (select (cmpi .slt ix (broadcastInDim S802816x1 ![] bcast_S_S802816x1 (constantI S_ 32 0#32)))
      (addi ix (broadcastInDim S802816x1 ![] bcast_S_S802816x1 (constantI S_ 32 20#32))) ix)
    shapeCasts_S802816x1_S802816x1x1

/-- A row whose index is a class keeps it. -/
theorem takeNormIx_apply (ix : IVec S802816x1 32) (r : Fin 802816) (h : (ix (ix2 r (0 : Fin 1))).toNat < 20) :
    takeNormIx ix (ix3 r (0 : Fin 1) (0 : Fin 1)) = ix (ix2 r (0 : Fin 1)) := by
  unfold takeNormIx
  rw [take_cast3_at]
  show Scalar.select (IntOp.cmpi .slt (ix (ix2 r (0 : Fin 1))) 0#32) _ (ix (ix2 r (0 : Fin 1))) = _
  rw [take_slt_zero _ h, select_zero]

/-- THE PICK, AT A ROW WHOSE INDEX IS A CLASS: the row's entry at that class (the index is not negative, lies in [0, 19],
    so the mask is 1 and the clamp of the gather is the identity). -/
theorem takeTerm_apply (L : FVec Ideal S802816x20 .f32) (ix : IVec S802816x1 32) (r : Fin 802816)
    (h : (ix (ix2 r (0 : Fin 1))).toNat < 20) :
    takeTerm (F := Ideal) L ix (ix2 r (0 : Fin 1)) = L (ix2 r ⟨(ix (ix2 r (0 : Fin 1))).toNat, h⟩) := by
  have hn := takeNormIx_apply ix r h
  unfold takeTerm
  dsimp only
  rw [← takeNormIx.eq_1 ix, select_apply]
  rw [take_reduce_andi_one _ _ _ _ _ rfl (fun i hi => by
    have h0 : i 0 = r := by
      have hv : ((reducesTo_S802816x1x1_S802816x1_d2.drop i) 0 : Nat) = i 0 := Shape.ReducesTo.drop_apply_val _ i 0
      rw [hi] at hv
      exact Fin.ext hv.symm
    rw [take_idx3_eq i, h0]
    show IntOp.andi (IntOp.cmpi .sge (takeNormIx ix (ix3 r (0 : Fin 1) (0 : Fin 1))) 0#32)
      (IntOp.cmpi .sle (takeNormIx ix (ix3 r (0 : Fin 1) (0 : Fin 1))) 19#32) = 1#1
    rw [hn, take_sge_zero _ h, take_sle_nineteen _ h]
    rfl), select_one]
  exact take_gather_at L (takeNormIx ix) r _ hn h

end Cert.ReferenceIdeal.RV

end
-- ==== Proof.RefTailValue.lean ====
/-
  The class term of the reference's last stretch, at the extended reals, is minus the mean of the picked
  log-softmax values; with the localisation term's value this gives the whole stretch's value, Rval.

  The stretch is read stage by stage at an index: the class scores are columns 10 … 29 of a row; the row maximum is a
  fold of max from -∞ (taking the maximum with -∞ once more changes nothing); the shifted scores, their exponentials'
  sum, its logarithm and the difference give logp.  The class index, a 32-bit word below 20, picks logp r (ct r) in
  row r.  The sum of the 802816 picked entries (one column) is a sum over the rows.
-/
import proofs.«115196_j11467562680721_1_alg».proof.Proof.RefTailDef
import proofs.«115196_j11467562680721_1_alg».proof.Proof.RefLocValue
import proofs.«115196_j11467562680721_1_alg».proof.Proof.RefTakeValue
import Mathlib.Algebra.BigOperators.Fin
import Idealize.ShloMosaic.Lib.ValueLayout
import Idealize.ShloMosaic.Lib.ValueIdxCoords
import Idealize.ShloMosaic.Lib.IdealHost
import Idealize.ShloMosaic.PureOps.Ideal.Laws
import Idealize.ShloMosaic.PureOps.Reduce

noncomputable section

namespace Cert.ReferenceIdeal.RV

open Idealize.ShloMosaic Idealize.ShloMosaic.ValueIdx
open Cert.ReferenceIdeal Cert.Spec
open Cert.ReferenceIdeal.Facts₀ Cert.ReferenceIdeal.Facts

variable [Facts]

/-! ## Layout operations and one-axis reductions read at an index, at any extents -/

section Generic
variable {α : Type}

/-- A vector laid down a column: entry (r, u) is the vector's entry r. -/
theorem bcast_a_a1_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) :=
  broadcastInDim_apply _ h v _ _ (fun a => by
    match a with
    | ⟨0, _⟩ =>
      show r.val = if n = 1 then 0 else r.val
      have := r.isLt
      split <;> omega)

/-- A column repeated along m columns: entry (r, c) is the column's entry (r, 0). -/
theorem bcast_a1_ab_apply {n m : ℕ} (h : (⟨2, ![n, 1]⟩ : Shape).BroadcastsInDim ⟨2, ![n, m]⟩ ![0, 1])
    (v : (⟨2, ![n, 1]⟩ : Shape).Idx → α) (r : Fin n) (c : Fin m) :
    broadcastInDim ⟨2, ![n, m]⟩ ![0, 1] h v (ix2 r c) = v (ix2 r (0 : Fin 1)) :=
  broadcastInDim_apply _ h v _ _ (fun a => by
    match a with
    | ⟨0, _⟩ =>
      show r.val = if n = 1 then 0 else r.val
      have := r.isLt
      split <;> omega
    | ⟨1, _⟩ =>
      show (0 : ℕ) = if (1 : ℕ) = 1 then 0 else c.val
      rw [if_pos rfl])

/-- Row r of an [n, m] array with coordinate k put back on the dropped column axis. -/
theorem lift_col {n m : ℕ} (h : (⟨2, ![n, m]⟩ : Shape).Reduces [1] ⟨1, ![n]⟩) (r : Fin n) (k : Fin m) :
    h.lift (ix1 r) k = ix2 r k := by
  funext a
  match a with
  | ⟨0, _⟩ => rfl
  | ⟨1, _⟩ => rfl

/-- The host's maximum along the columns of an [n, m] array of extended reals: at row r, the fold of max from the
    initial value over the row's entries. -/
theorem hostMax_cols_apply {n m : ℕ} (x : (⟨2, ![n, m]⟩ : Shape).Idx → EReal) (init : (⟨0, ![]⟩ : Shape).Idx → EReal)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (r : Fin n) :
    Host.reduce (FloatOps.maximumf (F := Ideal) (φ := .f32)) x init h' hu (ix1 r)
      = (Finset.univ : Finset (Fin m)).fold max (init (Shape.Idx.first hu)) (fun c => x (ix2 r c)) := by
  rw [Host.reduce_eq_fold_single (FloatOps.maximumf (F := Ideal) (φ := .f32)) x init h' h hu (ix1 r)]
  have e : (x ∘ h.lift (ix1 r)) = fun c : Fin m => x (ix2 r c) := by
    funext c
    exact congrArg x (lift_col h r c)
  rw [e]
  rfl

/-- The host's sum along the columns of an [n, m] array of extended reals: at row r, the initial value plus the sum
    of the row's entries. -/
theorem hostSum_cols_apply {n m : ℕ} (x : (⟨2, ![n, m]⟩ : Shape).Idx → EReal) (init : EReal)
    (h' : (⟨2, ![n, m]⟩ : Shape).ReducesTo [1] ⟨1, ![n]⟩) (h : (⟨2, ![n, m]⟩ : Shape).Reduces [1] ⟨1, ![n]⟩) (r : Fin n) :
    Ideal.hostReduceAdd h' x init (ix1 r) = init + ∑ c : Fin m, x (ix2 r c) := by
  rw [Ideal.hostReduceAdd_single h' h]
  refine congrArg (init + ·) ?_
  exact Finset.sum_congr rfl (fun c _ => congrArg x (lift_col h r c))

/-- The host's sum of a one-column array into a scalar: the initial value plus the sum over the rows. -/
theorem hostSum_col_total_apply {n : ℕ} (x : (⟨2, ![n, 1]⟩ : Shape).Idx → EReal)
    (h : (⟨2, ![n, 1]⟩ : Shape).ReducesTo [0, 1] ⟨0, ![]⟩) (init : EReal) (j : (⟨0, ![]⟩ : Shape).Idx) :
    Ideal.hostReduceAdd h x init j = init + ∑ r : Fin n, x (ix2 r (0 : Fin 1)) := by
  rw [Ideal.hostReduceAdd_total h (fun b => b.elim0), sum_idx2]
  refine congrArg (init + ·) ?_
  refine Finset.sum_congr rfl (fun r _ => ?_)
  rw [Fin.sum_univ_one]

end Generic

/-! ## Elementwise host operations at an index -/

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem hostDivf_at {s : Shape} (x y : FVec Ideal s .f32) (i : s.Idx) : Host.divf x y i = Ideal.div (x i) (y i) := rfl
theorem hostNegf_apply {s : Shape} (x : FVec Ideal s .f32) (i : s.Idx) : Host.negf x i = -(x i) := rfl
theorem fptosi32_apply {s : Shape} (x : FVec Ideal s .f32) (i : s.Idx) :
    (fptosi 32 x : IVec s 32) i = Ideal.fptosi 32 (x i) := rfl

/-- A column read as a vector: entry r is the column's entry (r, 0). -/
theorem shapeCast_col_apply {α : Type} {n : ℕ} (x : (⟨2, ![n, 1]⟩ : Shape).Idx → α)
    (h : (⟨2, ![n, 1]⟩ : Shape).ShapeCasts ⟨1, ![n]⟩) (r : Fin n) :
    shapeCast ⟨1, ![n]⟩ x h (ix1 r) = x (ix2 r (0 : Fin 1)) :=
  shapeCast_apply x h _ _ (by
    rw [Shape.rowMajor_val_two, Shape.rowMajor_val_one]
    show r.val * 1 + 0 = r.val
    omega)

/-! ## The log-softmax of the class scores, read at (r, c) -/

/-- Dropping the class axis of a [802816, 20] array leaves [802816]. -/
theorem red20 : S802816x20.Reduces [1] S802816 := by decide

/-- The word of -∞ is the extended reals' bottom. -/
theorem ninf_word : Ideal.ofBits .f32 0xFF800000#32 = ⊥ := by simp [Ideal.ofBits, Ideal.ieee]

/-- The row maximum, taken once more with -∞ (the log-softmax's %2). -/
def rmax (X : FVec Ideal S802816x20 .f32) : FVec Ideal S802816 .f32 :=
  maximumf (broadcastInDim S802816 ![] bcast_S_S802816 (constant (F := Ideal) S_ .f32 0xFF800000#32))
    (Host.reduce FloatOps.maximumf X (constant (F := Ideal) S_ .f32 0xFF800000#32) reducesTo_S802816x20_S802816_d1 h_S_)

/-- The scores less their row's maximum (the log-softmax's %5). -/
def shf (X : FVec Ideal S802816x20 .f32) : FVec Ideal S802816x20 .f32 :=
  subf X (broadcastInDim S802816x20 ![0, 1] bcast_S802816x1_S802816x20_0_1
    (broadcastInDim S802816x1 ![0] bcast_S802816_S802816x1_0 (rmax X)))

/-- The row sums of the exponentials (the log-softmax's %7). -/
def lsum (X : FVec Ideal S802816x20 .f32) : FVec Ideal S802816 .f32 :=
  Host.reduceAdd (Host.exp (shf X)) (constant (F := Ideal) S_ .f32 0x00000000#32) reducesTo_S802816x20_S802816_d1 h_S_

/-- The log-softmax is these stages composed. -/
theorem lsmTerm_stages (X : FVec Ideal S802816x20 .f32) :
    lsmTerm (F := Ideal) X
      = subf (shf X) (broadcastInDim S802816x20 ![0, 1] bcast_S802816x1_S802816x20_0_1
          (Host.log (broadcastInDim S802816x1 ![0] bcast_S802816_S802816x1_0 (lsum X)))) := rfl

/-- The row maximum of the stretch is the fold of max from -∞ over the row's 20 entries. -/
theorem rmax_apply (X : FVec Ideal S802816x20 .f32) (r : Fin 802816) :
    rmax X (ix1 r) = (Finset.univ : Finset (Fin 20)).fold max ⊥ (fun c => X (ix2 r c)) := by
  unfold rmax
  rw [maximumf_apply, broadcastInDim_scalar_apply, constant_apply, ninf_word, max_eq_right bot_le]
  refine (hostMax_cols_apply X _ reducesTo_S802816x20_S802816_d1 red20 h_S_ r).trans ?_
  rw [constant_apply, ninf_word]

theorem shf_apply (X : FVec Ideal S802816x20 .f32) (r : Fin 802816) (c : Fin 20) :
    shf X (ix2 r c) = X (ix2 r c) - (Finset.univ : Finset (Fin 20)).fold max ⊥ (fun c => X (ix2 r c)) := by
  unfold shf
  rw [subf_apply, bcast_a1_ab_apply, bcast_a_a1_apply, rmax_apply]

theorem lsum_apply (X : FVec Ideal S802816x20 .f32) (r : Fin 802816) :
    lsum X (ix1 r) = ∑ c : Fin 20, Ideal.exp (shf X (ix2 r c)) := by
  unfold lsum
  rw [hostReduceAdd_apply, hostSum_cols_apply _ _ reducesTo_S802816x20_S802816_d1 red20 r, constant_apply,
    Ideal.ofBits_zero_f32, zero_add]
  rfl

/-- The log-softmax at (r, c): the shifted score less the logarithm of the row's sum of exponentials. -/
theorem lsmTerm_apply (X : FVec Ideal S802816x20 .f32) (r : Fin 802816) (c : Fin 20) :
    lsmTerm (F := Ideal) X (ix2 r c)
      = shf X (ix2 r c) - Ideal.log (∑ c' : Fin 20, Ideal.exp (shf X (ix2 r c'))) := by
  rw [lsmTerm_stages, subf_apply, bcast_a1_ab_apply, hostLog_apply, bcast_a_a1_apply, lsum_apply]

/-! ## The class scores and the class index -/

/-- The class scores: columns 10 … 29 of the predictions' cells (%77). -/
def scores (Pv : FVec Ideal S802816x30 .f32) : FVec Ideal S802816x20 .f32 :=
  extractStridedSlice S802816x20 ![0, 10] Pv slices_S802816x30_S802816x20_0_10

/-- The class index of each row: slot 10 of the targets' cells, truncated (%80). -/
def cidx (Tv : FVec Ideal S802816x30 .f32) : IVec S802816 32 :=
  fptosi 32 (shapeCast S802816 (extractStridedSlice S802816x1 ![0, 10] Tv slices_S802816x30_S802816x1_0_10)
    shapeCasts_S802816x1_S802816)

theorem scores_apply (Pv : FVec Ideal S802816x30 .f32) (r : Fin 802816) (c : Fin 20) :
    scores Pv (ix2 r c) = arr Pv r (cls c) :=
  slice2_axis1_apply 10 Pv slices_S802816x30_S802816x20_0_10 r c (cls c) rfl

theorem cidx_apply (Tv : FVec Ideal S802816x30 .f32) (r : Fin 802816) : cidx Tv (ix1 r) = ctgt (arr Tv) r := by
  unfold cidx
  rw [fptosi32_apply, shapeCast_col_apply,
    slice2_axis1_apply 10 Tv slices_S802816x30_S802816x1_0_10 r (0 : Fin 1) (10 : Fin 30) rfl]
  rfl

/-- The log-softmax of the class scores is Spec's logp. -/
theorem lsm_scores (Pv : FVec Ideal S802816x30 .f32) (r : Fin 802816) (c : Fin 20) :
    lsmTerm (F := Ideal) (scores Pv) (ix2 r c) = logp (arr Pv) r c := by
  have hs : ∀ c', shf (scores Pv) (ix2 r c') = shifted (arr Pv) r c' := by
    intro c'
    rw [shf_apply]
    simp only [scores_apply]
    rfl
  rw [lsmTerm_apply]
  simp only [hs]
  rfl

/-! ## The class term -/

/-- The class term is the stages composed: the picked entries summed, divided by the number of rows, negated. -/
theorem classTerm_stages (Pv Tv : FVec Ideal S802816x30 .f32) :
    classTerm (F := Ideal) Pv Tv
      = Host.negf (Host.divf
          (Host.reduceAdd
            (takeTerm (lsmTerm (scores Pv)) (broadcastInDim S802816x1 ![0] bcast_S802816_S802816x1_0 (cidx Tv)))
            (constant (F := Ideal) S_ .f32 0x00000000#32) reducesTo_S802816x1_S_d0_1 h_S_)
          (constant (F := Ideal) S_ .f32 0x49440000#32)) := rfl

/-- The entry picked in row r is Spec's pick: logp at the row's class index, which is a class. -/
theorem picked_apply (Pv Tv : FVec Ideal S802816x30 .f32) (hct : ∀ r, (ctgt (arr Tv) r).toNat < 20) (r : Fin 802816) :
    takeTerm (F := Ideal) (lsmTerm (scores Pv)) (broadcastInDim S802816x1 ![0] bcast_S802816_S802816x1_0 (cidx Tv))
      (ix2 r (0 : Fin 1)) = pick (arr Pv) (arr Tv) r := by
  have hi : broadcastInDim S802816x1 ![0] bcast_S802816_S802816x1_0 (cidx Tv) (ix2 r (0 : Fin 1)) = ctgt (arr Tv) r := by
    rw [bcast_a_a1_apply, cidx_apply]
  have h : (broadcastInDim S802816x1 ![0] bcast_S802816_S802816x1_0 (cidx Tv) (ix2 r (0 : Fin 1))).toNat < 20 := by
    rw [hi]; exact hct r
  rw [takeTerm_apply _ _ r h, lsm_scores]
  unfold pick
  rw [dif_pos (hct r)]
  exact congrArg (logp (arr Pv) r) (Fin.ext (congrArg BitVec.toNat hi))

/-- The class term at the extended reals: minus the mean of the picked values. -/
theorem classTerm_eq (Pv Tv : FVec Ideal S802816x30 .f32) (hct : ∀ r, (ctgt (arr Tv) r).toNat < 20) :
    classTerm (F := Ideal) Pv Tv = fun _ => -(Ideal.div (∑ r : Fin 802816, pick (arr Pv) (arr Tv) r) cN) := by
  rw [classTerm_stages]
  funext j
  rw [hostNegf_apply, hostDivf_at, hostReduceAdd_apply, hostSum_col_total_apply, constant_apply, constant_apply,
    Ideal.ofBits_zero_f32, zero_add]
  simp only [picked_apply Pv Tv hct]
  rfl

/-! ## The whole stretch -/

/-- The reference's last stretch computes Rval of the two arrays. -/
theorem refTail_eq (Pv Tv : FVec Ideal S802816x30 .f32) (hct : ∀ r, (ctgt (arr Tv) r).toNat < 20) :
    refTail (F := Ideal) Pv Tv = fun _ => Rval (arr Pv) (arr Tv) := by
  unfold refTail
  funext j
  rw [addf_apply, mulf_apply, constant_apply, classTerm_eq Pv Tv hct, locTerm_eq Pv Tv]
  rfl

end Cert.ReferenceIdeal.RV

end
-- ==== Proof.LibScatterSet.lean ====
/-
  A scatter whose body returns the update ("set"), read at one entry of the result.

  The scatter is a left fold over the update indices: each update that lands inside the operand overwrites the entry
  it lands on, the others are dropped.  Read at one entry this is: the update that lands there, when exactly one does;
  the operand's entry, when none does.
-/
import Idealize.ShloMosaic.PureOps.ShapeOps

namespace Idealize.ShloMosaic.ScatterSet

open Idealize.ShloMosaic

section fold

variable {ι κ α : Type} [DecidableEq ι]

/-- One overwriting step: update `n` lands at `g n` (nowhere when `none`) and carries the value `v n`. -/
def step (g : κ → Option ι) (v : κ → α) (r : ι → α) (n : κ) : ι → α :=
  match g n with
  | some i => fun i' => if i' = i then v n else r i'
  | none => r

/-- A step that does not land on `i'` leaves that entry alone. -/
theorem step_apply_of_ne (g : κ → Option ι) (v : κ → α) (r : ι → α) (n : κ) (i' : ι) (h : g n ≠ some i') :
    step g v r n i' = r i' := by
  unfold step
  cases hg : g n with
  | none => rfl
  | some i =>
    have hne : i' ≠ i := fun e => h (by rw [hg, e])
    simp only [if_neg hne]

/-- A step that lands on `i'` writes its value there. -/
theorem step_apply_of_eq (g : κ → Option ι) (v : κ → α) (r : ι → α) (n : κ) (i' : ι) (h : g n = some i') :
    step g v r n i' = v n := by
  unfold step
  rw [h]
  simp only [if_true]

/-- Folding steps none of which lands on `i'` leaves that entry alone. -/
theorem foldl_step_miss (g : κ → Option ι) (v : κ → α) (i' : ι) (l : List κ) (x : ι → α)
    (h : ∀ n ∈ l, g n ≠ some i') : l.foldl (step g v) x i' = x i' := by
  induction l generalizing x with
  | nil => rfl
  | cons a t ih =>
    rw [List.foldl_cons, ih (step g v x a) (fun n hn => h n (List.mem_cons_of_mem _ hn))]
    exact step_apply_of_ne g v x a i' (h a List.mem_cons_self)

/-- Folding steps of which `n0`, in the list, lands on `i'` and no other does: the entry holds `n0`'s value. -/
theorem foldl_step_hit (g : κ → Option ι) (v : κ → α) (i' : ι) (n0 : κ) (l : List κ) (x : ι → α)
    (hmem : n0 ∈ l) (hg : g n0 = some i') (huniq : ∀ n ∈ l, g n = some i' → n = n0) :
    l.foldl (step g v) x i' = v n0 := by
  induction l generalizing x with
  | nil => exact absurd hmem List.not_mem_nil
  | cons a t ih =>
    rw [List.foldl_cons]
    by_cases ht : n0 ∈ t
    · exact ih (step g v x a) ht (fun n hn => huniq n (List.mem_cons_of_mem _ hn))
    · have ha : n0 = a := by
        rcases List.mem_cons.1 hmem with e | e
        · exact e
        · exact absurd e ht
      subst ha
      rw [foldl_step_miss g v i' t (step g v x n0) (fun n hn e => ht (huniq n (List.mem_cons_of_mem _ hn) e ▸ hn))]
      exact step_apply_of_eq g v x n0 i' hg

end fold

section scatter

variable {s si u : Shape} {α : Type} {w : Nat}

/-- A scatter whose body returns the update is the fold of the overwriting steps over the update indices in
    row-major order. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- An update whose start plus window coordinate is `i`'s coordinate on every axis lands at `i`. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + (d.window j a : Int) ∧ d.start j idx a + (d.window j a : Int) < (s.size a : Int) :=
    fun a => by
      rw [h a]
      exact ⟨Int.natCast_nonneg _, by exact_mod_cast (i a).isLt⟩
  rw [dif_pos hin]
  congr 1
  funext a
  apply Fin.ext
  show (d.start j idx a + (d.window j a : Int)).toNat = (i a).val
  rw [h a]
  exact Int.toNat_natCast _

/-- With every scatter index the zero word, every window starts at offset zero. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-- With every scatter index the zero word, an update whose window coordinate is `i`'s coordinate on every axis
    lands at `i`. -/
theorem resultIdx?_eq_some_of_window (d : ScatterDims s si u) (j : u.Idx) (idx : IVec si w) (hidx : ∀ k, idx k = 0#w)
    (i : s.Idx) (h : ∀ a, d.window j a = (i a).val) : d.resultIdx? j idx = some i :=
  resultIdx?_eq_some d j idx i (fun a => by rw [start_eq_zero d j idx hidx a, h a, Int.zero_add])

/-- An entry no update lands on keeps the operand's value. -/
theorem scatter_set_apply_of_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [scatter_set_eq_foldl]
  exact foldl_step_miss _ _ i' _ x (fun n _ => h (u.rowMajor.symm n))

/-- An entry exactly one update `j` lands on holds that update's value. -/
theorem scatter_set_apply_of_hit (d : ScatterDims s si u) (x : s.Idx → α) (idx : IVec si w) (upd : u.Idx → α)
    (i' : s.Idx) (j : u.Idx) (hj : d.resultIdx? j idx = some i')
    (huniq : ∀ j' : u.Idx, d.resultIdx? j' idx = some i' → j' = j) :
    Host.scatter d (fun _ b => b) x idx upd i' = upd j := by
  rw [scatter_set_eq_foldl]
  have hn0 : u.rowMajor.symm (u.rowMajor j) = j := u.rowMajor.symm_apply_apply j
  have := foldl_step_hit (fun n => d.resultIdx? (u.rowMajor.symm n) idx) (fun n => upd (u.rowMajor.symm n)) i'
    (u.rowMajor j) (List.finRange u.numel) x (List.mem_finRange _) (by simp only [hn0]; exact hj)
    (fun n _ hn => by
      have := huniq _ hn
      rw [← this]; exact (u.rowMajor.apply_symm_apply n).symm)
  rw [this]
  simp only [hn0]

/-- When every update `j` lands at `e j` and `e` is injective: entry `e j` holds update `j`. -/
theorem scatter_set_apply_emb (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j :=
  scatter_set_apply_of_hit d x idx upd (e j) j (he j) (fun j' hj' => by
    rw [he j'] at hj'
    exact hinj (Option.some.inj hj'))

/-- When every update `j` lands at `e j`: an entry outside the image of `e` keeps the operand's value. -/
theorem scatter_set_apply_not_emb (d : ScatterDims s si u) (x : s.Idx → α) (idx : IVec si w) (upd : u.Idx → α)
    (e : u.Idx → s.Idx) (he : ∀ j, d.resultIdx? j idx = some (e j)) (i' : s.Idx) (hi' : ∀ j, e j ≠ i') :
    Host.scatter d (fun _ b => b) x idx upd i' = x i' :=
  scatter_set_apply_of_miss d x idx upd i' (fun j hj => by
    rw [he j] at hj
    exact hi' j (Option.some.inj hj))

end scatter

end Idealize.ShloMosaic.ScatterSet
-- ==== Proof.Encode.lean ====
import proofs.«115196_j11467562680721_1_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws
import proofs.«115196_j11467562680721_1_alg».proof.Proof.LibScatterSet

noncomputable section

namespace Idealize.ShloMosaic.StableHlo

variable {nD : Nat} {τ : Topo} {sig : RefSig} {Val : EltTy → Type}
variable {x a b y : Ref sig .tc}

/-- An operation over a literal family of three references: its result, with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

namespace Cert.KernelIdeal.Enc

open Idealize.ShloMosaic Idealize.ShloMosaic.TcCoe
open Cert.KernelIdeal Cert.KernelIdeal.Gen

variable {F : FTy → Type} [FloatOps F]

/-- The host operations before the kernel's region, as one list. -/
abbrev pre3 : List (HloOp τ sig (Elt F)) := List.flatten [hostOps0, hostOps0_1, hostOps0_2]

/-- The prediction, flattened to one row per cell. -/
def flatP (p : FVec F S16384x1470 .f32) : FVec F S802816x30 .f32 :=
  fun i => shapeCast S802816x30 (fun j => shapeCast S16384x49x30 p shapeCasts_S16384x1470_S16384x49x30 j) shapeCasts_S16384x49x30_S802816x30 i

/-! ## The target encoding, piece by piece -/

/-- The grid size 7 at every box coordinate pair. -/
def sevens : FVec F S16384x8x2 .f32 :=
  broadcastInDim S16384x8x2 ![] bcast_S_S16384x8x2 (constant (F := F) S_ .f32 0x40E00000#32)

/-- The four box coordinates of every label. -/
def boxes (l : FVec F S16384x8x5 .f32) : FVec F S16384x8x4 .f32 :=
  extractStridedSlice S16384x8x4 ![0, 0, 0] l slices_S16384x8x5_S16384x8x4_0_0_0

/-- Width and height: the far corner minus the near corner. -/
def wh (l : FVec F S16384x8x5 .f32) : FVec F S16384x8x2 .f32 :=
  subf (extractStridedSlice S16384x8x2 ![0, 0, 2] (boxes l) slices_S16384x8x4_S16384x8x2_0_0_2)
    (extractStridedSlice S16384x8x2 ![0, 0, 0] (boxes l) slices_S16384x8x4_S16384x8x2_0_0_0)

/-- The centre: half the sum of the corners. -/
def cxcy (l : FVec F S16384x8x5 .f32) : FVec F S16384x8x2 .f32 :=
  mulf (addf (extractStridedSlice S16384x8x2 ![0, 0, 2] (boxes l) slices_S16384x8x4_S16384x8x2_0_0_2)
      (extractStridedSlice S16384x8x2 ![0, 0, 0] (boxes l) slices_S16384x8x4_S16384x8x2_0_0_0))
    (broadcastInDim S16384x8x2 ![] bcast_S_S16384x8x2 (constant (F := F) S_ .f32 0x3F000000#32))

/-- The cell of the centre, as a float: ceil(7·centre) − 1. -/
def ij (l : FVec F S16384x8x5 .f32) : FVec F S16384x8x2 .f32 :=
  subf (Host.ceil (mulf (cxcy l) sevens))
    (broadcastInDim S16384x8x2 ![] bcast_S_S16384x8x2 (constant (F := F) S_ .f32 0x3F800000#32))

/-- The centre's offset inside its cell. -/
def dxy (l : FVec F S16384x8x5 .f32) : FVec F S16384x8x2 .f32 :=
  subf (mulf (cxcy l) sevens) (ij l)

/-- The cell's column, as an integer. -/
def cellX (l : FVec F S16384x8x5 .f32) : IVec S16384x8 32 :=
  fptosi 32 (fun i => shapeCast S16384x8 (extractStridedSlice S16384x8x1 ![0, 0, 0] (ij l) slices_S16384x8x2_S16384x8x1_0_0_0)
    shapeCasts_S16384x8x1_S16384x8 i)

/-- The cell's row, as an integer. -/
def cellY (l : FVec F S16384x8x5 .f32) : IVec S16384x8 32 :=
  fptosi 32 (fun i => shapeCast S16384x8 (extractStridedSlice S16384x8x1 ![0, 0, 1] (ij l) slices_S16384x8x2_S16384x8x1_0_0_1)
    shapeCasts_S16384x8x1_S16384x8 i)

/-- The two confidence slots, normalised to be non-negative. -/
def confIdx : IVec S2x1 32 :=
  broadcastInDim S2x1 ![0] bcast_S2_S2x1_0
    (select (cmpi .slt (fun i => lit0 (S2.rowMajor i)) (broadcastInDim S2 ![] bcast_S_S2 (constantI S_ 32 0#32)))
      (addi (fun i => lit0 (S2.rowMajor i)) (broadcastInDim S2 ![] bcast_S_S2 (constantI S_ 32 30#32)))
      (fun i => lit0 (S2.rowMajor i)))

/-- A row of zeros with the two confidences set to one. -/
def confRow : FVec F S16384x8x30 .f32 :=
  Host.scatter scatter_S16384x8x30_S2x1_S16384x8x2_01_2_2_1 (fun _ b => b)
    (broadcastInDim S16384x8x30 ![] bcast_S_S16384x8x30 (constant (F := F) S_ .f32 0x00000000#32))
    confIdx
    (broadcastInDim S16384x8x2 ![] bcast_S_S16384x8x2 (constant (F := F) S_ .f32 0x3F800000#32))

/-- The class label, as a float. -/
def clsF (l : FVec F S16384x8x5 .f32) : FVec F S16384x8 .f32 :=
  fun i => shapeCast S16384x8 (extractStridedSlice S16384x8x1 ![0, 0, 4] l slices_S16384x8x5_S16384x8x1_0_0_4)
    shapeCasts_S16384x8x1_S16384x8 i

/-- The class label rounded toward zero. -/
def clsT (l : FVec F S16384x8x5 .f32) : FVec F S16384x8 .f32 :=
  select (cmpf .olt (clsF l) (broadcastInDim S16384x8 ![] bcast_S_S16384x8 (constant (F := F) S_ .f32 0x00000000#32)))
    (Host.ceil (clsF l)) (Host.floor (clsF l))

/-- A one-word start index. -/
def at1 (n : BitVec 32) : IVec S1 32 := broadcastInDim S1 ![] bcast_S_S1 (constantI S_ 32 n)

/-- The row after the class write at slot 10 and the first box's size and offset writes (slots 2..3, then 0..1). -/
def rows42 (l : FVec F S16384x8x5 .f32) : FVec F S16384x8x30 .f32 :=
  Host.scatter scatter_S16384x8x30_S1_S16384x8x2_012_n_2_0 (fun _ b => b)
    (Host.scatter scatter_S16384x8x30_S1_S16384x8x2_012_n_2_0 (fun _ b => b)
      (Host.scatter scatter_S16384x8x30_S1_S16384x8_01_2_2_0 (fun _ b => b) confRow (at1 10#32) (clsT l))
      (at1 2#32) (mulf (wh l) sevens))
    (at1 0#32) (dxy l)

/-- The row after the second box's size write, at slots 9..10. -/
def rows46 (l : FVec F S16384x8x5 .f32) : FVec F S16384x8x30 .f32 :=
  Host.scatter scatter_S16384x8x30_S1_S16384x8x2_012_n_2_0 (fun _ b => b) (rows42 l) (at1 9#32) (mulf (wh l) sevens)

/-- The finished row: the second box's offset write, at slots 7..8. -/
def rows (l : FVec F S16384x8x5 .f32) : FVec F S16384x8x30 .f32 :=
  Host.scatter scatter_S16384x8x30_S1_S16384x8x2_012_n_2_0 (fun _ b => b) (rows46 l) (at1 7#32) (dxy l)

/-- The image index of every box, normalised to be non-negative. -/
def imgIdx : IVec S16384x8x1 32 :=
  broadcastInDim S16384x8x1 ![0, 1] bcast_S16384x8_S16384x8x1_0_1
    (broadcastInDim S16384x8 ![0, 1] bcast_S16384x1_S16384x8_0_1
      (select (cmpi .slt (broadcastInDim S16384x1 ![0] bcast_S16384_S16384x1_0 (iotaInDim S16384 32 0))
          (broadcastInDim S16384x1 ![] bcast_S_S16384x1 (constantI S_ 32 0#32)))
        (addi (broadcastInDim S16384x1 ![0] bcast_S16384_S16384x1_0 (iotaInDim S16384 32 0))
          (broadcastInDim S16384x1 ![] bcast_S_S16384x1 (constantI S_ 32 16384#32)))
        (broadcastInDim S16384x1 ![0] bcast_S16384_S16384x1_0 (iotaInDim S16384 32 0))))

/-- A cell coordinate, normalised to be non-negative, as a scatter index component. -/
def wrap7 (x : IVec S16384x8 32) : IVec S16384x8x1 32 :=
  broadcastInDim S16384x8x1 ![0, 1] bcast_S16384x8_S16384x8x1_0_1
    (select (cmpi .slt x (broadcastInDim S16384x8 ![] bcast_S_S16384x8 (constantI S_ 32 0#32)))
      (addi x (broadcastInDim S16384x8 ![] bcast_S_S16384x8 (constantI S_ 32 7#32))) x)

/-- Where each box's row goes: (image, cell row, cell column). -/
def cellI (l : FVec F S16384x8x5 .f32) : IVec S16384x8x3 32 :=
  concatenate S16384x8x3 2 [⟨S16384x8x1, imgIdx⟩, ⟨S16384x8x1, wrap7 (cellY l)⟩, ⟨S16384x8x1, wrap7 (cellX l)⟩]
    concatenates_S16384x8x1_S16384x8x1_S16384x8x1_S16384x8x3_d2

/-- The target grid: every box's row written into its cell, over zeros. -/
def grid (l : FVec F S16384x8x5 .f32) : FVec F S16384x7x7x30 .f32 :=
  Host.scatter scatter_S16384x7x7x30_S16384x8x3_S16384x8x30_2_012_012_2 (fun _ b => b)
    (broadcastInDim S16384x7x7x30 ![] bcast_S_S16384x7x7x30 (constant (F := F) S_ .f32 0x00000000#32))
    (cellI l) (rows l)

/-- The target, flattened to one row per cell. -/
def encT (l : FVec F S16384x8x5 .f32) : FVec F S802816x30 .f32 :=
  fun i => shapeCast S802816x30 (fun j => shapeCast S16384x49x30 (grid l) shapeCasts_S16384x7x7x30_S16384x49x30 j)
    shapeCasts_S16384x49x30_S802816x30 i

/-- One pass over the operations' result facts, a three-piece concatenate's operands read at their own references. -/
macro "host_results" : tactic =>
  `(tactic| (simp (disch := decide) only [StableHlo.after_cons, StableHlo.after_nil,
      StableHlo.nullary_result', StableHlo.unary_result', StableHlo.binary_result', StableHlo.ternary_result',
      StableHlo.reshape_result', StableHlo.nary3_result',
      StableHlo.nullary_result_ne', StableHlo.unary_result_ne', StableHlo.binary_result_ne', StableHlo.ternary_result_ne',
      StableHlo.reshape_result_ne', StableHlo.nary_result_ne']))

/-- The three stretches as one literal list. -/
macro "flatten_pre3" : tactic =>
  `(tactic| simp only [pre3, hostOps0, hostOps0_1, hostOps0_2, List.flatten_cons, List.flatten_nil, List.append_nil, List.cons_append,
      List.nil_append])

/-- The flattened prediction is the two reshapes of the prediction argument. -/
theorem pred_eq (V : Valuation τ sig (Elt F)) :
    (StableHlo.after pre3 V (Proc.devRef .tc main_v76) : FVec F S802816x30 .f32) = flatP (V (Proc.devRef .tc main_arg0)) := by
  flatten_pre3
  host_results
  rfl

set_option maxHeartbeats 4000000 in
/-- The flattened target is the encoding of the labels argument. The concatenate's three operands are read at the
    contents just before it, named as one valuation. -/
theorem tgt_eq (V : Valuation τ sig (Elt F)) :
    (StableHlo.after pre3 V (Proc.devRef .tc main_v75) : FVec F S802816x30 .f32) = encT (V (Proc.devRef .tc main_arg1)) := by
  flatten_pre3
  host_results
  simp only [StableHlo.TRef.ofBuf, StableHlo.TRef.toBuf, cast_eq]
  generalize hW : HloOp.result _ _ = W
  have h68 : (W (Proc.devRef .tc main_v68) : IVec S16384x8x1 32) = imgIdx := by
    rw [← hW]; host_results; rfl
  have h69 : (W (Proc.devRef .tc main_v69) : IVec S16384x8x1 32) = wrap7 (cellY (V (Proc.devRef .tc main_arg1))) := by
    rw [← hW]; host_results; rfl
  have h70 : (W (Proc.devRef .tc main_v70) : IVec S16384x8x1 32) = wrap7 (cellX (V (Proc.devRef .tc main_arg1))) := by
    rw [← hW]; host_results; rfl
  rw [h68, h69, h70]
  rfl

/-- A reshape reads the operand at some index: finite predictions stay finite. -/
theorem flatP_finite (p : FVec Ideal S16384x1470 .f32) (hp : ∀ i, ∃ x : ℝ, p i = (x : EReal)) :
    ∀ i, ∃ x : ℝ, flatP p i = (x : EReal) :=
  fun i => hp (Shape.reshapeEquiv shapeCasts_S16384x1470_S16384x49x30 (Shape.reshapeEquiv shapeCasts_S16384x49x30_S802816x30 i))

/-! ## Reading an overwriting scatter at one entry -/

section ScatterRead

open Idealize.ShloMosaic.ScatterSet

/-- A fold of overwriting steps read at one entry: the start value there, or the value of some step that lands
    there. -/
theorem foldl_step_or {ι κ α : Type} [DecidableEq ι] (g : κ → Option ι) (v : κ → α) (i' : ι) (l : List κ) (x : ι → α) :
    l.foldl (step g v) x i' = x i' ∨ ∃ n ∈ l, g n = some i' ∧ l.foldl (step g v) x i' = v n := by
  induction l generalizing x with
  | nil => exact Or.inl rfl
  | cons a t ih =>
    rw [List.foldl_cons]
    rcases ih (step g v x a) with h | ⟨n, hn, hg, h⟩
    · by_cases hga : g a = some i'
      · exact Or.inr ⟨a, List.mem_cons_self, hga, h.trans (step_apply_of_eq g v x a i' hga)⟩
      · exact Or.inl (h.trans (step_apply_of_ne g v x a i' hga))
    · exact Or.inr ⟨n, List.mem_cons_of_mem _ hn, hg, h⟩

/-- An overwriting scatter read at one entry: the operand's entry, or some update that lands there. -/
theorem scatter_set_apply_or {s si u : Shape} {α : Type} {w : Nat} (d : ScatterDims s si u) (x : s.Idx → α)
    (idx : IVec si w) (upd : u.Idx → α) (i' : s.Idx) :
    Host.scatter d (fun _ b => b) x idx upd i' = x i' ∨
      ∃ j : u.Idx, d.resultIdx? j idx = some i' ∧ Host.scatter d (fun _ b => b) x idx upd i' = upd j := by
  rw [scatter_set_eq_foldl]
  rcases foldl_step_or (fun n => d.resultIdx? (u.rowMajor.symm n) idx) (fun n => upd (u.rowMajor.symm n)) i'
    (List.finRange u.numel) x with h | ⟨n, _, hg, h⟩
  · exact Or.inl h
  · exact Or.inr ⟨u.rowMajor.symm n, hg, h⟩

/-- Where an update lands, coordinate by coordinate: the window's start plus the window coordinate. -/
theorem resultIdx?_coord {s si u : Shape} {w : Nat} (d : ScatterDims s si u) (j : u.Idx) (idx : IVec si w) (i : s.Idx)
    (h : d.resultIdx? j idx = some i) (a : Fin s.rank) :
    ((i a).val : Int) = d.start j idx a + (d.window j a : Int) := by
  unfold ScatterDims.resultIdx? at h
  split at h
  · rename_i hin
    have e := Option.some.inj h
    rw [← e]
    exact Int.toNat_of_nonneg (hin a).1
  · cases h

end ScatterRead

/-! ## Slot 10 of a target row -/

section Slot10

open Idealize.ShloMosaic.ScatterSet ValueIdx

theorem at1_apply (n : BitVec 32) (k : S1.Idx) : at1 n k = n := rfl

/-- A whole-row window: the window coordinate is the update's own coordinate. -/
theorem rowWindow (j : S16384x8x2.Idx) (a : Fin 3) :
    scatter_S16384x8x30_S1_S16384x8x2_012_n_2_0.window j a = (j a).val := by
  match a with
  | ⟨0, _⟩ => rfl
  | ⟨1, _⟩ => rfl
  | ⟨2, _⟩ => rfl

/-- A whole-row window starts at the literal slot on the last axis and at zero on the others. -/
theorem rowStart (j : S16384x8x2.Idx) (n : BitVec 32) (a : Fin 3) :
    scatter_S16384x8x30_S1_S16384x8x2_012_n_2_0.start j (at1 n) a = if a.val = 2 then n.toInt else 0 := by
  match a with
  | ⟨0, _⟩ => rfl
  | ⟨1, _⟩ => rfl
  | ⟨2, _⟩ => rfl

/-- A row's slot 10 is the second size write's second entry: the offset write at slots 7..8 misses it, the size
    write at slots 9..10 lands its entry 1 there. -/
theorem rows_slot10 (l : FVec F S16384x8x5 .f32) (j : S16384x8x30.Idx) (hj : (j 2).val = 10) :
    rows l j = mulf (wh l) sevens (ix3 (j 0) (j 1) (1 : Fin 2)) := by
  have miss : rows l j = rows46 l j := by
    unfold rows
    apply scatter_set_apply_of_miss
    intro j' h
    have c := resultIdx?_coord _ _ _ _ h (2 : Fin 3)
    rw [rowStart, rowWindow] at c
    have h2 : (j' 2).val < 2 := (j' 2).isLt
    have e7 : (7#32 : BitVec 32).toInt = 7 := by decide
    simp only [if_true, e7] at c
    omega
  rw [miss]
  unfold rows46
  have e9 : (9#32 : BitVec 32).toInt = 9 := by decide
  apply scatter_set_apply_of_hit
  · apply resultIdx?_eq_some
    intro a
    rw [rowStart, rowWindow]
    match a with
    | ⟨0, _⟩ => simp
    | ⟨1, _⟩ => simp
    | ⟨2, _⟩ => simp [e9, hj]
  · intro j' h
    have c0 := resultIdx?_coord _ _ _ _ h (0 : Fin 3)
    have c1 := resultIdx?_coord _ _ _ _ h (1 : Fin 3)
    have c2 := resultIdx?_coord _ _ _ _ h (2 : Fin 3)
    rw [rowStart, rowWindow] at c0 c1 c2
    simp only [if_true, e9] at c0 c1 c2
    funext a
    match a with
    | ⟨0, _⟩ => exact Fin.ext (by show (j' 0).val = (j 0).val; simp at c0; omega)
    | ⟨1, _⟩ => exact Fin.ext (by show (j' 1).val = (j 1).val; simp at c1; omega)
    | ⟨2, _⟩ => exact Fin.ext (by simp at c2; show (j' 2).val = 1; omega)

/-- The value a row carries at slot 10: seven times the box's height. -/
def h7 (l : FVec Ideal S16384x8x5 .f32) (b : Fin 16384) (n : Fin 8) : EReal :=
  (l (ix3 b n (3 : Fin 5)) - l (ix3 b n (1 : Fin 5))) * Ideal.ofBits .f32 0x40E00000#32

theorem rows_slot10_ideal (l : FVec Ideal S16384x8x5 .f32) (j : S16384x8x30.Idx) (hj : (j 2).val = 10) :
    rows l j = h7 l (j 0) (j 1) := by
  rw [rows_slot10 l j hj, mulf_apply]
  unfold wh sevens boxes h7
  rw [subf_apply]
  congr 1
  congr 1
  · unfold extractStridedSlice
    refine congrArg l (funext fun a => ?_)
    match a with
    | ⟨0, _⟩ => exact Fin.ext (by simp)
    | ⟨1, _⟩ => exact Fin.ext (by simp)
    | ⟨2, _⟩ => exact Fin.ext (by simp)
  · unfold extractStridedSlice
    refine congrArg l (funext fun a => ?_)
    match a with
    | ⟨0, _⟩ => exact Fin.ext (by simp)
    | ⟨1, _⟩ => exact Fin.ext (by simp)
    | ⟨2, _⟩ => exact Fin.ext (by simp)

/-- An entry of the grid at slot 10 is zero, or some box's slot-10 value. -/
theorem grid_slot10 (l : FVec Ideal S16384x8x5 .f32) (k : S16384x7x7x30.Idx) (hk : (k 3).val = 10) :
    grid l k = 0 ∨ ∃ (b : Fin 16384) (n : Fin 8), grid l k = h7 l b n := by
  unfold grid
  rcases scatter_set_apply_or scatter_S16384x7x7x30_S16384x8x3_S16384x8x30_2_012_012_2
      (broadcastInDim S16384x7x7x30 ![] bcast_S_S16384x7x7x30 (constant (F := Ideal) S_ .f32 0x00000000#32))
      (cellI l) (rows l) k with h | ⟨j, hj, h⟩
  · left
    rw [h]
    exact Ideal.ofBits_zero_f32
  · right
    have c := resultIdx?_coord _ _ _ _ hj (3 : Fin 4)
    have es : scatter_S16384x7x7x30_S16384x8x3_S16384x8x30_2_012_012_2.start j (cellI l) (3 : Fin 4) = 0 := rfl
    have ew : scatter_S16384x7x7x30_S16384x8x3_S16384x8x30_2_012_012_2.window j (3 : Fin 4) = (j 2).val := rfl
    rw [es, ew] at c
    have hj2 : (j 2).val = 10 := by omega
    exact ⟨j 0, j 1, h.trans (rows_slot10_ideal l j hj2)⟩

/-- Slot 10 of a target row is zero, or seven times some box's height. -/
theorem encT_slot10 (l : FVec Ideal S16384x8x5 .f32) (r : Fin 802816) :
    encT l (ix2 r (10 : Fin 30)) = 0 ∨ ∃ (b : Fin 16384) (n : Fin 8), encT l (ix2 r (10 : Fin 30)) = h7 l b n := by
  have e : encT l (ix2 r (10 : Fin 30))
      = grid l (Shape.reshapeEquiv shapeCasts_S16384x7x7x30_S16384x49x30
          (Shape.reshapeEquiv shapeCasts_S16384x49x30_S802816x30 (ix2 r (10 : Fin 30)))) := rfl
  rw [e]
  apply grid_slot10
  have h1 := Shape.rowMajor_reshapeEquiv shapeCasts_S16384x7x7x30_S16384x49x30
    (Shape.reshapeEquiv shapeCasts_S16384x49x30_S802816x30 (ix2 r (10 : Fin 30)))
  have h2 := Shape.rowMajor_reshapeEquiv shapeCasts_S16384x49x30_S802816x30 (ix2 r (10 : Fin 30))
  rw [h2] at h1
  rw [Shape.rowMajor_val_four, Shape.rowMajor_val_two] at h1
  generalize Shape.reshapeEquiv shapeCasts_S16384x7x7x30_S16384x49x30
    (Shape.reshapeEquiv shapeCasts_S16384x49x30_S802816x30 (ix2 r (10 : Fin 30))) = k at h1 ⊢
  have k3 : (k 3).val < 30 := (k 3).isLt
  have e30 : (![16384, 7, 7, 30] : Fin 4 → Nat) 3 = 30 := rfl
  have e30' : (![802816, 30] : Fin 2 → Nat) 1 = 30 := rfl
  have e10 : ((ix2 r (10 : Fin 30)) 1).val = 10 := rfl
  rw [e30, e30', e10] at h1
  omega

end Slot10

end Cert.KernelIdeal.Enc

end
-- ==== Proof.RefEncode.lean ====
import proofs.«115196_j11467562680721_1_alg».proof.Proof.RefRun
import proofs.«115196_j11467562680721_1_alg».proof.Proof.Encode

noncomputable section

namespace Cert.ReferenceIdeal.Enc

open Idealize.ShloMosaic Idealize.ShloMosaic.TcCoe
open Cert.ReferenceIdeal Cert.ReferenceIdeal.Gen

variable {F : FTy → Type} [FloatOps F]

/-- The reference's first 105 operations as one literal list. -/
macro "flatten_head" : tactic =>
  `(tactic| simp only [Hand.opsHead, Hand.opsH0, Hand.opsH1, List.cons_append, List.nil_append])

/-- The reference flattens the prediction as the kernel program does. -/
theorem ref_pred_eq (V : Valuation τ sig (Elt F)) :
    (StableHlo.after Hand.opsHead V (Proc.devRef .tc main_v76) : FVec F S802816x30 .f32)
      = Cert.KernelIdeal.Enc.flatP (V (Proc.devRef .tc main_arg0)) := by
  flatten_head
  host_results
  rfl

set_option maxHeartbeats 4000000 in
/-- The reference encodes the labels as the kernel program does: the same operations over the same shapes. -/
theorem ref_tgt_eq (V : Valuation τ sig (Elt F)) :
    (StableHlo.after Hand.opsHead V (Proc.devRef .tc main_v75) : FVec F S802816x30 .f32)
      = Cert.KernelIdeal.Enc.encT (V (Proc.devRef .tc main_arg1)) := by
  flatten_head
  host_results
  simp only [StableHlo.TRef.ofBuf, StableHlo.TRef.toBuf, cast_eq]
  generalize hW : HloOp.result _ _ = W
  have h68 : (W (Proc.devRef .tc main_v68) : IVec S16384x8x1 32) = Cert.KernelIdeal.Enc.imgIdx := by
    rw [← hW]; host_results; rfl
  have h69 : (W (Proc.devRef .tc main_v69) : IVec S16384x8x1 32)
      = Cert.KernelIdeal.Enc.wrap7 (Cert.KernelIdeal.Enc.cellY (V (Proc.devRef .tc main_arg1))) := by
    rw [← hW]; host_results; rfl
  have h70 : (W (Proc.devRef .tc main_v70) : IVec S16384x8x1 32)
      = Cert.KernelIdeal.Enc.wrap7 (Cert.KernelIdeal.Enc.cellX (V (Proc.devRef .tc main_arg1))) := by
    rw [← hW]; host_results; rfl
  rw [h68, h69, h70]
  rfl

end Cert.ReferenceIdeal.Enc

end
-- ==== Proof.PreDecode.lean ====
/-
  The printed precondition, read back as arithmetic facts about the two argument arrays.

  The predicate is a conjunction of four `all`-reductions: every prediction has absolute value below +∞, every label
  entry has absolute value below +∞, and for every box (b, n) the 32-bit integer nearest toward zero to
  7 · (y2 − y1) — entries 3 and 1 of the box's row — is below 20 and at least 0, both signed. From the first we get that
  every prediction is a real number; from the last two that the integer's unsigned value is below 20.
-/
import proofs.«115196_j11467562680721_1_alg».proof.Proof.Gen.Pre_finite_inputs
import Idealize.ShloMosaic.Lib.ReduceAll
import Idealize.ShloMosaic.Lib.ValueIdx
import Idealize.ShloMosaic.Lib.Pipeline.Value
import Idealize.ShloMosaic.Lib.StableHlo.Predicate

noncomputable section

namespace Cert.Pre_finite_inputs.Hand

open Idealize.ShloMosaic Idealize.ShloMosaic.ValueIdx
open Cert.Pre_finite_inputs

/-- The scalar shape has one index. -/
instance : Subsingleton S_.Idx := ⟨fun a b => funext fun d => d.elim0⟩

/-- 7 · (y2 − y1) of box `n` of image `b`: the difference of entries 3 and 1 of the box's row, times the constant 7. -/
def h7 (l : FVec Ideal S16384x8x5 .f32) (b : Fin 16384) (n : Fin 8) : EReal :=
  (l (ix3 b n (3 : Fin 5)) - l (ix3 b n (1 : Fin 5))) * Ideal.ofBits .f32 0x40E00000#32

/-! ## The layout operations of the chain, each read at the one index the decoding needs -/

section Reads
variable {α : Type}

/-- Dropping the trailing unit axis: position (b, n) reads position (b, n, 0). -/
theorem cast_at (x : S16384x8x1.Idx → α) (hc : S16384x8x1.ShapeCasts S16384x8) (b : Fin 16384) (n : Fin 8) :
    shapeCast S16384x8 x hc (ix2 b n) = x (ix3 b n (0 : Fin 1)) := by
  refine shapeCast_apply x hc _ _ ?_
  rw [Shape.rowMajor_val_three, Shape.rowMajor_val_two]
  show (b.val * 8 + n.val) * 1 + 0 = b.val * 8 + n.val
  omega

/-- Column 1 of a two-column array kept as a one-column array: (b, n, 0) reads (b, n, 1). -/
theorem slice1_at (x : S16384x8x2.Idx → α) (hs : S16384x8x2.Slices ![0, 0, 1] S16384x8x1) (b : Fin 16384) (n : Fin 8) :
    extractStridedSlice S16384x8x1 ![0, 0, 1] x hs (ix3 b n (0 : Fin 1)) = x (ix3 b n (1 : Fin 2)) := by
  refine extractStridedSlice_apply _ x hs _ _ fun a => ?_
  match a with
  | ⟨0, _⟩ => show b.val = 0 + b.val; omega
  | ⟨1, _⟩ => show n.val = 0 + n.val; omega
  | ⟨2, _⟩ => rfl

/-- Columns 2..3 of a four-column array: (b, n, 1) reads (b, n, 3). -/
theorem slice2_at (x : S16384x8x4.Idx → α) (hs : S16384x8x4.Slices ![0, 0, 2] S16384x8x2) (b : Fin 16384) (n : Fin 8) :
    extractStridedSlice S16384x8x2 ![0, 0, 2] x hs (ix3 b n (1 : Fin 2)) = x (ix3 b n (3 : Fin 4)) := by
  refine extractStridedSlice_apply _ x hs _ _ fun a => ?_
  match a with
  | ⟨0, _⟩ => show b.val = 0 + b.val; omega
  | ⟨1, _⟩ => show n.val = 0 + n.val; omega
  | ⟨2, _⟩ => rfl

/-- Columns 0..1 of a four-column array: (b, n, 1) reads (b, n, 1). -/
theorem slice0_at (x : S16384x8x4.Idx → α) (hs : S16384x8x4.Slices ![0, 0, 0] S16384x8x2) (b : Fin 16384) (n : Fin 8) :
    extractStridedSlice S16384x8x2 ![0, 0, 0] x hs (ix3 b n (1 : Fin 2)) = x (ix3 b n (1 : Fin 4)) := by
  refine extractStridedSlice_apply _ x hs _ _ fun a => ?_
  match a with
  | ⟨0, _⟩ => show b.val = 0 + b.val; omega
  | ⟨1, _⟩ => show n.val = 0 + n.val; omega
  | ⟨2, _⟩ => rfl

/-- Columns 0..3 of a five-column array: (b, n, c) reads (b, n, c). -/
theorem slice4_at (x : S16384x8x5.Idx → α) (hs : S16384x8x5.Slices ![0, 0, 0] S16384x8x4) (b : Fin 16384) (n : Fin 8)
    (c : Fin 4) (c' : Fin 5) (hc : c'.val = c.val) :
    extractStridedSlice S16384x8x4 ![0, 0, 0] x hs (ix3 b n c) = x (ix3 b n c') := by
  refine extractStridedSlice_apply _ x hs _ _ fun a => ?_
  match a with
  | ⟨0, _⟩ => show b.val = 0 + b.val; omega
  | ⟨1, _⟩ => show n.val = 0 + n.val; omega
  | ⟨2, _⟩ => show c'.val = 0 + c.val; omega

end Reads

/-! ## Words and extended reals -/

/-- A 32-bit word that is at least 0 and below 20, both read signed, has unsigned value below 20. -/
theorem toNat_lt_twenty (w : BitVec 32) (h0 : IntOp.cmpi .sge w 0#32 = 1#1) (h1 : IntOp.cmpi .slt w 20#32 = 1#1) :
    w.toNat < 20 := by
  simp only [IntOp.cmpi, StableHlo.Predicate.ofBool_eq_one_iff, BitVec.slt, BitVec.sle, decide_eq_true_eq] at h0 h1
  have hw := w.isLt
  have e0 : (0#32 : BitVec 32).toInt = 0 := by decide
  have e20 : (20#32 : BitVec 32).toInt = 20 := by decide
  rw [e0] at h0
  rw [e20] at h1
  rw [BitVec.toInt_eq_toNat_cond] at h0 h1
  split_ifs at h0 h1 <;> omega

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (⊤ : EReal) = 1#1) : ∃ r : ℝ, x = (r : EReal) := by
  simp only [Ideal.cmp, StableHlo.Predicate.ofBool_eq_one_iff, decide_eq_true_eq] at h
  induction x using EReal.rec with
  | bot => simp at h
  | coe r => exact ⟨r, rfl⟩
  | top => simp at h

/-! ## The precondition decoded -/

theorem pre_decode (p : FVec Ideal S16384x1470 .f32) (l : FVec Ideal S16384x8x5 .f32)
    (h : Cert.Pre_finite_inputs.fn (F := Ideal) p l = fun _ => 1#1) :
    (∀ i, ∃ x : ℝ, p i = (x : EReal)) ∧ (∀ (b : Fin 16384) (n : Fin 8), (Ideal.fptosi 32 (h7 l b n)).toNat < 20) := by
  have e := congrFun h ix0
  dsimp only [Cert.Pre_finite_inputs.fn, Cert.Pre_finite_inputs.fn_part1, andi] at e
  rw [IntOp.andi_eq_one, IntOp.andi_eq_one, IntOp.andi_eq_one] at e
  obtain ⟨⟨⟨hp, -⟩, hlt⟩, hge⟩ := e
  refine ⟨fun i => ?_, fun b n => ?_⟩
  · have hi := Host.reduce_andi_all _ _ _ _ _ hp i
    exact real_of_abs_lt_top (p i) (by rw [← ofBits_inf]; exact hi)
  · have h1 := Host.reduce_andi_all _ _ _ _ _ hlt (ix2 b n)
    have h0 := Host.reduce_andi_all _ _ _ _ _ hge (ix2 b n)
    dsimp only [cmpi, fptosi] at h0 h1
    rw [cast_at, slice1_at, mulf_apply, subf_apply, slice2_at, slice0_at, slice4_at _ _ b n 3 3 rfl,
      slice4_at _ _ b n 1 1 rfl] at h0 h1
    exact toNat_lt_twenty _ h0 h1

end Cert.Pre_finite_inputs.Hand

end
-- ==== Proof.Glue.lean ====
/-
  Small facts the assembly needs: the integer nearest 0 is 0; a target row's class index is a class when its slot 10 is
  either 0 or 7 · (y2 − y1) of some box whose integer part is a class; a reshape of an array of real numbers is an array
  of real numbers.
-/
import proofs.«115196_j11467562680721_1_alg».proof.Proof.Spec
import proofs.«115196_j11467562680721_1_alg».proof.Proof.PreDecode
import Idealize.ShloMosaic.Lib.ValueIdx
import Idealize.ShloMosaic.Lib.Pipeline.Value

noncomputable section

namespace Cert.Proof.Glue

open Idealize.ShloMosaic Idealize.ShloMosaic.ValueIdx

/-- Zero truncates to the integer 0. -/
theorem fptosi_zero : (Ideal.fptosi 32 (0 : EReal)).toNat = 0 := by
  have h : (0 : EReal) = ((0 : ℝ) : EReal) := rfl
  rw [h, Ideal.fptosi, Ideal.toIntClamped_coe]
  simp

/-- A target row's class index is below 20 when its slot 10 holds either 0 (no box scattered into the cell) or
    7 · (y2 − y1) of a box, every box's value truncating to a class. -/
theorem ctgt_lt_of_slot (Tv : (⟨2, ![802816, 30]⟩ : Shape).Idx → EReal) (l : (⟨3, ![16384, 8, 5]⟩ : Shape).Idx → EReal)
    (hslot : ∀ r : Fin 802816, Tv (ix2 r 10) = 0 ∨ ∃ (b : Fin 16384) (n : Fin 8), Tv (ix2 r 10) = Cert.Pre_finite_inputs.Hand.h7 l b n)
    (hbox : ∀ b n, (Ideal.fptosi 32 (Cert.Pre_finite_inputs.Hand.h7 l b n)).toNat < 20) :
    ∀ r : Fin 802816, (Cert.Spec.ctgt (fun r j => Tv (ix2 r j)) r).toNat < 20 := by
  intro r
  show (Ideal.fptosi 32 (Tv (ix2 r 10))).toNat < 20
  rcases hslot r with h | ⟨b, n, h⟩
  · rw [h, fptosi_zero]; decide
  · rw [h]; exact hbox b n

/-- A reshape reads its operand at some index: of an array of real numbers it is an array of real numbers. -/
theorem real_shapeCast {s t : Shape} (h : s.ShapeCasts t) (x : s.Idx → EReal) (hx : ∀ i, ∃ a : ℝ, x i = (a : EReal)) :
    ∀ j, ∃ a : ℝ, shapeCast t x h j = (a : EReal) := fun j => hx (Shape.reshapeEquiv h j)

/-- Two reshapes in a row, in the form the flattened prediction array is written. -/
theorem real_shapeCast₂ {s t u : Shape} (h₁ : s.ShapeCasts t) (h₂ : t.ShapeCasts u) (p : s.Idx → EReal)
    (hp : ∀ i, ∃ a : ℝ, p i = (a : EReal)) :
    ∀ i, ∃ a : ℝ, (fun i => shapeCast u (fun j => shapeCast t p h₁ j) h₂ i) i = (a : EReal) :=
  fun i => real_shapeCast h₂ (fun j => shapeCast t p h₁ j) (real_shapeCast h₁ p hp) i

end Cert.Proof.Glue

end
-- ==== Proof.Bridge.lean ====
/-
  The algebra between the two arrangements of the loss of Spec.lean, over the extended reals.

  Three facts carry it.
  * A sum over the 802816 rows is the sum over the 64 blocks of the sums over a block's 12544 rows (the rows
    of block t are t * 12544 + q): a re-indexing, true in every commutative monoid.
  * When the class index of a row is a class, the one-hot sum over the 20 classes has exactly one non-zero
    term, the score at the index: the kernel's pick is the reference's.
  * When the scores are real numbers, so is every log-softmax value (the running maximum of 20 reals is one
    of them, the exponentials are positive reals, so is their sum, and its logarithm is a real).  For real
    summands the negation moves across the sums:  Σ_t (0 - S_t) = -(Σ_t S_t).  Across the division by a
    non-zero real the negation moves for every extended real, since  (-a) * b = -(a * b)  holds there.
  The squared-error part needs no finiteness: both arrangements sum the same eight squared differences of a
  row, the mask is 0 or 1 and so distributes over a sum, and a sum of sums is the sum of the sums.
-/
import proofs.«115196_j11467562680721_1_alg».proof.Proof.Spec
import Idealize.ShloMosaic.PureOps.Ideal
import Mathlib.Data.EReal.Operations
import Mathlib.Data.EReal.Inv
import Mathlib.Data.Finset.Fold
import Mathlib.Algebra.BigOperators.Fin
import Mathlib.Algebra.BigOperators.Group.Finset.Basic
import Mathlib.Analysis.SpecialFunctions.Log.Basic

noncomputable section

namespace Cert.Spec

open Idealize.ShloMosaic

/-! ### The constant 802816 -/

/-- The word 0x49440000 denotes the real 802816 = (2^23 + 0x440000) * 2^(146 - 127 - 23). -/
theorem cN_eq : cN = ((802816 : ℝ) : EReal) := by
  simp [cN, Ideal.ofBits, Ideal.ieee, -EReal.coe_mul]; norm_num

/-! ### Rows as blocks -/

/-- The rows are the pairs (block, row of the block). -/
def blockEquiv : Fin 64 × Fin 12544 ≃ Fin 802816 where
  toFun p := rowOf p.1 p.2
  invFun r := (⟨r.val / 12544, by have := r.isLt; omega⟩, ⟨r.val % 12544, by omega⟩)
  left_inv := by
    rintro ⟨t, q⟩
    have ht := t.isLt
    have hq := q.isLt
    ext
    · show (t.val * 12544 + q.val) / 12544 = t.val
      omega
    · show (t.val * 12544 + q.val) % 12544 = q.val
      omega
  right_inv := by
    intro r
    ext
    show r.val / 12544 * 12544 + r.val % 12544 = r.val
    omega

/-- A sum over the rows, block by block. -/
theorem sum_blocks {M : Type} [AddCommMonoid M] (f : Fin 802816 → M) :
    ∑ t : Fin 64, ∑ q : Fin 12544, f (rowOf t q) = ∑ r : Fin 802816, f r := by
  rw [← Fintype.sum_prod_type' (fun t q => f (rowOf t q))]
  exact Fintype.sum_equiv blockEquiv _ _ (fun _ => rfl)

/-! ### Sums of real numbers inside the extended reals -/

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### The pick -/

/-- With the class index a class, the one-hot sum is the score at the index. -/
theorem sel_eq_pick (P T : Arr) (r : Fin 802816) (h : (ctgt T r).toNat < 20) : sel P T r = pick P T r := by
  rw [sel, pick, dif_pos h]
  rw [Finset.sum_eq_single (⟨(ctgt T r).toNat, h⟩ : Fin 20)]
  · rw [if_pos]
    apply BitVec.eq_of_toNat_eq
    rw [BitVec.toNat_ofNat]
    exact Nat.mod_eq_of_lt (by omega)
  · intro c _ hc
    rw [if_neg]
    intro he
    apply hc
    apply Fin.ext
    have h2 := congrArg BitVec.toNat he
    rw [BitVec.toNat_ofNat, Nat.mod_eq_of_lt (by have := c.isLt; omega)] at h2
    exact h2
  · intro hn
    exact absurd (Finset.mem_univ _) hn

/-! ### Real scores give real log-softmax values -/

/-- The running maximum of 20 real numbers is a real number. -/
theorem rowmax_real (P : Arr) (hP : ∀ r j, ∃ x : ℝ, P r j = (x : EReal)) (r : Fin 802816) :
    ∃ m : ℝ, rowmax P r = (m : EReal) := by
  have htop : rowmax P r ≠ ⊤ := by
    apply ne_of_lt
    rw [rowmax, Finset.fold_max_lt]
    refine ⟨bot_lt_top, fun c _ => ?_⟩
    obtain ⟨x, hx⟩ := hP r (cls c)
    rw [hx]
    exact EReal.coe_lt_top x
  have hbot : rowmax P r ≠ ⊥ := by
    apply ne_of_gt
    obtain ⟨x, hx⟩ := hP r (cls 0)
    have hle : P r (cls 0) ≤ rowmax P r := by
      rw [rowmax, Finset.le_fold_max]
      exact Or.inr ⟨0, Finset.mem_univ _, le_refl _⟩
    exact lt_of_lt_of_le (by rw [hx]; exact EReal.bot_lt_coe x) hle
  exact ⟨(rowmax P r).toReal, (EReal.coe_toReal htop hbot).symm⟩

/-- The log-softmax of real scores is a real number. -/
theorem logp_real (P : Arr) (hP : ∀ r j, ∃ x : ℝ, P r j = (x : EReal)) (r : Fin 802816) (c : Fin 20) :
    ∃ l : ℝ, logp P r c = (l : EReal) := by
  obtain ⟨m, hm⟩ := rowmax_real P hP r
  have hsh : ∀ c : Fin 20, ∃ x : ℝ, shifted P r c = (x : EReal) := by
    intro c
    obtain ⟨x, hx⟩ := hP r (cls c)
    exact ⟨x - m, by rw [shifted, hx, hm, EReal.coe_sub]⟩
  choose s hs using hsh
  have hlse : lse P r = ((Real.log (∑ c : Fin 20, Real.exp (s c)) : ℝ) : EReal) := by
    have hsum : (∑ c : Fin 20, Ideal.exp (shifted P r c)) = ((∑ c : Fin 20, Real.exp (s c) : ℝ) : EReal) := by
      rw [← coe_sum]
      refine Finset.sum_congr rfl (fun c _ => ?_)
      rw [hs c, Ideal.exp_coe]
    have hpos : 0 < ∑ c : Fin 20, Real.exp (s c) :=
      Finset.sum_pos (fun c _ => Real.exp_pos _) Finset.univ_nonempty
    rw [lse, hsum, Ideal.log_coe, if_neg (not_le.mpr hpos)]
  exact ⟨s c - Real.log (∑ c : Fin 20, Real.exp (s c)), by rw [logp, hs c, hlse, EReal.coe_sub]⟩

/-! ### The squared errors -/

/-- Both arrangements sum the same eight squared differences of a row. -/
theorem seK_eq (P T : Arr) (r : Fin 802816) : seK P T r = seXY P T r + seWH P T r := by
  simp only [seK, seXY, seWH, pair, Fin.sum_univ_two]
  rfl

/-- The mask is 0 or 1, so it distributes over a sum. -/
theorem mask_mul_add (T : Arr) (r : Fin 802816) (a b : EReal) :
    mask T r * (a + b) = mask T r * a + mask T r * b := by
  unfold mask
  split
  · simp only [one_mul]
  · simp only [zero_mul, add_zero]

/-! ### The two arrangements agree -/

theorem Kval_eq_Rval (P T : Arr) (hP : ∀ r j, ∃ x : ℝ, P r j = (x : EReal))
    (hct : ∀ r, (ctgt T r).toNat < 20) : Kval P T = Rval P T := by
  -- the picked scores are real numbers
  have hpick : ∀ r, ∃ l : ℝ, pick P T r = (l : EReal) := by
    intro r
    rw [pick, dif_pos (hct r)]
    exact logp_real P hP r _
  choose l hl using hpick
  -- the class part: the negation moves across the sums of reals
  have hA : ∑ t : Fin 64, blkA P T t = -(∑ r : Fin 802816, pick P T r) := by
    have hblk : ∀ t : Fin 64, blkA P T t = ((-(∑ q : Fin 12544, l (rowOf t q)) : ℝ) : EReal) := by
      intro t
      have hq : ∀ q : Fin 12544, sel P T (rowOf t q) = ((l (rowOf t q) : ℝ) : EReal) := fun q => by
        rw [sel_eq_pick P T _ (hct _), hl]
      rw [blkA, Finset.sum_congr rfl (fun q _ => hq q), coe_sum, zero_sub, EReal.coe_neg]
    have hall : ∑ r : Fin 802816, pick P T r = ((∑ r : Fin 802816, l r : ℝ) : EReal) := by
      rw [← coe_sum]
      exact Finset.sum_congr rfl (fun r _ => hl r)
    rw [Finset.sum_congr rfl (fun t _ => hblk t), coe_sum, hall, ← EReal.coe_neg, Finset.sum_neg_distrib,
      sum_blocks l]
  -- the division by the non-zero real 802816 commutes with the negation
  have hdiv : Ideal.div (∑ t : Fin 64, blkA P T t) cN = -(Ideal.div (∑ r : Fin 802816, pick P T r) cN) := by
    rw [hA, cN_eq, Ideal.div_coe (by norm_num), Ideal.div_coe (by norm_num), neg_mul]
  -- the squared-error part and the object count: re-indexing only
  have hM : ∑ t : Fin 64, blkM P T t
      = (∑ r : Fin 802816, mask T r * seXY P T r) + (∑ r : Fin 802816, mask T r * seWH P T r) := by
    simp only [blkM]
    rw [sum_blocks (fun r => mask T r * seK P T r), ← Finset.sum_add_distrib]
    refine Finset.sum_congr rfl (fun r _ => ?_)
    rw [seK_eq, mask_mul_add]
  have hN : ∑ t : Fin 64, blkN T t = ∑ r : Fin 802816, mask T r := by
    simp only [blkN]
    exact sum_blocks (fun r => mask T r)
  rw [Kval, Rval, hdiv, hM, hN]

end Cert.Spec

end
-- ==== Proof.Claims.lean ====
/-
  The five claims, assembled.

  Frames. Each kernel program: the pipeline's launch theorem over the three runs of the loss kernel's body (the first grid
  point zeroes the three accumulators, every point adds its block's partial sums, the last point combines them into the
  result window); the reference: its run, the result dropped.

  Values at the extended reals. Both programs build the same two flattened arrays by the same host operations — the
  predictions' cells P, a reshape of the first argument, and the targets' cells T, the encoding of the second — and these
  are carried as one function of the arguments on both sides. The kernel's result is Kval P T (the 64 blocks' partial
  sums, combined), the reference's is Rval P T (the picked log-softmax entries' mean negated, plus five times the masked
  squared error over four times the object count). The two agree when the predictions are real numbers and every target
  row's slot 10 truncates to a class index; the precondition gives both: slot 10 of an encoded cell is 0 (a cell no box
  was written to) or S·(y2 − y1) of some box, which the precondition bounds box by box.
-/
import proofs.«115196_j11467562680721_1_alg».proof.Defs
import proofs.«115196_j11467562680721_1_alg».proof.Proof.Gen.Kernel
import proofs.«115196_j11467562680721_1_alg».proof.Proof.Gen.KernelIdeal
import proofs.«115196_j11467562680721_1_alg».proof.Proof.Gen.ReferenceIdeal
import proofs.«115196_j11467562680721_1_alg».proof.Proof.Gen.Pre_finite_inputs
import proofs.«115196_j11467562680721_1_alg».proof.Proof.KFrame
import proofs.«115196_j11467562680721_1_alg».proof.Proof.PointsValue
import proofs.«115196_j11467562680721_1_alg».proof.Proof.RefRun
import proofs.«115196_j11467562680721_1_alg».proof.Proof.RefTail
import proofs.«115196_j11467562680721_1_alg».proof.Proof.RefTailValue
import proofs.«115196_j11467562680721_1_alg».proof.Proof.Encode
import proofs.«115196_j11467562680721_1_alg».proof.Proof.RefEncode
import proofs.«115196_j11467562680721_1_alg».proof.Proof.PreDecode
import proofs.«115196_j11467562680721_1_alg».proof.Proof.Glue
import proofs.«115196_j11467562680721_1_alg».proof.Proof.Bridge

noncomputable section

open Idealize.ShloMosaic Idealize.ShloMosaic.TcCoe Idealize.SL.Sem

namespace Cert.Proof.Claims

open Cert.Spec

attribute [local instance] Cert.ReferenceIdeal.Gen.facts

/-- The word-level kernel program runs to the end, faults nowhere and leaves its two arguments as they were. -/
theorem frame_p : Cert.frame_Kernel (hKernel := Cert.Kernel.Gen.facts) (hPre_finite_inputs := Cert.Pre_finite_inputs.Gen.facts) :=
  fun m ρ _ => Cert.Kernel.Hand.frame (F := Bits) m ρ

/-- The same of the idealized kernel program. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference: its run, the result dropped. -/
theorem frame_ri : Cert.frame_ReferenceIdeal (hReferenceIdeal := Cert.ReferenceIdeal.Gen.facts) (hPre_finite_inputs := Cert.Pre_finite_inputs.Gen.facts) :=
  Cert.ReferenceIdeal.Hand.frame_ri

/-- The ideal pass rewrote nothing. -/
theorem preserves : Cert.preserves_Kernel_KernelIdeal := trivial

/-- The predictions' cells the kernel's region finds are the reshaped first argument. -/
theorem PK_eq (m : (ℓ : Loc Cert.KernelIdeal.nD Cert.KernelIdeal.τ Cert.KernelIdeal.sig) → Buf (Elt Ideal) ℓ) (c : Dev Cert.KernelIdeal.nD) :
    Cert.KernelIdeal.KV.PK m c = Cert.ReferenceIdeal.RV.arr (Cert.KernelIdeal.Enc.flatP (m ((c.tc : Thread Cert.KernelIdeal.nD Cert.KernelIdeal.τ).loc Cert.KernelIdeal.main_arg0))) := by
  funext r j
  exact congrFun (Cert.KernelIdeal.Enc.pred_eq (F := Ideal) (fun b => m (c, b))) (ValueIdx.ix2 r j)

/-- The targets' cells the kernel's region finds are the encoded second argument. -/
theorem TK_eq (m : (ℓ : Loc Cert.KernelIdeal.nD Cert.KernelIdeal.τ Cert.KernelIdeal.sig) → Buf (Elt Ideal) ℓ) (c : Dev Cert.KernelIdeal.nD) :
    Cert.KernelIdeal.KV.TK m c = Cert.ReferenceIdeal.RV.arr (Cert.KernelIdeal.Enc.encT (m ((c.tc : Thread Cert.KernelIdeal.nD Cert.KernelIdeal.τ).loc Cert.KernelIdeal.main_arg1))) := by
  funext r j
  exact congrFun (Cert.KernelIdeal.Enc.tgt_eq (F := Ideal) (fun b => m (c, b))) (ValueIdx.ix2 r j)

/-- From memories agreeing on the arguments both idealized programs run, and end with the same result: the kernel's
    Kval of the two flattened arrays, which under the precondition is the reference's Rval of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c _ => Kval (Cert.KernelIdeal.KV.PK m c) (Cert.KernelIdeal.KV.TK m c),
    Cert.KernelIdeal.KV.kernel_run_of m ρ (fun c => Cert.KernelIdeal.KV.final_out_value m c), ?_⟩
  refine (θ_run Cert.ReferenceIdeal.defs _ _).mono (fun r h c => ⟨(h c).1.trans ?_, (h c).2.1, (h c).2.2⟩)
    (Cert.ReferenceIdeal.Hand.run (F := Ideal) m' ρ')
  -- the precondition, decoded: real predictions, and every box's class slot a class index
  obtain ⟨hfin, hbox⟩ := Cert.Pre_finite_inputs.Hand.pre_decode _ _ (hpre c)
  -- the reference's result as its last stretch applied to the two flattened arrays, which are the kernel's
  rw [Cert.ReferenceIdeal.Hand.result_eq, Cert.ReferenceIdeal.Enc.ref_pred_eq, Cert.ReferenceIdeal.Enc.ref_tgt_eq]
  show Cert.ReferenceIdeal.RV.refTail (F := Ideal)
      (Cert.KernelIdeal.Enc.flatP (m' ((c.tc : Thread Cert.ReferenceIdeal.nD Cert.ReferenceIdeal.τ).loc Cert.ReferenceIdeal.main_arg0)))
      (Cert.KernelIdeal.Enc.encT (m' ((c.tc : Thread Cert.ReferenceIdeal.nD Cert.ReferenceIdeal.τ).loc Cert.ReferenceIdeal.main_arg1))) = _
  rw [(hagree c).1, (hagree c).2]
  show _ = fun _ => Kval (Cert.KernelIdeal.KV.PK m c) (Cert.KernelIdeal.KV.TK m c)
  rw [PK_eq, TK_eq]
  -- every target row's slot 10 truncates to a class index: it is 0 or some box's S·(y2 − y1)
  have hct : ∀ r, (ctgt (Cert.ReferenceIdeal.RV.arr (Cert.KernelIdeal.Enc.encT (m ((c.tc : Thread Cert.KernelIdeal.nD Cert.KernelIdeal.τ).loc Cert.KernelIdeal.main_arg1)))) r).toNat < 20 :=
    Cert.Proof.Glue.ctgt_lt_of_slot _ _ (Cert.KernelIdeal.Enc.encT_slot10 _) hbox
  rw [Cert.ReferenceIdeal.RV.refTail_eq _ _ hct]
  funext _
  exact (Kval_eq_Rval _ _ (fun r j => Cert.KernelIdeal.Enc.flatP_finite _ hfin (ValueIdx.ix2 r j)) hct).symm

end Cert.Proof.Claims

end
-- ==== Proof.lean ====
/-
  The certificate of a YOLO-style loss kernel against its jnp reference, over the extended reals.

  From prediction [16384, 1470] and labels [16384, 8, 5] both programs encode the boxes into per-cell target rows
  (the same host operations), flatten both arrays to 802816 rows of 30, and compute
      -(mean over rows of the log-softmax of the 20 class scores at the row's class index)
        + 5 · (Σ_rows mask · squared error of the boxes' offsets and sizes) / (4 · Σ_rows mask),
  the kernel in one pass over 64 blocks of 12544 rows with three carried accumulators and a one-hot pick, the reference
  with whole-array reductions and an indexed pick. The precondition: every input finite, and every box's class slot
  S·(y2 − y1), truncated, a class index in [0, 20) (off it the reference's indexed pick leaves the classes).

  Spec.lean states the two arrangements, Bridge.lean that they agree; Frame*.lean / Run*.lean are the kernel programs'
  frames, Pieces / PointsPayload / Payload* / PointsValue / KernelValue the kernel's value, RefRun / RefTail* / RefLoc* /
  RefTake* the reference's run and value, Encode / RefEncode the shared host operations as one function, PreDecode / Glue
  the precondition read at a box; Claims.lean assembles the five claims.
-/
import proofs.«115196_j11467562680721_1_alg».proof.Defs
import proofs.«115196_j11467562680721_1_alg».proof.Proof.Gen.Kernel
import proofs.«115196_j11467562680721_1_alg».proof.Proof.Gen.Kernel.Skeleton
import proofs.«115196_j11467562680721_1_alg».proof.Proof.Gen.Kernel.Launch
import proofs.«115196_j11467562680721_1_alg».proof.Proof.Gen.Kernel.Points
import proofs.«115196_j11467562680721_1_alg».proof.Proof.Gen.KernelIdeal
import proofs.«115196_j11467562680721_1_alg».proof.Proof.Gen.KernelIdeal.Skeleton
import proofs.«115196_j11467562680721_1_alg».proof.Proof.Gen.KernelIdeal.Launch
import proofs.«115196_j11467562680721_1_alg».proof.Proof.Gen.KernelIdeal.Points
import proofs.«115196_j11467562680721_1_alg».proof.Proof.Gen.ReferenceIdeal
import proofs.«115196_j11467562680721_1_alg».proof.Proof.Gen.Pre_finite_inputs
import proofs.«115196_j11467562680721_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
